-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S3072x1024 : Shape := ⟨2, ![3072, 1024]⟩
abbrev S3072 : Shape := ⟨1, ![3072]⟩
abbrev S8x1024 : Shape := ⟨2, ![8, 1024]⟩
abbrev S1024x8 : Shape := ⟨2, ![1024, 8]⟩
abbrev S16x1x1 : Shape := ⟨3, ![16, 1, 1]⟩
abbrev S1024x1024 : Shape := ⟨2, ![1024, 1024]⟩
abbrev S1024 : Shape := ⟨1, ![1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S8x1024 : S_.BroadcastsInDim S8x1024 (![] : Fin 0 → Fin S8x1024.rank)
  reducesTo_S8x1024_S_d0_1 : S8x1024.ReducesTo [0, 1] S_
  bcast_S_S1024x8 : S_.BroadcastsInDim S1024x8 (![] : Fin 0 → Fin S1024x8.rank)
  reducesTo_S1024x8_S_d0_1 : S1024x8.ReducesTo [0, 1] S_
  bcast_S_S16x1x1 : S_.BroadcastsInDim S16x1x1 (![] : Fin 0 → Fin S16x1x1.rank)
  reducesTo_S16x1x1_S_d0_1_2 : S16x1x1.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S8x1024 .f32) (main_arg8 : FVec F S1024x8 .f32) (main_arg9 : FVec F S16x1x1 .f32) (main_arg10 : FVec F S1024x1024 .f32) (main_arg11 : FVec F S1024 .f32) (main_v33 : IVec S_ 1) : IVec S_ 1 :=
  let main_v34 : FVec F S8x1024 .f32 := Host.absf main_arg7
  let main_cst_12 : FVec F S_ .f32 := constant S_ .f32 0x7F800000#32
  let main_v35 : FVec F S8x1024 .f32 := broadcastInDim S8x1024 ![] bcast_S_S8x1024 main_cst_12
  let main_v36 : IVec S8x1024 1 := cmpf .olt main_v34 main_v35
  let main_c_13 : IVec S_ 1 := constantI S_ 1 1#1
  let main_v37 : IVec S_ 1 := (fun x v => Host.reduce IntOp.andi x v reducesTo_S8x1024_S_d0_1 h_S_) main_v36 main_c_13
  let main_v38 : IVec S_ 1 := andi main_v33 main_v37
  let main_v39 : FVec F S1024x8 .f32 := Host.absf main_arg8
  let main_cst_14 : FVec F S_ .f32 := constant S_ .f32 0x7F800000#32
  let main_v40 : FVec F S1024x8 .f32 := broadcastInDim S1024x8 ![] bcast_S_S1024x8 main_cst_14
  let main_v41 : IVec S1024x8 1 := cmpf .olt main_v39 main_v40
  let main_c_15 : IVec S_ 1 := constantI S_ 1 1#1
  let main_v42 : IVec S_ 1 := (fun x v => Host.reduce IntOp.andi x v reducesTo_S1024x8_S_d0_1 h_S_) main_v41 main_c_15
  let main_v43 : IVec S_ 1 := andi main_v38 main_v42
  let main_v44 : FVec F S16x1x1 .f32 := Host.absf main_arg9
  let main_cst_16 : FVec F S_ .f32 := constant S_ .f32 0x7F800000#32
  let main_v45 : FVec F S16x1x1 .f32 := broadcastInDim S16x1x1 ![] bcast_S_S16x1x1 main_cst_16
  let main_v46 : IVec S16x1x1 1 := cmpf .olt main_v44 main_v45
  let main_c_17 : IVec S_ 1 := constantI S_ 1 1#1
  let main_v47 : IVec S_ 1 := (fun x v => Host.reduce IntOp.andi x v reducesTo_S16x1x1_S_d0_1_2 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S1024x8 .f32) (main_arg5 : FVec F S8x1024 .f32) (main_arg6 : FVec F S1024x8 .f32) (main_arg7 : FVec F S8x1024 .f32) (main_arg8 : FVec F S1024x8 .f32) (main_arg9 : FVec F S16x1x1 .f32) (main_arg10 : FVec F S1024x1024 .f32) (main_arg11 : FVec F S1024 .f32) (main_v13 : IVec S_ 1) (main_v16 : IVec S8x1024 1) : IVec S_ 1 :=
  let main_c_5 : IVec S_ 1 := constantI S_ 1 1#1
  let main_v17 : IVec S_ 1 := (fun x v => Host.reduce IntOp.andi x v reducesTo_S8x1024_S_d0_1 h_S_) main_v16 main_c_5
  let main_v18 : IVec S_ 1 := andi main_v13 main_v17
  let main_v19 : FVec F S1024x8 .f32 := Host.absf main_arg4
  let main_cst_6 : FVec F S_ .f32 := constant S_ .f32 0x7F800000#32
  let main_v20 : FVec F S1024x8 .f32 := broadcastInDim S1024x8 ![] bcast_S_S1024x8 main_cst_6
  let main_v21 : IVec S1024x8 1 := cmpf .olt main_v19 main_v20
  let main_c_7 : IVec S_ 1 := constantI S_ 1 1#1
  let main_v22 : IVec S_ 1 := (fun x v => Host.reduce IntOp.andi x v reducesTo_S1024x8_S_d0_1 h_S_) main_v21 main_c_7
  let main_v23 : IVec S_ 1 := andi main_v18 main_v22
  let main_v24 : FVec F S8x1024 .f32 := Host.absf main_arg5
  let main_cst_8 : FVec F S_ .f32 := constant S_ .f32 0x7F800000#32
  let main_v25 : FVec F S8x1024 .f32 := broadcastInDim S8x1024 ![] bcast_S_S8x1024 main_cst_8
  let main_v26 : IVec S8x1024 1 := cmpf .olt main_v24 main_v25
  let main_c_9 : IVec S_ 1 := constantI S_ 1 1#1
  let main_v27 : IVec S_ 1 := (fun x v => Host.reduce IntOp.andi x v reducesTo_S8x1024_S_d0_1 h_S_) main_v26 main_c_9
  let main_v28 : IVec S_ 1 := andi main_v23 main_v27
  let main_v29 : FVec F S1024x8 .f32 := Host.absf main_arg6
  let main_cst_10 : FVec F S_ .f32 := constant S_ .f32 0x7F800000#32
  let main_v30 : FVec F S1024x8 .f32 := broadcastInDim S1024x8 ![] bcast_S_S1024x8 main_cst_10
  let main_v31 : IVec S1024x8 1 := cmpf .olt main_v29 main_v30
  let main_c_11 : IVec S_ 1 := constantI S_ 1 1#1
  let main_v32 : IVec S_ 1 := (fun x v => Host.reduce IntOp.andi x v reducesTo_S1024x8_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4x1024x1024 .f32) (main_arg1 : FVec F S3072x1024 .f32) (main_arg2 : FVec F S3072 .f32) (main_arg3 : FVec F S8x1024 .f32) (main_arg4 : FVec F S1024x8 .f32) (main_arg5 : FVec F S8x1024 .f32) (main_arg6 : FVec F S1024x8 .f32) (main_arg7 : FVec F S8x1024 .f32) (main_arg8 : FVec F S1024x8 .f32) (main_arg9 : FVec F S16x1x1 .f32) (main_arg10 : FVec F S1024x1024 .f32) (main_arg11 : FVec F S1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S8x1024 .f32 := Host.absf main_arg3
  let main_cst_4 : FVec F S_ .f32 := constant S_ .f32 0x7F800000#32
  let main_v15 : FVec F S8x1024 .f32 := broadcastInDim S8x1024 ![] bcast_S_S8x1024 main_cst_4
  let main_v16 : IVec S8x1024 1 := cmpf .olt main_v14 main_v15
  fn_part1 (F := F) main_arg4 main_arg5 main_arg6 main_arg7 main_arg8 main_arg9 main_arg10 main_arg11 main_v13 main_v16
-- ==== Kernel.lean ====
abbrev S4x1024x1024 : Shape := ⟨3, ![4, 1024, 1024]⟩
abbrev S3072x1024 : Shape := ⟨2, ![3072, 1024]⟩
abbrev S3072 : Shape := ⟨1, ![3072]⟩
abbrev S8x1024 : Shape := ⟨2, ![8, 1024]⟩
abbrev S1024x8 : Shape := ⟨2, ![1024, 8]⟩
abbrev S16x1x1 : Shape := ⟨3, ![16, 1, 1]⟩
abbrev S1024x1024 : Shape := ⟨2, ![1024, 1024]⟩
abbrev S1024 : Shape := ⟨1, ![1024]⟩
abbrev S4x16x1024x64 : Shape := ⟨4, ![4, 16, 1024, 64]⟩
abbrev S1x256x1024 : Shape := ⟨3, ![1, 256, 1024]⟩
abbrev S1x16x256x64 : Shape := ⟨4, ![1, 16, 256, 64]⟩
abbrev S256x1024 : Shape := ⟨2, ![256, 1024]⟩
abbrev S256x8 : Shape := ⟨2, ![256, 8]⟩
abbrev S1x1024 : Shape := ⟨2, ![1, 1024]⟩
abbrev S256x16x64 : Shape := ⟨3, ![256, 16, 64]⟩
abbrev S16x256x64 : Shape := ⟨3, ![16, 256, 64]⟩
abbrev S_ : Shape := ⟨0, ![]⟩
abbrev S1x1x1024x64 : Shape := ⟨4, ![1, 1, 1024, 64]⟩
abbrev S1x1x1 : Shape := ⟨3, ![1, 1, 1]⟩
abbrev S1024x64 : Shape := ⟨2, ![1024, 64]⟩
abbrev S1024x1 : Shape := ⟨2, ![1024, 1]⟩
abbrev S64x1024 : Shape := ⟨2, ![64, 1024]⟩
abbrev S4x1024x16x64 : Shape := ⟨4, ![4, 1024, 16, 64]⟩
abbrev S1x512x1024 : Shape := ⟨3, ![1, 512, 1024]⟩
abbrev S512x1024 : Shape := ⟨2, ![512, 1024]⟩

abbrev nBuf : Space → Nat
  | .hbm => 49
  | .vmem => 36
  | .smem => 0
  | _ => 0

abbrev bufTy : (tb : Table) → Fin (tcTables nBuf tb) → BufTy
  | .hbm, ⟨0, _⟩ => ⟨S4x1024x1024, .f32⟩
  | .hbm, ⟨1, _⟩ => ⟨S3072x1024, .f32⟩
  | .hbm, ⟨2, _⟩ => ⟨S3072, .f32⟩
  | .hbm, ⟨3, _⟩ => ⟨S8x1024, .f32⟩
  | .hbm, ⟨4, _⟩ => ⟨S1024x8, .f32⟩
  | .hbm, ⟨5, _⟩ => ⟨S8x1024, .f32⟩
  | .hbm, ⟨6, _⟩ => ⟨S1024x8, .f32⟩
  | .hbm, ⟨7, _⟩ => ⟨S8x1024, .f32⟩
  | .hbm, ⟨8, _⟩ => ⟨S1024x8, .f32⟩
  | .hbm, ⟨9, _⟩ => ⟨S16x1x1, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x8, .f32⟩
  | .hbm, ⟨25, _⟩ => ⟨S1024x8, .bf16⟩
  | .hbm, ⟨26, _⟩ => ⟨S8x1024, .f32⟩
  | .hbm, ⟨27, _⟩ => ⟨S8x1024, .bf16⟩
  | .hbm, ⟨28, _⟩ => ⟨S1024x8, .f32⟩
  | .hbm, ⟨29, _⟩ => ⟨S1024x8, .bf16⟩
  | .hbm, ⟨30, _⟩ => ⟨S8x1024, .f32⟩
  | .hbm, ⟨31, _⟩ => ⟨S8x1024, .bf16⟩
  | .hbm, ⟨32, _⟩ => ⟨S1024x8, .f32⟩
  | .hbm, ⟨33, _⟩ => ⟨S1024x8, .bf16⟩
  | .hbm, ⟨34, _⟩ => ⟨S8x1024, .f32⟩
  | .hbm, ⟨35, _⟩ => ⟨S8x1024, .bf16⟩
  | .hbm, ⟨36, _⟩ => ⟨S4x16x1024x64, .f32⟩
  | .hbm, ⟨37, _⟩ => ⟨S4x16x1024x64, .f32⟩
  | .hbm, ⟨38, _⟩ => ⟨S4x16x1024x64, .f32⟩
  | .hbm, ⟨39, _⟩ => ⟨S_, .f32⟩
  | .hbm, ⟨40, _⟩ => ⟨S16x1x1, .f32⟩
  | .hbm, ⟨41, _⟩ => ⟨S16x1x1, .f32⟩
  | .hbm, ⟨42, _⟩ => ⟨S16x1x1, .f32⟩
  | .hbm, ⟨43, _⟩ => ⟨S4x16x1024x64, .f32⟩
  | .hbm, ⟨44, _⟩ => ⟨S4x1024x16x64, .f32⟩
  | .hbm, ⟨45, _⟩ => ⟨S4x1024x1024, .f32⟩
  | .hbm, ⟨46, _⟩ => ⟨S1024x1024, .f32⟩
  | .hbm, ⟨47, _⟩ => ⟨S1024x1024, .bf16⟩
  | .hbm, ⟨48, _⟩ => ⟨S4x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1024x8, .bf16⟩
  | .local _ .vmem, ⟨9, _⟩ => ⟨S8x1024, .bf16⟩
  | .local _ .vmem, ⟨10, _⟩ => ⟨S1024x8, .bf16⟩
  | .local _ .vmem, ⟨11, _⟩ => ⟨S8x1024, .bf16⟩
  | .local _ .vmem, ⟨12, _⟩ => ⟨S1024x8, .bf16⟩
  | .local _ .vmem, ⟨13, _⟩ => ⟨S8x1024, .bf16⟩
  | .local _ .vmem, ⟨14, _⟩ => ⟨S1x16x256x64, .f32⟩
  | .local _ .vmem, ⟨15, _⟩ => ⟨S1x16x256x64, .f32⟩
  | .local _ .vmem, ⟨16, _⟩ => ⟨S1x16x256x64, .f32⟩
  | .local _ .vmem, ⟨17, _⟩ => ⟨S1x16x256x64, .f32⟩
  | .local _ .vmem, ⟨18, _⟩ => ⟨S1x16x256x64, .f32⟩
  | .local _ .vmem, ⟨19, _⟩ => ⟨S1x16x256x64, .f32⟩
  | .local _ .vmem, ⟨20, _⟩ => ⟨S1x1x1024x64, .f32⟩
  | .local _ .vmem, ⟨21, _⟩ => ⟨S1x1x1024x64, .f32⟩
  | .local _ .vmem, ⟨22, _⟩ => ⟨S1x1x1024x64, .f32⟩
  | .local _ .vmem, ⟨23, _⟩ => ⟨S1x1x1024x64, .f32⟩
  | .local _ .vmem, ⟨24, _⟩ => ⟨S1x1x1024x64, .f32⟩
  | .local _ .vmem, ⟨25, _⟩ => ⟨S1x1x1024x64, .f32⟩
  | .local _ .vmem, ⟨26, _⟩ => ⟨S1x1x1, .f32⟩
  | .local _ .vmem, ⟨27, _⟩ => ⟨S1x1x1, .f32⟩
  | .local _ .vmem, ⟨28, _⟩ => ⟨S1x1x1024x64, .f32⟩
  | .local _ .vmem, ⟨29, _⟩ => ⟨S1x1x1024x64, .f32⟩
  | .local _ .vmem, ⟨30, _⟩ => ⟨S1x512x1024, .f32⟩
  | .local _ .vmem, ⟨31, _⟩ => ⟨S1x512x1024, .f32⟩
  | .local _ .vmem, ⟨32, _⟩ => ⟨S1024x1024, .bf16⟩
  | .local _ .vmem, ⟨33, _⟩ => ⟨S1024, .f32⟩
  | .local _ .vmem, ⟨34, _⟩ => ⟨S1x512x1024, .f32⟩
  | .local _ .vmem, ⟨35, _⟩ => ⟨S1x512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem3_1 : DmaSem sig := 35

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x8 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x8 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x8 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x16x256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x256x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x256x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev grid1 : Pipeline.Grid := ⟨2, ![4, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1x1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![4, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  slices_S3072_S1024_0 : S3072.Slices ![0] S1024
  slices_S3072_S1024_1024 : S3072.Slices ![1024] S1024
  slices_S3072_S1024_2048 : S3072.Slices ![2048] S1024
  transposes_S1024x1024_S1024x1024_1_0 : S1024x1024.Transposes [1, 0] S1024x1024
  bitsLt_bf16_f32 : FTy.bits .bf16 < FTy.bits .f32
  transposes_S8x1024_S1024x8_1_0 : S8x1024.Transposes [1, 0] S1024x8
  transposes_S1024x8_S8x1024_1_0 : S1024x8.Transposes [1, 0] S8x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S1024_S1x1024 : S1024.ShapeCasts S1x1024
  broadcasts_S1x1024_S256x1024 : S1x1024.Broadcasts S256x1024
  shapeCasts_S256x1024_S256x16x64 : S256x1024.ShapeCasts S256x16x64
  transposes_S256x16x64_p1_0_2_S16x256x64 : S256x16x64.Transposes [1, 0, 2] S16x256x64
  shapeCasts_S16x256x64_S1x16x256x64 : S16x256x64.ShapeCasts S1x16x256x64
  inb_S1x16x256x64_S1x16x256x64_0_0_0_0 : ∀ a, (![0, 0, 0, 0] : Fin 4 → Nat) a + S1x16x256x64.size a ≤ S1x16x256x64.size a
  h_S1x16x256x64 : 0 < S1x16x256x64.numel
  bcast_S_S16x1x1 : S_.BroadcastsInDim S16x1x1 (![] : Fin 0 → Fin S16x1x1.rank)
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1x1x1024x64 : S1x1x1024x64.ShapeCasts S1x1x1024x64
  shapeCasts_S1x1x1024x64_S1024x64 : S1x1x1024x64.ShapeCasts S1024x64
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inpos_S1x1x1_p0_0_0 : ∀ a, (![0, 0, 0] : Fin 3 → Nat) a < S1x1x1.size a
  reduces_S1024x64_S1024 : S1024x64.Reduces [1] S1024
  shapeCasts_S1024_S1024x1 : S1024.ShapeCasts S1024x1
  broadcasts_S1024x1_S1024x64 : S1024x1.Broadcasts S1024x64
  transposes_S1024x64_p1_0_S64x1024 : S1024x64.Transposes [1, 0] S64x1024
  reduces_S1024x1024_S1024 : S1024x1024.Reduces [1] S1024
  broadcasts_S1024x1_S1024x1024 : S1024x1.Broadcasts S1024x1024
  shapeCasts_S1024x64_S1x1x1024x64 : S1024x64.ShapeCasts S1x1x1024x64
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  shapeCasts_S1x512x1024_S512x1024 : S1x512x1024.ShapeCasts S512x1024
  broadcasts_S1x1024_S512x1024 : S1x1024.Broadcasts S512x1024
  shapeCasts_S512x1024_S1x512x1024 : S512x1024.ShapeCasts S1x512x1024
  dot_S256x1024_S1024x1024_S256x1024_1_0_0_1_n_n_wf : DotDims.WF S256x1024 S1024x1024 S256x1024 [1] [0] [0] [1] [] []
  dot_S256x1024_S1024x8_S256x8_1_0_0_1_n_n_wf : DotDims.WF S256x1024 S1024x8 S256x8 [1] [0] [0] [1] [] []
  dot_S256x8_S8x1024_S256x1024_1_0_0_1_n_n_wf : DotDims.WF S256x8 S8x1024 S256x1024 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x1024x1024.size a
  hwx0_0 : ∀ i : grid0.Coords, EltTy.bits .f32 = 32 ∨ (Rect.block (s := S4x1024x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x8.size a ≤ S1024x8.size a
  hwx0_7 : ∀ i : grid0.Coords, EltTy.bits .bf16 = 32 ∨ (Rect.block (s := S1024x8) S1024x8.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x1024.size a ≤ S8x1024.size a
  hwx0_8 : ∀ i : grid0.Coords, EltTy.bits .bf16 = 32 ∨ (Rect.block (s := S8x1024) S8x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x8.size a ≤ S1024x8.size a
  hwx0_9 : ∀ i : grid0.Coords, EltTy.bits .bf16 = 32 ∨ (Rect.block (s := S1024x8) S1024x8.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x1024.size a ≤ S8x1024.size a
  hwx0_10 : ∀ i : grid0.Coords, EltTy.bits .bf16 = 32 ∨ (Rect.block (s := S8x1024) S8x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x8.size a ≤ S1024x8.size a
  hwx0_11 : ∀ i : grid0.Coords, EltTy.bits .bf16 = 32 ∨ (Rect.block (s := S1024x8) S1024x8.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S8x1024.size a ≤ S8x1024.size a
  hwx0_12 : ∀ i : grid0.Coords, EltTy.bits .bf16 = 32 ∨ (Rect.block (s := S8x1024) S8x1024.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x16x256x64.size a ≤ S4x16x1024x64.size a
  hwx0_13 : ∀ i : grid0.Coords, EltTy.bits .f32 = 32 ∨ (Rect.block (s := S4x16x1024x64) S1x16x256x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x16x256x64.size a ≤ S4x16x1024x64.size a
  hwx0_14 : ∀ i : grid0.Coords, EltTy.bits .f32 = 32 ∨ (Rect.block (s := S4x16x1024x64) S1x16x256x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x16x256x64.size a ≤ S4x16x1024x64.size a
  hwx0_15 : ∀ i : grid0.Coords, EltTy.bits .f32 = 32 ∨ (Rect.block (s := S4x16x1024x64) S1x16x256x64.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x64.size a ≤ S4x16x1024x64.size a
  hwx1_0 : ∀ i : grid1.Coords, EltTy.bits .f32 = 32 ∨ (Rect.block (s := S4x16x1024x64) S1x1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x64.size a ≤ S4x16x1024x64.size a
  hwx1_1 : ∀ i : grid1.Coords, EltTy.bits .f32 = 32 ∨ (Rect.block (s := S4x16x1024x64) S1x1x1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x64.size a ≤ S4x16x1024x64.size a
  hwx1_2 : ∀ i : grid1.Coords, EltTy.bits .f32 = 32 ∨ (Rect.block (s := S4x16x1024x64) S1x1x1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S16x1x1.size a
  hwx1_3 : ∀ i : grid1.Coords, EltTy.bits .f32 = 32 ∨ (Rect.block (s := S16x1x1) S1x1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1024x64.size a ≤ S4x16x1024x64.size a
  hwx1_4 : ∀ i : grid1.Coords, EltTy.bits .f32 = 32 ∨ (Rect.block (s := S4x16x1024x64) S1x1x1024x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S4x1024x1024.size a
  hwx2_0 : ∀ i : grid2.Coords, EltTy.bits .f32 = 32 ∨ (Rect.block (s := S4x1024x1024) S1x512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S4x1024x1024.size a
  hwx2_3 : ∀ i : grid2.Coords, EltTy.bits .f32 = 32 ∨ (Rect.block (s := S4x1024x1024) S1x512x1024.size (cc2_transform_3 i) (hinb2_3 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x8_S256x8_1_0_0_1_n_n : DotDims S256x1024 S1024x8 S256x8 where
  lhsContracting := [1]
  rhsContracting := [0]
  lhsNonContracting := [0]
  rhsNonContracting := [1]
  lhsBatch := []
  rhsBatch := []
  wf := dot_S256x1024_S1024x8_S256x8_1_0_0_1_n_n_wf
def dot_S256x8_S8x1024_S256x1024_1_0_0_1_n_n : DotDims S256x8 S8x1024 S256x1024 where
  lhsContracting := [1]
  rhsContracting := [0]
  lhsNonContracting := [0]
  rhsNonContracting := [1]
  lhsBatch := []
  rhsBatch := []
  wf := dot_S256x8_S8x1024_S256x1024_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1024x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S8x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1024x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S8x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S1024x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v23) S8x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v24_0) S1x16x256x64.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v24_1) S1x16x256x64.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v24_2) S1x16x256x64.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v24_0) S1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24_1) S1x1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24_2) S1x1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x1x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x1x1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x1024x1024 : Shape := ⟨3, ![4, 1024, 1024]⟩
abbrev S3072x1024 : Shape := ⟨2, ![3072, 1024]⟩
abbrev S3072 : Shape := ⟨1, ![3072]⟩
abbrev S8x1024 : Shape := ⟨2, ![8, 1024]⟩
abbrev S1024x8 : Shape := ⟨2, ![1024, 8]⟩
abbrev S16x1x1 : Shape := ⟨3, ![16, 1, 1]⟩
abbrev S1024x1024 : Shape := ⟨2, ![1024, 1024]⟩
abbrev S1024 : Shape := ⟨1, ![1024]⟩
abbrev S4x1024x3072 : Shape := ⟨3, ![4, 1024, 3072]⟩
abbrev S1x1x3072 : Shape := ⟨3, ![1, 1, 3072]⟩
abbrev S4x1024x8 : Shape := ⟨3, ![4, 1024, 8]⟩
abbrev S_ : Shape := ⟨0, ![]⟩
abbrev S4x1024x16x64 : Shape := ⟨4, ![4, 1024, 16, 64]⟩
abbrev S4x16x1024x64 : Shape := ⟨4, ![4, 16, 1024, 64]⟩
abbrev S4x16x1024 : Shape := ⟨3, ![4, 16, 1024]⟩
abbrev S4x16x1024x1 : Shape := ⟨4, ![4, 16, 1024, 1]⟩
abbrev S4x16x1024x1024 : Shape := ⟨4, ![4, 16, 1024, 1024]⟩
abbrev S1x16x1x1 : Shape := ⟨4, ![1, 16, 1, 1]⟩
abbrev S1x1x1024 : Shape := ⟨3, ![1, 1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S3072x1024, .f32⟩
  | .hbm, ⟨2, _⟩ => ⟨S3072, .f32⟩
  | .hbm, ⟨3, _⟩ => ⟨S8x1024, .f32⟩
  | .hbm, ⟨4, _⟩ => ⟨S1024x8, .f32⟩
  | .hbm, ⟨5, _⟩ => ⟨S8x1024, .f32⟩
  | .hbm, ⟨6, _⟩ => ⟨S1024x8, .f32⟩
  | .hbm, ⟨7, _⟩ => ⟨S8x1024, .f32⟩
  | .hbm, ⟨8, _⟩ => ⟨S1024x8, .f32⟩
  | .hbm, ⟨9, _⟩ => ⟨S16x1x1, .f32⟩
  | .hbm, ⟨10, _⟩ => ⟨S1024x1024, .f32⟩
  | .hbm, ⟨11, _⟩ => ⟨S1024, .f32⟩
  | .hbm, ⟨12, _⟩ => ⟨S4x1024x3072, .f32⟩
  | .hbm, ⟨13, _⟩ => ⟨S1x1x3072, .f32⟩
  | .hbm, ⟨14, _⟩ => ⟨S4x1024x3072, .f32⟩
  | .hbm, ⟨15, _⟩ => ⟨S4x1024x3072, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S4x1024x8, .f32⟩
  | .hbm, ⟨20, _⟩ => ⟨S4x1024x1024, .f32⟩
  | .hbm, ⟨21, _⟩ => ⟨S_, .f32⟩
  | .hbm, ⟨22, _⟩ => ⟨S4x1024x1024, .f32⟩
  | .hbm, ⟨23, _⟩ => ⟨S4x1024x1024, .f32⟩
  | .hbm, ⟨24, _⟩ => ⟨S4x1024x1024, .f32⟩
  | .hbm, ⟨25, _⟩ => ⟨S4x1024x8, .f32⟩
  | .hbm, ⟨26, _⟩ => ⟨S4x1024x1024, .f32⟩
  | .hbm, ⟨27, _⟩ => ⟨S_, .f32⟩
  | .hbm, ⟨28, _⟩ => ⟨S4x1024x1024, .f32⟩
  | .hbm, ⟨29, _⟩ => ⟨S4x1024x1024, .f32⟩
  | .hbm, ⟨30, _⟩ => ⟨S4x1024x1024, .f32⟩
  | .hbm, ⟨31, _⟩ => ⟨S4x1024x8, .f32⟩
  | .hbm, ⟨32, _⟩ => ⟨S4x1024x1024, .f32⟩
  | .hbm, ⟨33, _⟩ => ⟨S_, .f32⟩
  | .hbm, ⟨34, _⟩ => ⟨S4x1024x1024, .f32⟩
  | .hbm, ⟨35, _⟩ => ⟨S4x1024x1024, .f32⟩
  | .hbm, ⟨36, _⟩ => ⟨S4x1024x1024, .f32⟩
  | .hbm, ⟨37, _⟩ => ⟨S4x1024x16x64, .f32⟩
  | .hbm, ⟨38, _⟩ => ⟨S4x16x1024x64, .f32⟩
  | .hbm, ⟨39, _⟩ => ⟨S4x1024x16x64, .f32⟩
  | .hbm, ⟨40, _⟩ => ⟨S4x16x1024x64, .f32⟩
  | .hbm, ⟨41, _⟩ => ⟨S4x1024x16x64, .f32⟩
  | .hbm, ⟨42, _⟩ => ⟨S4x16x1024x64, .f32⟩
  | .hbm, ⟨43, _⟩ => ⟨S4x16x1024x64, .f32⟩
  | .hbm, ⟨44, _⟩ => ⟨S_, .f32⟩
  | .hbm, ⟨45, _⟩ => ⟨S4x16x1024, .f32⟩
  | .hbm, ⟨46, _⟩ => ⟨S4x16x1024x1, .f32⟩
  | .hbm, ⟨47, _⟩ => ⟨S4x16x1024x1, .f32⟩
  | .hbm, ⟨48, _⟩ => ⟨S_, .f32⟩
  | .hbm, ⟨49, _⟩ => ⟨S4x16x1024x1, .f32⟩
  | .hbm, ⟨50, _⟩ => ⟨S4x16x1024x1, .f32⟩
  | .hbm, ⟨51, _⟩ => ⟨S4x16x1024x64, .f32⟩
  | .hbm, ⟨52, _⟩ => ⟨S4x16x1024x64, .f32⟩
  | .hbm, ⟨53, _⟩ => ⟨S4x16x1024x64, .f32⟩
  | .hbm, ⟨54, _⟩ => ⟨S_, .f32⟩
  | .hbm, ⟨55, _⟩ => ⟨S4x16x1024, .f32⟩
  | .hbm, ⟨56, _⟩ => ⟨S4x16x1024x1, .f32⟩
  | .hbm, ⟨57, _⟩ => ⟨S4x16x1024x1, .f32⟩
  | .hbm, ⟨58, _⟩ => ⟨S_, .f32⟩
  | .hbm, ⟨59, _⟩ => ⟨S4x16x1024x1, .f32⟩
  | .hbm, ⟨60, _⟩ => ⟨S4x16x1024x1, .f32⟩
  | .hbm, ⟨61, _⟩ => ⟨S4x16x1024x64, .f32⟩
  | .hbm, ⟨62, _⟩ => ⟨S4x16x1024x64, .f32⟩
  | .hbm, ⟨63, _⟩ => ⟨S4x16x1024x1024, .f32⟩
  | .hbm, ⟨64, _⟩ => ⟨S_, .f32⟩
  | .hbm, ⟨65, _⟩ => ⟨S16x1x1, .f32⟩
  | .hbm, ⟨66, _⟩ => ⟨S16x1x1, .f32⟩
  | .hbm, ⟨67, _⟩ => ⟨S16x1x1, .f32⟩
  | .hbm, ⟨68, _⟩ => ⟨S1x16x1x1, .f32⟩
  | .hbm, ⟨69, _⟩ => ⟨S4x16x1024x1024, .f32⟩
  | .hbm, ⟨70, _⟩ => ⟨S4x16x1024x1024, .f32⟩
  | .hbm, ⟨71, _⟩ => ⟨S_, .f32⟩
  | .hbm, ⟨72, _⟩ => ⟨S4x16x1024, .f32⟩
  | .hbm, ⟨73, _⟩ => ⟨S_, .f32⟩
  | .hbm, ⟨74, _⟩ => ⟨S4x16x1024, .f32⟩
  | .hbm, ⟨75, _⟩ => ⟨S4x16x1024, .f32⟩
  | .hbm, ⟨76, _⟩ => ⟨S4x16x1024x1, .f32⟩
  | .hbm, ⟨77, _⟩ => ⟨S4x16x1024x1024, .f32⟩
  | .hbm, ⟨78, _⟩ => ⟨S4x16x1024x1024, .f32⟩
  | .hbm, ⟨79, _⟩ => ⟨S4x16x1024x1024, .f32⟩
  | .hbm, ⟨80, _⟩ => ⟨S_, .f32⟩
  | .hbm, ⟨81, _⟩ => ⟨S4x16x1024, .f32⟩
  | .hbm, ⟨82, _⟩ => ⟨S4x16x1024x1, .f32⟩
  | .hbm, ⟨83, _⟩ => ⟨S4x16x1024x1024, .f32⟩
  | .hbm, ⟨84, _⟩ => ⟨S4x16x1024x1024, .f32⟩
  | .hbm, ⟨85, _⟩ => ⟨S4x16x1024x64, .f32⟩
  | .hbm, ⟨86, _⟩ => ⟨S4x1024x16x64, .f32⟩
  | .hbm, ⟨87, _⟩ => ⟨S4x1024x1024, .f32⟩
  | .hbm, ⟨88, _⟩ => ⟨S4x1024x1024, .f32⟩
  | .hbm, ⟨89, _⟩ => ⟨S1x1x1024, .f32⟩
  | .hbm, ⟨90, _⟩ => ⟨S4x1024x1024, .f32⟩
  | .hbm, ⟨91, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x1024x3072_0_1_2 : S1x1x3072.BroadcastsInDim S4x1024x3072 (![0, 1, 2] : Fin 3 → Fin S4x1024x3072.rank)
  slices_S4x1024x3072_S4x1024x1024_0_0_0 : S4x1024x3072.Slices ![0, 0, 0] S4x1024x1024
  slices_S4x1024x3072_S4x1024x1024_0_0_1024 : S4x1024x3072.Slices ![0, 0, 1024] S4x1024x1024
  slices_S4x1024x3072_S4x1024x1024_0_0_2048 : S4x1024x3072.Slices ![0, 0, 2048] S4x1024x1024
  bcast_S_S4x1024x1024 : S_.BroadcastsInDim S4x1024x1024 (![] : Fin 0 → Fin S4x1024x1024.rank)
  shapeCasts_S4x1024x1024_S4x1024x16x64 : S4x1024x1024.ShapeCasts S4x1024x16x64
  transposes_S4x1024x16x64_S4x16x1024x64_0_2_1_3 : S4x1024x16x64.Transposes [0, 2, 1, 3] S4x16x1024x64
  reducesTo_S4x16x1024x64_S4x16x1024_d3 : S4x16x1024x64.ReducesTo [3] S4x16x1024
  h_S_ : 0 < S_.numel
  bcast_S4x16x1024_S4x16x1024x1_0_1_2 : S4x16x1024.BroadcastsInDim S4x16x1024x1 (![0, 1, 2] : Fin 3 → Fin S4x16x1024x1.rank)
  bcast_S_S4x16x1024x1 : S_.BroadcastsInDim S4x16x1024x1 (![] : Fin 0 → Fin S4x16x1024x1.rank)
  bcast_S4x16x1024x1_S4x16x1024x64_0_1_2_3 : S4x16x1024x1.BroadcastsInDim S4x16x1024x64 (![0, 1, 2, 3] : Fin 4 → Fin S4x16x1024x64.rank)
  bcast_S_S16x1x1 : S_.BroadcastsInDim S16x1x1 (![] : Fin 0 → Fin S16x1x1.rank)
  bcast_S16x1x1_S1x16x1x1_1_2_3 : S16x1x1.BroadcastsInDim S1x16x1x1 (![1, 2, 3] : Fin 3 → Fin S1x16x1x1.rank)
  bcast_S1x16x1x1_S4x16x1024x1024_0_1_2_3 : S1x16x1x1.BroadcastsInDim S4x16x1024x1024 (![0, 1, 2, 3] : Fin 4 → Fin S4x16x1024x1024.rank)
  reducesTo_S4x16x1024x1024_S4x16x1024_d3 : S4x16x1024x1024.ReducesTo [3] S4x16x1024
  bcast_S_S4x16x1024 : S_.BroadcastsInDim S4x16x1024 (![] : Fin 0 → Fin S4x16x1024.rank)
  bcast_S4x16x1024x1_S4x16x1024x1024_0_1_2_3 : S4x16x1024x1.BroadcastsInDim S4x16x1024x1024 (![0, 1, 2, 3] : Fin 4 → Fin S4x16x1024x1024.rank)
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  bcast_S1024_S1x1x1024_2 : S1024.BroadcastsInDim S1x1x1024 (![2] : Fin 1 → Fin S1x1x1024.rank)
  bcast_S1x1x1024_S4x1024x1024_0_1_2 : S1x1x1024.BroadcastsInDim S4x1024x1024 (![0, 1, 2] : Fin 3 → Fin S4x1024x1024.rank)
  dot_S4x1024x1024_S3072x1024_S4x1024x3072_2_1_01_0_n_n_wf : DotDims.WF S4x1024x1024 S3072x1024 S4x1024x3072 [2] [1] [0, 1] [0] [] []
  dot_S4x1024x1024_S8x1024_S4x1024x8_2_1_01_0_n_n_wf : DotDims.WF S4x1024x1024 S8x1024 S4x1024x8 [2] [1] [0, 1] [0] [] []
  dot_S4x1024x8_S1024x8_S4x1024x1024_2_1_01_0_n_n_wf : DotDims.WF S4x1024x8 S1024x8 S4x1024x1024 [2] [1] [0, 1] [0] [] []
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]
  dot_S4x1024x1024_S1024x1024_S4x1024x1024_2_1_01_0_n_n_wf : DotDims.WF S4x1024x1024 S1024x1024 S4x1024x1024 [2] [1] [0, 1] [0] [] []

variable [Facts₀]

def dot_S4x1024x1024_S3072x1024_S4x1024x3072_2_1_01_0_n_n : DotDims S4x1024x1024 S3072x1024 S4x1024x3072 where
  lhsContracting := [2]
  rhsContracting := [1]
  lhsNonContracting := [0, 1]
  rhsNonContracting := [0]
  lhsBatch := []
  rhsBatch := []
  wf := dot_S4x1024x1024_S3072x1024_S4x1024x3072_2_1_01_0_n_n_wf
def dot_S4x1024x1024_S8x1024_S4x1024x8_2_1_01_0_n_n : DotDims S4x1024x1024 S8x1024 S4x1024x8 where
  lhsContracting := [2]
  rhsContracting := [1]
  lhsNonContracting := [0, 1]
  rhsNonContracting := [0]
  lhsBatch := []
  rhsBatch := []
  wf := dot_S4x1024x1024_S8x1024_S4x1024x8_2_1_01_0_n_n_wf
def dot_S4x1024x8_S1024x8_S4x1024x1024_2_1_01_0_n_n : DotDims S4x1024x8 S1024x8 S4x1024x1024 where
  lhsContracting := [2]
  rhsContracting := [1]
  lhsNonContracting := [0, 1]
  rhsNonContracting := [0]
  lhsBatch := []
  rhsBatch := []
  wf := dot_S4x1024x8_S1024x8_S4x1024x1024_2_1_01_0_n_n_wf
def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf
def dot_S4x1024x1024_S1024x1024_S4x1024x1024_2_1_01_0_n_n : DotDims S4x1024x1024 S1024x1024 S4x1024x1024 where
  lhsContracting := [2]
  rhsContracting := [1]
  lhsNonContracting := [0, 1]
  rhsNonContracting := [0]
  lhsBatch := []
  rhsBatch := []
  wf := dot_S4x1024x1024_S1024x1024_S4x1024x1024_2_1_01_0_n_n_wf

class Facts : Prop extends Facts₀ where

variable [Facts]
-- ==== Proof.Spec.lean ====
/-
  The attention layer both programs compute, as exact arithmetic on the extended reals.

  For a batch entry n, a position l and a channel o, the three projections are
      q(n,l,o) = (Σ_k x(n,l,k)·W(o,k) + b(o)) + (Σ_r (Σ_k x(n,l,k)·A(r,k))·B(o,r))·2 ,
  a dense map plus a rank-8 correction scaled by two. Channel o = 64·h + d belongs to head h at lane d.
  Inside a head every row is divided by max(√(Σ_d t²), ε); the logits are the inner products of the
  normalised q- and k-rows times the head's scale exp(min(s_h, log 100)); a row of logits goes through the
  softmax written with its maximum subtracted; the weights average the v-rows; the heads are laid side by
  side again and one more dense map with a bias gives the result.

  The functions are first given for one row or one head on plain coordinates, then as functions of whole arrays (`…A`),
  which is the form the two programs' values are compared in.
-/
import Idealize.ShloMosaic.PureOps.Ideal
import Idealize.ShloMosaic.Lib.ValueIdx

noncomputable section

namespace Cert.Spec

open Idealize.ShloMosaic Idealize.ShloMosaic.ValueIdx

/-! ## Coordinates -/

/-- The channel of head `h`, lane `d`. -/
def oc (h : Fin 16) (d : Fin 64) : Fin 1024 := ⟨h.val * 64 + d.val, by omega⟩
/-- The head a channel belongs to. -/
def hd (o : Fin 1024) : Fin 16 := ⟨o.val / 64, by omega⟩
/-- A channel's lane inside its head. -/
def ln (o : Fin 1024) : Fin 64 := ⟨o.val % 64, by omega⟩
/-- Row `o` of the first, second and third slab of the fused projection weight. -/
def row0 (o : Fin 1024) : Fin 3072 := ⟨o.val, by omega⟩
def row1 (o : Fin 1024) : Fin 3072 := ⟨1024 + o.val, by omega⟩
def row2 (o : Fin 1024) : Fin 3072 := ⟨2048 + o.val, by omega⟩

/-! ## The constants, by their binary words -/

/-- The adapter's scale, 2. -/
def two : EReal := Ideal.ofBits .f32 0x40000000#32
/-- The floor under a row's norm. -/
def eps : EReal := Ideal.ofBits .f32 0x2B8CBCCC#32
/-- The word of −∞, from which a row's maximum is taken. -/
def ninf : EReal := Ideal.ofBits .f32 0xFF800000#32
/-- The cap on the logit scale's exponent. -/
def cap : EReal := Ideal.ofBits .f32 0x40935D8E#32

/-! ## One row, one head -/

/-- A dense map with a bias, of one row. -/
def linRow (xr : Fin 1024 → EReal) (W : Fin 1024 → Fin 1024 → EReal) (b : Fin 1024 → EReal) (o : Fin 1024) : EReal :=
  (∑ k : Fin 1024, xr k * W o k) + b o

/-- A projection of one row: the dense map with its bias, plus the rank-8 correction times two. -/
def projRow (xr : Fin 1024 → EReal) (W : Fin 1024 → Fin 1024 → EReal) (b : Fin 1024 → EReal)
    (A : Fin 8 → Fin 1024 → EReal) (B : Fin 1024 → Fin 8 → EReal) (o : Fin 1024) : EReal :=
  ((∑ k : Fin 1024, xr k * W o k) + b o) + (∑ r : Fin 8, (∑ k : Fin 1024, xr k * A r k) * B o r) * two

/-- A head's row divided by its norm, the norm floored at `eps`. -/
def nrmH (T : Fin 1024 → Fin 64 → EReal) (l : Fin 1024) (d : Fin 64) : EReal :=
  Ideal.div (T l d) (max (Ideal.sqrt (∑ e : Fin 64, T l e * T l e)) eps)

/-- The scaled cosine logits of position `l` against every position `j`, in one head of scale `s`. -/
def logitH (Q K : Fin 1024 → Fin 64 → EReal) (s : EReal) (l : Fin 1024) (j : Fin 1024) : EReal :=
  (∑ d : Fin 64, nrmH Q l d * nrmH K j d) * s

/-- A row's maximum, taken from −∞ and once more against −∞. -/
def rowmaxC (Z : Fin 1024 → EReal) : EReal := max ninf ((Finset.univ : Finset (Fin 1024)).fold max ninf Z)

/-- The softmax of a row, its maximum subtracted first. -/
def softC (Z : Fin 1024 → EReal) (j : Fin 1024) : EReal :=
  Ideal.div (Ideal.exp (Z j - rowmaxC Z)) (∑ j' : Fin 1024, Ideal.exp (Z j' - rowmaxC Z))

/-- One head's attention output. -/
def attnH (Q K V : Fin 1024 → Fin 64 → EReal) (s : EReal) (l : Fin 1024) (d : Fin 64) : EReal :=
  ∑ j : Fin 1024, softC (logitH Q K s l) j * V j d

/-! ## On whole arrays -/

abbrev SX : Shape := ⟨3, ![4, 1024, 1024]⟩
abbrev SW3 : Shape := ⟨2, ![3072, 1024]⟩
abbrev SB3 : Shape := ⟨1, ![3072]⟩
abbrev SA : Shape := ⟨2, ![8, 1024]⟩
abbrev SB : Shape := ⟨2, ![1024, 8]⟩
abbrev SH : Shape := ⟨4, ![4, 16, 1024, 64]⟩
abbrev SS : Shape := ⟨3, ![16, 1, 1]⟩
abbrev SW : Shape := ⟨2, ![1024, 1024]⟩
abbrev SV : Shape := ⟨1, ![1024]⟩

/-- A projection in head layout, from the arguments: `rw` picks the slab of the fused weight and bias. -/
def projA (rw : Fin 1024 → Fin 3072) (a0 : SX.Idx → EReal) (a1 : SW3.Idx → EReal) (a2 : SB3.Idx → EReal)
    (A : SA.Idx → EReal) (B : SB.Idx → EReal) : SH.Idx → EReal :=
  fun i => projRow (fun k => a0 (ix3 (i 0) (i 2) k)) (fun o k => a1 (ix2 (rw o) k)) (fun o => a2 (ix1 (rw o)))
    (fun r k => A (ix2 r k)) (fun o r => B (ix2 o r)) (oc (i 1) (i 3))

/-- The same projection from operands already cut and transposed: weight [k, o], bias [o], adapters [k, r] and [r, o]. -/
def projTA (a0 : SX.Idx → EReal) (WT : SW.Idx → EReal) (b : SV.Idx → EReal)
    (AT : SB.Idx → EReal) (BT : SA.Idx → EReal) : SH.Idx → EReal :=
  fun i => projRow (fun k => a0 (ix3 (i 0) (i 2) k)) (fun o k => WT (ix2 k o)) (fun o => b (ix1 o))
    (fun r k => AT (ix2 k r)) (fun o r => BT (ix2 r o)) (oc (i 1) (i 3))

/-- The per-head scale exp(min(s, cap)). -/
def scaleA (a9 : SS.Idx → EReal) : SS.Idx → EReal := fun j => Ideal.exp (min (a9 j) cap)

/-- Attention on head-layout arrays, `sc` the per-head scale. -/
def attnA (Q K V : SH.Idx → EReal) (sc : SS.Idx → EReal) : SH.Idx → EReal :=
  fun i => attnH (fun l d => Q (ix4 (i 0) (i 1) l d)) (fun l d => K (ix4 (i 0) (i 1) l d)) (fun l d => V (ix4 (i 0) (i 1) l d))
    (sc (ix3 (i 1) 0 0)) (i 2) (i 3)

/-- A dense map with a bias from a transposed weight [k, o]. -/
def linTA (a : SX.Idx → EReal) (WT : SW.Idx → EReal) (b : SV.Idx → EReal) : SX.Idx → EReal :=
  fun i => linRow (fun k => a (ix3 (i 0) (i 1) k)) (fun o k => WT (ix2 k o)) (fun o => b (ix1 o)) (i 2)

/-- The output map on a head-layout array: the heads side by side again, then a dense map with a bias. -/
def outA (O : SH.Idx → EReal) (Wo : SW.Idx → EReal) (bo : SV.Idx → EReal) : SX.Idx → EReal :=
  fun i => linRow (fun k => O (ix4 (i 0) (hd k) (i 1) (ln k))) (fun o k => Wo (ix2 o k)) (fun o => bo (ix1 o)) (i 2)

/-- The whole layer as a function of the twelve arguments. -/
def layerA (a0 : SX.Idx → EReal) (a1 : SW3.Idx → EReal) (a2 : SB3.Idx → EReal) (a3 : SA.Idx → EReal) (a4 : SB.Idx → EReal)
    (a5 : SA.Idx → EReal) (a6 : SB.Idx → EReal) (a7 : SA.Idx → EReal) (a8 : SB.Idx → EReal) (a9 : SS.Idx → EReal)
    (a10 : SW.Idx → EReal) (a11 : SV.Idx → EReal) : SX.Idx → EReal :=
  outA (attnA (projA row0 a0 a1 a2 a3 a4) (projA row1 a0 a1 a2 a5 a6) (projA row2 a0 a1 a2 a7 a8) (scaleA a9)) a10 a11

end Cert.Spec

end
-- ==== Proof.KBlock0.lean ====
/-
  What one grid point of the first kernel leaves in each output block, at an index: entry (h, r, d) of the block is the
  projection of row r of the point's x block at channel 64·h + d — the row times the transposed weight plus the bias,
  plus the rank-8 correction times two. The three outputs differ only in which operands they read.
-/
import proofs.«154373_j91061896609820_1_alg».proof.Proof.Gen.KernelIdeal.Frame
import proofs.«154373_j91061896609820_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)

/-! ### The [256,1024] × [1024,1024] product's operand indices -/

theorem mmW_lhs_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem mmW_lhs_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem mmW_rhs_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem mmW_rhs_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product into zero, read at (r, o): the sum over k of the left operand at (r, k) times the right at (k, o). -/
theorem mmW_apply (l : FVec Ideal S256x1024 .bf16) (rr : FVec Ideal S1024x1024 .bf16) (r : Fin 256) (o : Fin 1024) :
    matmul (F := Ideal) dot_S256x1024_S1024x1024_S256x1024_1_0_0_1_n_n none l rr (constant (F := Ideal) S256x1024 .f32 0x00000000#32) (ix2 r o)
      = ∑ k : Fin 1024, l (ix2 r k) * rr (ix2 k o) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 r o) ((ValueIdx.contrEquiv1 dot_S256x1024_S1024x1024_S256x1024_1_0_0_1_n_n 1024 rfl rfl).symm k) = ix2 r k := funext fun a => Fin.ext (by
    match a with
    | ⟨0, _⟩ => exact mmW_lhs_0 _ _
    | ⟨1, _⟩ => exact (mmW_lhs_1 _ _).trans hk)
  have er : dot_S256x1024_S1024x1024_S256x1024_1_0_0_1_n_n.rhsIdx (ix2 r o) ((ValueIdx.contrEquiv1 dot_S256x1024_S1024x1024_S256x1024_1_0_0_1_n_n 1024 rfl rfl).symm k) = ix2 k o := funext fun a => Fin.ext (by
    match a with
    | ⟨0, _⟩ => exact (mmW_rhs_0 _ _).trans hk
    | ⟨1, _⟩ => exact mmW_rhs_1 _ _)
  rw [el, er]

/-! ### The [256,1024] × [1024,8] product's operand indices -/

theorem mmA_lhs_0 (i : S256x8.Idx) (q : dot_S256x1024_S1024x8_S256x8_1_0_0_1_n_n.contr.Idx) :
    (dot_S256x1024_S1024x8_S256x8_1_0_0_1_n_n.lhsIdx i q 0).val = (i 0).val := by
  unfold DotDims.lhsIdx
  rw [dif_neg (show ¬(0 : Fin S256x1024.rank) ∈ dot_S256x1024_S1024x8_S256x8_1_0_0_1_n_n.lhsBatch by decide), dif_pos (show (0 : Fin S256x1024.rank) ∈ dot_S256x1024_S1024x8_S256x8_1_0_0_1_n_n.lhsNonContracting by decide)]
  rfl
theorem mmA_lhs_1 (i : S256x8.Idx) (q : dot_S256x1024_S1024x8_S256x8_1_0_0_1_n_n.contr.Idx) :
    (dot_S256x1024_S1024x8_S256x8_1_0_0_1_n_n.lhsIdx i q 1).val = (q ⟨0, by decide⟩).val :=
  dot_S256x1024_S1024x8_S256x8_1_0_0_1_n_n.lhsIdx_val_of_single rfl i q
theorem mmA_rhs_0 (i : S256x8.Idx) (q : dot_S256x1024_S1024x8_S256x8_1_0_0_1_n_n.contr.Idx) :
    (dot_S256x1024_S1024x8_S256x8_1_0_0_1_n_n.rhsIdx i q 0).val = (q ⟨0, by decide⟩).val :=
  dot_S256x1024_S1024x8_S256x8_1_0_0_1_n_n.rhsIdx_val_of_single rfl i q
theorem mmA_rhs_1 (i : S256x8.Idx) (q : dot_S256x1024_S1024x8_S256x8_1_0_0_1_n_n.contr.Idx) :
    (dot_S256x1024_S1024x8_S256x8_1_0_0_1_n_n.rhsIdx i q 1).val = (i 1).val := by
  unfold DotDims.rhsIdx
  rw [dif_neg (show ¬(1 : Fin S1024x8.rank) ∈ dot_S256x1024_S1024x8_S256x8_1_0_0_1_n_n.rhsBatch by decide), dif_pos (show (1 : Fin S1024x8.rank) ∈ dot_S256x1024_S1024x8_S256x8_1_0_0_1_n_n.rhsNonContracting by decide)]
  rfl

/-- The product into zero, read at (r, o): the sum over k of the left operand at (r, k) times the right at (k, o). -/
theorem mmA_apply (l : FVec Ideal S256x1024 .bf16) (rr : FVec Ideal S1024x8 .bf16) (r : Fin 256) (o : Fin 8) :
    matmul (F := Ideal) dot_S256x1024_S1024x8_S256x8_1_0_0_1_n_n none l rr (constant (F := Ideal) S256x8 .f32 0x00000000#32) (ix2 r o)
      = ∑ k : Fin 1024, l (ix2 r k) * rr (ix2 k o) := by
  simp only [matmul]
  rw [Ideal.matmul_constant_zero_apply, ← Equiv.sum_comp (ValueIdx.contrEquiv1 dot_S256x1024_S1024x8_S256x8_1_0_0_1_n_n 1024 rfl rfl).symm]
  refine Finset.sum_congr rfl fun k _ => ?_
  have hk := ValueIdx.contrEquiv1_symm_val dot_S256x1024_S1024x8_S256x8_1_0_0_1_n_n 1024 rfl rfl k
  have el : dot_S256x1024_S1024x8_S256x8_1_0_0_1_n_n.lhsIdx (ix2 r o) ((ValueIdx.contrEquiv1 dot_S256x1024_S1024x8_S256x8_1_0_0_1_n_n 1024 rfl rfl).symm k) = ix2 r k := funext fun a => Fin.ext (by
    match a with
    | ⟨0, _⟩ => exact mmA_lhs_0 _ _
    | ⟨1, _⟩ => exact (mmA_lhs_1 _ _).trans hk)
  have er : dot_S256x1024_S1024x8_S256x8_1_0_0_1_n_n.rhsIdx (ix2 r o) ((ValueIdx.contrEquiv1 dot_S256x1024_S1024x8_S256x8_1_0_0_1_n_n 1024 rfl rfl).symm k) = ix2 k o := funext fun a => Fin.ext (by
    match a with
    | ⟨0, _⟩ => exact (mmA_rhs_0 _ _).trans hk
    | ⟨1, _⟩ => exact mmA_rhs_1 _ _)
  rw [el, er]

/-! ### The [256,8] × [8,1024] product's operand indices -/

theorem mmB_lhs_0 (i : S256x1024.Idx) (q : dot_S256x8_S8x1024_S256x1024_1_0_0_1_n_n.contr.Idx) :
    (dot_S256x8_S8x1024_S256x1024_1_0_0_1_n_n.lhsIdx i q 0).val = (i 0).val := by
  unfold DotDims.lhsIdx
  rw [dif_neg (show ¬(0 : Fin S256x8.rank) ∈ dot_S256x8_S8x1024_S256x1024_1_0_0_1_n_n.lhsBatch by decide), dif_pos (show (0 : Fin S256x8.rank) ∈ dot_S256x8_S8x1024_S256x1024_1_0_0_1_n_n.lhsNonContracting by decide)]
  rfl
theorem mmB_lhs_1 (i : S256x1024.Idx) (q : dot_S256x8_S8x1024_S256x1024_1_0_0_1_n_n.contr.Idx) :
    (dot_S256x8_S8x1024_S256x1024_1_0_0_1_n_n.lhsIdx i q 1).val = (q ⟨0, by decide⟩).val :=
  dot_S256x8_S8x1024_S256x1024_1_0_0_1_n_n.lhsIdx_val_of_single rfl i q
theorem mmB_rhs_0 (i : S256x1024.Idx) (q : dot_S256x8_S8x1024_S256x1024_1_0_0_1_n_n.contr.Idx) :
    (dot_S256x8_S8x1024_S256x1024_1_0_0_1_n_n.rhsIdx i q 0).val = (q ⟨0, by decide⟩).val :=
  dot_S256x8_S8x1024_S256x1024_1_0_0_1_n_n.rhsIdx_val_of_single rfl i q
theorem mmB_rhs_1 (i : S256x1024.Idx) (q : dot_S256x8_S8x1024_S256x1024_1_0_0_1_n_n.contr.Idx) :
    (dot_S256x8_S8x1024_S256x1024_1_0_0_1_n_n.rhsIdx i q 1).val = (i 1).val := by
  unfold DotDims.rhsIdx
  rw [dif_neg (show ¬(1 : Fin S8x1024.rank) ∈ dot_S256x8_S8x1024_S256x1024_1_0_0_1_n_n.rhsBatch by decide), dif_pos (show (1 : Fin S8x1024.rank) ∈ dot_S256x8_S8x1024_S256x1024_1_0_0_1_n_n.rhsNonContracting by decide)]
  rfl

/-- The product into zero, read at (r, o): the sum over k of the left operand at (r, k) times the right at (k, o). -/
theorem mmB_apply (l : FVec Ideal S256x8 .bf16) (rr : FVec Ideal S8x1024 .bf16) (r : Fin 256) (o : Fin 1024) :
    matmul (F := Ideal) dot_S256x8_S8x1024_S256x1024_1_0_0_1_n_n none l rr (constant (F := Ideal) S256x1024 .f32 0x00000000#32) (ix2 r o)
      = ∑ k : Fin 8, l (ix2 r k) * rr (ix2 k o) := by
  simp only [matmul]
  rw [Ideal.matmul_constant_zero_apply, ← Equiv.sum_comp (ValueIdx.contrEquiv1 dot_S256x8_S8x1024_S256x1024_1_0_0_1_n_n 8 rfl rfl).symm]
  refine Finset.sum_congr rfl fun k _ => ?_
  have hk := ValueIdx.contrEquiv1_symm_val dot_S256x8_S8x1024_S256x1024_1_0_0_1_n_n 8 rfl rfl k
  have el : dot_S256x8_S8x1024_S256x1024_1_0_0_1_n_n.lhsIdx (ix2 r o) ((ValueIdx.contrEquiv1 dot_S256x8_S8x1024_S256x1024_1_0_0_1_n_n 8 rfl rfl).symm k) = ix2 r k := funext fun a => Fin.ext (by
    match a with
    | ⟨0, _⟩ => exact mmB_lhs_0 _ _
    | ⟨1, _⟩ => exact (mmB_lhs_1 _ _).trans hk)
  have er : dot_S256x8_S8x1024_S256x1024_1_0_0_1_n_n.rhsIdx (ix2 r o) ((ValueIdx.contrEquiv1 dot_S256x8_S8x1024_S256x1024_1_0_0_1_n_n 8 rfl rfl).symm k) = ix2 k o := funext fun a => Fin.ext (by
    match a with
    | ⟨0, _⟩ => exact (mmB_rhs_0 _ _).trans hk
    | ⟨1, _⟩ => exact mmB_rhs_1 _ _)
  rw [el, er]

/-! ### The block's layout and arithmetic -/

/-- [256,1024] cut into sixteen heads of 64 lanes, the heads moved in front, a unit axis added: entry (u, h, r, d) of the
    result is entry (r, 64·h + d) of the operand. -/
theorem heads_apply (v : FVec Ideal S256x1024 .f32) (u : Fin 1) (h : Fin 16) (r : Fin 256) (d : Fin 64) :
    shapeCast S1x16x256x64 (transpose S16x256x64 [1, 0, 2] (shapeCast S256x16x64 v shapeCasts_S256x1024_S256x16x64)
        transposes_S256x16x64_p1_0_2_S16x256x64) shapeCasts_S16x256x64_S1x16x256x64 (ix4 u h r d)
      = v (ix2 r (Spec.oc h d)) := by
  refine (shapeCast_abc_1abc_apply _ _ u h r d).trans ?_
  refine (transpose_apply _ _ _ (ix3 h r d) (ix3 r h d) (fun b => match b with
    | ⟨0, _⟩ => rfl | ⟨1, _⟩ => rfl | ⟨2, _⟩ => rfl)).trans ?_
  exact shapeCast_apply _ _ _ _ (by
    rw [Shape.rowMajor_val_two, Shape.rowMajor_val_three]
    show r.val * 1024 + (h.val * 64 + d.val) = (r.val * 16 + h.val) * 64 + d.val
    omega)

/-- The bias [1024] viewed [1,1024] and repeated down 256 rows reads, at (r, o), the bias at o. -/
theorem bias_apply (b : FVec Ideal S1024 .f32) (r : Fin 256) (o : Fin 1024) :
    broadcastTo S256x1024 (shapeCast S1x1024 b shapeCasts_S1024_S1x1024) broadcasts_S1x1024_S256x1024 (ix2 r o) = b (ix1 o) := by
  refine (broadcastTo_apply _ _ _ (ix2 (0 : Fin 1) o) (fun a => match a with
    | ⟨0, _⟩ => rfl | ⟨1, _⟩ => rfl)).trans ?_
  exact shapeCast_a_1a_apply b _ 0 o

/-- The block before its layout, at (r, o): the row's dense map plus the bias, plus the rank-8 correction times two. -/
theorem core_apply (l : FVec Ideal S256x1024 .bf16) (w : FVec Ideal S1024x1024 .bf16) (b : FVec Ideal S1024 .f32)
    (a : FVec Ideal S1024x8 .bf16) (bb : FVec Ideal S8x1024 .bf16) (r : Fin 256) (o : Fin 1024) :
    addf (addf (matmul (F := Ideal) dot_S256x1024_S1024x1024_S256x1024_1_0_0_1_n_n none l w (constant (F := Ideal) S256x1024 .f32 0x00000000#32))
          (broadcastTo S256x1024 (shapeCast S1x1024 b shapeCasts_S1024_S1x1024) broadcasts_S1x1024_S256x1024))
        (mulf (matmul (F := Ideal) dot_S256x8_S8x1024_S256x1024_1_0_0_1_n_n none
            (truncf .bf16 (matmul (F := Ideal) dot_S256x1024_S1024x8_S256x8_1_0_0_1_n_n none l a (constant (F := Ideal) S256x8 .f32 0x00000000#32)) bitsLt_bf16_f32)
            bb (constant (F := Ideal) S256x1024 .f32 0x00000000#32))
          (broadcast S256x1024 (Scalar.ofBits (F := Ideal) .f32 0x40000000#32))) (ix2 r o)
      = ((∑ k : Fin 1024, l (ix2 r k) * w (ix2 k o)) + b (ix1 o))
          + (∑ j : Fin 8, (∑ k : Fin 1024, l (ix2 r k) * a (ix2 k j)) * bb (ix2 j o)) * Spec.two := by
  rw [addf_apply, addf_apply, mulf_apply, mmW_apply, bias_apply, mmB_apply, broadcast_apply]
  simp only [truncf_apply, mmA_apply]
  rfl

/-! ### The blocks -/

/-- A tuple of zero offsets is the constant zero. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section
variable (x0 : Vec Ideal S1x256x1024 .f32) (x1 x2 x3 : Vec Ideal S1024x1024 .bf16) (x4 x5 x6 : Vec Ideal S1024 .f32)
  (x7 : Vec Ideal S1024x8 .bf16) (x8 : Vec Ideal S8x1024 .bf16) (x9 : Vec Ideal S1024x8 .bf16) (x10 : Vec Ideal S8x1024 .bf16)
  (x11 : Vec Ideal S1024x8 .bf16) (x12 : Vec Ideal S8x1024 .bf16)

/-- The first output: entry (u, h, r, d) of the block. -/
theorem block0_q_ix (u : Fin 1) (h : Fin 16) (r : Fin 256) (d : Fin 64) :
    out0_13 (F := Ideal) x0 x1 x2 x3 x4 x5 x6 x7 x8 x9 x10 x11 x12 (ix4 u h r d)
      = Spec.projRow (fun k => x0 (ix3 0 r k)) (fun o k => x1 (ix2 k o)) (fun o => x4 (ix1 o))
          (fun r k => x7 (ix2 k r)) (fun o r => x8 (ix2 r o)) (Spec.oc h d) := by
  unfold out0_13
  rw [View.canon_unit_zero hz4]
  simp only [View.ld_unit_zero (S := S1x256x1024) hz3, View.ld_unit_zero (S := S1024x1024) hz2,
    View.ld_unit_zero (S := S1024) hz1, View.ld_unit_zero (S := S1024x8) hz2, View.ld_unit_zero (S := S8x1024) hz2]
  unfold k0_pay13 k0_pay4 k0_pay11 k0_pay12 k0_pay1
  refine (heads_apply _ u h r d).trans ?_
  refine (core_apply _ _ _ _ _ r (Spec.oc h d)).trans ?_
  unfold Spec.projRow
  simp only [shapeCast_self, truncf_apply, shapeCast_1ab_ab_apply]

/-- The second output: entry (u, h, r, d) of the block. -/
theorem block0_k_ix (u : Fin 1) (h : Fin 16) (r : Fin 256) (d : Fin 64) :
    out0_14 (F := Ideal) x0 x1 x2 x3 x4 x5 x6 x7 x8 x9 x10 x11 x12 (ix4 u h r d)
      = Spec.projRow (fun k => x0 (ix3 0 r k)) (fun o k => x2 (ix2 k o)) (fun o => x5 (ix1 o))
          (fun r k => x9 (ix2 k r)) (fun o r => x10 (ix2 r o)) (Spec.oc h d) := by
  unfold out0_14
  rw [View.canon_unit_zero hz4]
  simp only [View.ld_unit_zero (S := S1x256x1024) hz3, View.ld_unit_zero (S := S1024x1024) hz2,
    View.ld_unit_zero (S := S1024) hz1, View.ld_unit_zero (S := S1024x8) hz2, View.ld_unit_zero (S := S8x1024) hz2]
  unfold k0_pay14 k0_pay1 k0_pay2 k0_pay5 k0_pay7 k0_pay8
  refine (heads_apply _ u h r d).trans ?_
  refine (core_apply _ _ _ _ _ r (Spec.oc h d)).trans ?_
  unfold Spec.projRow
  simp only [shapeCast_self, truncf_apply, shapeCast_1ab_ab_apply]

/-- The third output: entry (u, h, r, d) of the block. -/
theorem block0_v_ix (u : Fin 1) (h : Fin 16) (r : Fin 256) (d : Fin 64) :
    out0_15 (F := Ideal) x0 x1 x2 x3 x4 x5 x6 x7 x8 x9 x10 x11 x12 (ix4 u h r d)
      = Spec.projRow (fun k => x0 (ix3 0 r k)) (fun o k => x3 (ix2 k o)) (fun o => x6 (ix1 o))
          (fun r k => x11 (ix2 k r)) (fun o r => x12 (ix2 r o)) (Spec.oc h d) := by
  unfold out0_15
  rw [View.canon_unit_zero hz4]
  simp only [View.ld_unit_zero (S := S1x256x1024) hz3, View.ld_unit_zero (S := S1024x1024) hz2,
    View.ld_unit_zero (S := S1024) hz1, View.ld_unit_zero (S := S1024x8) hz2, View.ld_unit_zero (S := S8x1024) hz2]
  unfold k0_pay15 k0_pay1 k0_pay3 k0_pay6 k0_pay9 k0_pay10
  refine (heads_apply _ u h r d).trans ?_
  refine (core_apply _ _ _ _ _ r (Spec.oc h d)).trans ?_
  unfold Spec.projRow
  simp only [shapeCast_self, truncf_apply, shapeCast_1ab_ab_apply]

theorem block0_q (y : S1x16x256x64.Idx) :
    out0_13 (F := Ideal) x0 x1 x2 x3 x4 x5 x6 x7 x8 x9 x10 x11 x12 y
      = Spec.projRow (fun k => x0 (ix3 0 (y 2) k)) (fun o k => x1 (ix2 k o)) (fun o => x4 (ix1 o))
          (fun r k => x7 (ix2 k r)) (fun o r => x8 (ix2 r o)) (Spec.oc (y 1) (y 3)) :=
  (congrArg (out0_13 (F := Ideal) x0 x1 x2 x3 x4 x5 x6 x7 x8 x9 x10 x11 x12) (eq_ix4 y)).trans
    (block0_q_ix x0 x1 x2 x3 x4 x5 x6 x7 x8 x9 x10 x11 x12 (y 0) (y 1) (y 2) (y 3))

theorem block0_k (y : S1x16x256x64.Idx) :
    out0_14 (F := Ideal) x0 x1 x2 x3 x4 x5 x6 x7 x8 x9 x10 x11 x12 y
      = Spec.projRow (fun k => x0 (ix3 0 (y 2) k)) (fun o k => x2 (ix2 k o)) (fun o => x5 (ix1 o))
          (fun r k => x9 (ix2 k r)) (fun o r => x10 (ix2 r o)) (Spec.oc (y 1) (y 3)) :=
  (congrArg (out0_14 (F := Ideal) x0 x1 x2 x3 x4 x5 x6 x7 x8 x9 x10 x11 x12) (eq_ix4 y)).trans
    (block0_k_ix x0 x1 x2 x3 x4 x5 x6 x7 x8 x9 x10 x11 x12 (y 0) (y 1) (y 2) (y 3))

theorem block0_v (y : S1x16x256x64.Idx) :
    out0_15 (F := Ideal) x0 x1 x2 x3 x4 x5 x6 x7 x8 x9 x10 x11 x12 y
      = Spec.projRow (fun k => x0 (ix3 0 (y 2) k)) (fun o k => x3 (ix2 k o)) (fun o => x6 (ix1 o))
          (fun r k => x11 (ix2 k r)) (fun o r => x12 (ix2 r o)) (Spec.oc (y 1) (y 3)) :=
  (congrArg (out0_15 (F := Ideal) x0 x1 x2 x3 x4 x5 x6 x7 x8 x9 x10 x11 x12) (eq_ix4 y)).trans
    (block0_v_ix x0 x1 x2 x3 x4 x5 x6 x7 x8 x9 x10 x11 x12 (y 0) (y 1) (y 2) (y 3))
end

end Cert.KernelIdeal.Val

end
-- ==== Proof.KRegion0.lean ====
/-
  The first kernel region, read as values: whatever the core's buffers hold when the region is entered,
  each of its three output arrays ends holding the projection of the staged operands in head layout.
  A grid point (n, t) computes rows 256·t … 256·t + 255 of batch entry n: the block of x times the transposed
  weight plus the bias, plus the rank-8 correction times two, and lays channel 64·h + d at head h, lane d.

  The steps. The index maps are decided over the sixteen grid points: the x block sits at batch entry n and row block l
  where the output block sits at (n, 0, l, 0), and every other operand's block is the whole array at block 0. So a point's
  operand blocks are the arrays themselves, its x block is rows 256·l … 256·l + 255 of entry n, and what the point writes back
  is the block at (n, 0, l, 0) of the projection taken as one function of the whole arrays. An index (n, h, r, d) of an output
  array lies in the block of the point with batch entry n and row block r / 256, so the blocks cover the array.
-/
import proofs.«154373_j91061896609820_1_alg».proof.Proof.Gen.KernelIdeal.Frame
import proofs.«154373_j91061896609820_1_alg».proof.Proof.Spec
import proofs.«154373_j91061896609820_1_alg».proof.Proof.KBlock0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)
variable (V : (c : Dev nD) → (b : Ref sig .tc) → Buf (Elt Ideal) ((c : Thread nD τ).loc b))

/-! ## The index maps over the grid -/

/-- The x block's last block index is 0: a block holds whole rows. -/
theorem idx_x : ∀ t : Fin cfg0.N, win0_0.index t (2 : Fin 3) = 0 :=
  (by decide +kernel : ∀ t : Fin grid0.N, _)

/-- Every operand other than x is staged whole: its block index is 0 on every axis at every point. -/
theorem idx_whole : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ win0_4.index t (0 : Fin 1) = 0
    ∧ win0_5.index t (0 : Fin 1) = 0
    ∧ win0_6.index t (0 : Fin 1) = 0
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-! ## A point's operand blocks as parts of the arrays -/

/-- The weight of the first projection is staged whole: the block is the array. -/
theorem iblk0_1_eq (c : Dev nD) (t : Fin cfg0.N) :
    (iblk0 V c 1 t : Vec Ideal S1024x1024 .bf16) = (V c main_v7 : S1024x1024.Idx → Elt Ideal .bf16) := by
  funext j
  unfold iblk0
  rw [View.read_apply]
  show V c main_v7 _ = V c main_v7 j
  congr 1
  funext a
  apply Fin.ext
  obtain ⟨⟨e0, e1⟩, -⟩ := idx_whole t
  match a with
  | ⟨0, _⟩ => show win0_1.index t (0 : Fin 2) * 1024 + 1 * (j 0).val = (j 0).val; omega
  | ⟨1, _⟩ => show win0_1.index t (1 : Fin 2) * 1024 + 1 * (j 1).val = (j 1).val; omega

theorem iblk0_2_eq (c : Dev nD) (t : Fin cfg0.N) :
    (iblk0 V c 2 t : Vec Ideal S1024x1024 .bf16) = (V c main_v9 : S1024x1024.Idx → Elt Ideal .bf16) := by
  funext j
  unfold iblk0
  rw [View.read_apply]
  show V c main_v9 _ = V c main_v9 j
  congr 1
  funext a
  apply Fin.ext
  obtain ⟨-, ⟨e0, e1⟩, -, -, -, -, -, -, -, -, -, -⟩ := idx_whole t
  match a with
  | ⟨0, _⟩ => show win0_2.index t (0 : Fin 2) * 1024 + 1 * (j 0).val = (j 0).val; omega
  | ⟨1, _⟩ => show win0_2.index t (1 : Fin 2) * 1024 + 1 * (j 1).val = (j 1).val; omega

theorem iblk0_3_eq (c : Dev nD) (t : Fin cfg0.N) :
    (iblk0 V c 3 t : Vec Ideal S1024x1024 .bf16) = (V c main_v11 : S1024x1024.Idx → Elt Ideal .bf16) := by
  funext j
  unfold iblk0
  rw [View.read_apply]
  show V c main_v11 _ = V c main_v11 j
  congr 1
  funext a
  apply Fin.ext
  obtain ⟨-, -, ⟨e0, e1⟩, -, -, -, -, -, -, -, -, -⟩ := idx_whole t
  match a with
  | ⟨0, _⟩ => show win0_3.index t (0 : Fin 2) * 1024 + 1 * (j 0).val = (j 0).val; omega
  | ⟨1, _⟩ => show win0_3.index t (1 : Fin 2) * 1024 + 1 * (j 1).val = (j 1).val; omega

theorem iblk0_4_eq (c : Dev nD) (t : Fin cfg0.N) :
    (iblk0 V c 4 t : Vec Ideal S1024 .f32) = (V c main_v3 : S1024.Idx → Elt Ideal .f32) := by
  funext j
  unfold iblk0
  rw [View.read_apply]
  show V c main_v3 _ = V c main_v3 j
  congr 1
  funext a
  apply Fin.ext
  obtain ⟨-, -, -, e0, -, -, -, -, -, -, -, -⟩ := idx_whole t
  match a with
  | ⟨0, _⟩ => show win0_4.index t (0 : Fin 1) * 1024 + 1 * (j 0).val = (j 0).val; omega

theorem iblk0_5_eq (c : Dev nD) (t : Fin cfg0.N) :
    (iblk0 V c 5 t : Vec Ideal S1024 .f32) = (V c main_v4 : S1024.Idx → Elt Ideal .f32) := by
  funext j
  unfold iblk0
  rw [View.read_apply]
  show V c main_v4 _ = V c main_v4 j
  congr 1
  funext a
  apply Fin.ext
  obtain ⟨-, -, -, -, e0, -, -, -, -, -, -, -⟩ := idx_whole t
  match a with
  | ⟨0, _⟩ => show win0_5.index t (0 : Fin 1) * 1024 + 1 * (j 0).val = (j 0).val; omega

theorem iblk0_6_eq (c : Dev nD) (t : Fin cfg0.N) :
    (iblk0 V c 6 t : Vec Ideal S1024 .f32) = (V c main_v5 : S1024.Idx → Elt Ideal .f32) := by
  funext j
  unfold iblk0
  rw [View.read_apply]
  show V c main_v5 _ = V c main_v5 j
  congr 1
  funext a
  apply Fin.ext
  obtain ⟨-, -, -, -, -, e0, -, -, -, -, -, -⟩ := idx_whole t
  match a with
  | ⟨0, _⟩ => show win0_6.index t (0 : Fin 1) * 1024 + 1 * (j 0).val = (j 0).val; omega

theorem iblk0_7_eq (c : Dev nD) (t : Fin cfg0.N) :
    (iblk0 V c 7 t : Vec Ideal S1024x8 .bf16) = (V c main_v13 : S1024x8.Idx → Elt Ideal .bf16) := by
  funext j
  unfold iblk0
  rw [View.read_apply]
  show V c main_v13 _ = V c main_v13 j
  congr 1
  funext a
  apply Fin.ext
  obtain ⟨-, -, -, -, -, -, ⟨e0, e1⟩, -, -, -, -, -⟩ := idx_whole t
  match a with
  | ⟨0, _⟩ => show win0_7.index t (0 : Fin 2) * 1024 + 1 * (j 0).val = (j 0).val; omega
  | ⟨1, _⟩ => show win0_7.index t (1 : Fin 2) * 8 + 1 * (j 1).val = (j 1).val; omega

theorem iblk0_8_eq (c : Dev nD) (t : Fin cfg0.N) :
    (iblk0 V c 8 t : Vec Ideal S8x1024 .bf16) = (V c main_v15 : S8x1024.Idx → Elt Ideal .bf16) := by
  funext j
  unfold iblk0
  rw [View.read_apply]
  show V c main_v15 _ = V c main_v15 j
  congr 1
  funext a
  apply Fin.ext
  obtain ⟨-, -, -, -, -, -, -, ⟨e0, e1⟩, -, -, -, -⟩ := idx_whole t
  match a with
  | ⟨0, _⟩ => show win0_8.index t (0 : Fin 2) * 8 + 1 * (j 0).val = (j 0).val; omega
  | ⟨1, _⟩ => show win0_8.index t (1 : Fin 2) * 1024 + 1 * (j 1).val = (j 1).val; omega

theorem iblk0_9_eq (c : Dev nD) (t : Fin cfg0.N) :
    (iblk0 V c 9 t : Vec Ideal S1024x8 .bf16) = (V c main_v17 : S1024x8.Idx → Elt Ideal .bf16) := by
  funext j
  unfold iblk0
  rw [View.read_apply]
  show V c main_v17 _ = V c main_v17 j
  congr 1
  funext a
  apply Fin.ext
  obtain ⟨-, -, -, -, -, -, -, -, ⟨e0, e1⟩, -, -, -⟩ := idx_whole t
  match a with
  | ⟨0, _⟩ => show win0_9.index t (0 : Fin 2) * 1024 + 1 * (j 0).val = (j 0).val; omega
  | ⟨1, _⟩ => show win0_9.index t (1 : Fin 2) * 8 + 1 * (j 1).val = (j 1).val; omega

theorem iblk0_10_eq (c : Dev nD) (t : Fin cfg0.N) :
    (iblk0 V c 10 t : Vec Ideal S8x1024 .bf16) = (V c main_v19 : S8x1024.Idx → Elt Ideal .bf16) := by
  funext j
  unfold iblk0
  rw [View.read_apply]
  show V c main_v19 _ = V c main_v19 j
  congr 1
  funext a
  apply Fin.ext
  obtain ⟨-, -, -, -, -, -, -, -, -, ⟨e0, e1⟩, -, -⟩ := idx_whole t
  match a with
  | ⟨0, _⟩ => show win0_10.index t (0 : Fin 2) * 8 + 1 * (j 0).val = (j 0).val; omega
  | ⟨1, _⟩ => show win0_10.index t (1 : Fin 2) * 1024 + 1 * (j 1).val = (j 1).val; omega

theorem iblk0_11_eq (c : Dev nD) (t : Fin cfg0.N) :
    (iblk0 V c 11 t : Vec Ideal S1024x8 .bf16) = (V c main_v21 : S1024x8.Idx → Elt Ideal .bf16) := by
  funext j
  unfold iblk0
  rw [View.read_apply]
  show V c main_v21 _ = V c main_v21 j
  congr 1
  funext a
  apply Fin.ext
  obtain ⟨-, -, -, -, -, -, -, -, -, -, ⟨e0, e1⟩, -⟩ := idx_whole t
  match a with
  | ⟨0, _⟩ => show win0_11.index t (0 : Fin 2) * 1024 + 1 * (j 0).val = (j 0).val; omega
  | ⟨1, _⟩ => show win0_11.index t (1 : Fin 2) * 8 + 1 * (j 1).val = (j 1).val; omega

theorem iblk0_12_eq (c : Dev nD) (t : Fin cfg0.N) :
    (iblk0 V c 12 t : Vec Ideal S8x1024 .bf16) = (V c main_v23 : S8x1024.Idx → Elt Ideal .bf16) := by
  funext j
  unfold iblk0
  rw [View.read_apply]
  show V c main_v23 _ = V c main_v23 j
  congr 1
  funext a
  apply Fin.ext
  obtain ⟨-, -, -, -, -, -, -, -, -, -, -, ⟨e0, e1⟩⟩ := idx_whole t
  match a with
  | ⟨0, _⟩ => show win0_12.index t (0 : Fin 2) * 8 + 1 * (j 0).val = (j 0).val; omega
  | ⟨1, _⟩ => show win0_12.index t (1 : Fin 2) * 1024 + 1 * (j 1).val = (j 1).val; omega

/-- Row r of a point's x block is row 256·l + r of batch entry n, for n and l the block's batch and row block indices. -/
theorem iblk0_0_apply (c : Dev nD) (t : Fin cfg0.N) (r : Fin 256) (k : Fin 1024) (n : Fin 4) (l : Fin 1024)
    (hn : n.val = win0_0.index t (0 : Fin 3)) (hl : l.val = win0_0.index t (1 : Fin 3) * 256 + r.val) :
    (iblk0 V c 0 t : Vec Ideal S1x256x1024 .f32) (ix3 0 r k) = (V c main_arg0 : Spec.SX.Idx → EReal) (ix3 n l k) := by
  unfold iblk0
  rw [View.read_apply]
  show V c main_arg0 _ = V c main_arg0 _
  congr 1
  funext a
  apply Fin.ext
  have e2 := idx_x t
  match a with
  | ⟨0, _⟩ => show win0_0.index t (0 : Fin 3) * 1 + 1 * 0 = n.val; omega
  | ⟨1, _⟩ => show win0_0.index t (1 : Fin 3) * 256 + 1 * r.val = l.val; omega
  | ⟨2, _⟩ => show win0_0.index t (2 : Fin 3) * 1024 + 1 * k.val = k.val; omega

/-! ## The specification at a block's index -/

/-- The projection of a row that is row (i 0, i 2) of x, at the channel of head i 1 and lane i 3, is the whole-array
    projection at i. -/
theorem projRow_eq_projTA (a0 : Spec.SX.Idx → EReal) (WT : Spec.SW.Idx → EReal) (b : Spec.SV.Idx → EReal)
    (AT : Spec.SB.Idx → EReal) (BT : Spec.SA.Idx → EReal) (xr : Fin 1024 → EReal) (h : Fin 16) (d : Fin 64) (i : Spec.SH.Idx)
    (hx : ∀ k, xr k = a0 (ix3 (i 0) (i 2) k)) (h1 : i 1 = h) (h3 : i 3 = d) :
    Spec.projRow xr (fun o k => WT (ix2 k o)) (fun o => b (ix1 o)) (fun r k => AT (ix2 k r)) (fun o r => BT (ix2 r o)) (Spec.oc h d)
      = Spec.projTA a0 WT b AT BT i := by
  unfold Spec.projTA
  rw [h1, h3, show xr = fun k => a0 (ix3 (i 0) (i 2) k) from funext hx]

/-! ## The query output -/

/-- The query output's block sits at (n, 0, l, 0) where the x block sits at (n, l, 0). -/
theorem idx_out_q : ∀ t : Fin cfg0.N,
    win0_0.index t (0 : Fin 3) = win0_13.index t (0 : Fin 4)
    ∧ win0_0.index t (1 : Fin 3) = win0_13.index t (2 : Fin 4)
    ∧ win0_13.index t (1 : Fin 4) = 0
    ∧ win0_13.index t (3 : Fin 4) = 0 :=
  (by decide +kernel : ∀ t : Fin grid0.N, _)

/-- Every pair of a batch entry and a row block is some point's. -/
theorem idx_onto_q : ∀ (q0 : Fin 4) (q2 : Fin 4), ∃ t : Fin cfg0.N,
    win0_13.index t (0 : Fin 4) = q0.val ∧ win0_13.index t (2 : Fin 4) = q2.val :=
  (by decide +kernel : ∀ (q0 : Fin 4) (q2 : Fin 4), ∃ t : Fin grid0.N, _)

/-- What a point writes back to the query array is its block of the whole-array projection. -/
theorem flushed_q (c : Dev nD) (t : Fin cfg0.N) :
    (dat0 V c).flushed 13 t = ((cfg0.win 13).blk t).view.read (Elt Ideal)
      (Spec.projTA (V c main_arg0) (V c main_v7) (V c main_v3) (V c main_v13) (V c main_v15)) := by
  show (cfg0.win 13).cut (grid0.coords t) ((dat0 V c).after 13 t) = _
  rw [after0_13]
  funext y
  refine (block0_q _ _ _ _ _ _ _ _ _ _ _ _ _ y).trans ?_
  rw [iblk0_1_eq V c t, iblk0_4_eq V c t, iblk0_7_eq V c t, iblk0_8_eq V c t]
  obtain ⟨e0, e1, e2, e3⟩ := idx_out_q t
  have hy0 : (y 0).val < 1 := (y 0).isLt
  refine projRow_eq_projTA _ _ _ _ _ _ (y 1) (y 3) (((cfg0.win 13).blk t).view.emb y) (fun k => ?_) ?_ ?_
  · refine iblk0_0_apply V c t (y 2) k _ _ ?_ ?_
    · show win0_13.index t (0 : Fin 4) * 1 + 1 * (y 0).val = win0_0.index t (0 : Fin 3); omega
    · show win0_13.index t (2 : Fin 4) * 256 + 1 * (y 2).val = win0_0.index t (1 : Fin 3) * 256 + (y 2).val; omega
  · apply Fin.ext; show win0_13.index t (1 : Fin 4) * 16 + 1 * (y 1).val = (y 1).val; omega
  · apply Fin.ext; show win0_13.index t (3 : Fin 4) * 64 + 1 * (y 3).val = (y 3).val; omega

/-- An index is in a point's block iff each coordinate is in the block's range on its axis. -/
theorem mem_blk_q (t : Fin cfg0.N) (i : S4x16x1024x64.Idx) :
    i ∈ ((cfg0.win 13).blk t).view.set ↔ ∀ a : Fin 4, win0_13.index t a * S1x16x256x64.size a ≤ (i a).val ∧ (i a).val < win0_13.index t a * S1x16x256x64.size a + S1x16x256x64.size a := by
  show i ∈ ((View.whole main_v24_0).slice (win0_13.rect t)).set ↔ _
  rw [View.set_slice_whole, Rect.mem_set_unit]
  exact Iff.rfl

/-- Index (n, h, r, d) is in the block of the point with batch entry n and row block r / 256. -/
theorem cover_q (i : S4x16x1024x64.Idx) : ∃ t : Fin cfg0.N, (cfg0.win 13).flush t = true ∧ i ∈ ((cfg0.win 13).blk t).view.set := by
  have hi0 : (i 0).val < 4 := (i 0).isLt
  have hi1 : (i 1).val < 16 := (i 1).isLt
  have hi2 : (i 2).val < 1024 := (i 2).isLt
  have hi3 : (i 3).val < 64 := (i 3).isLt
  obtain ⟨t, q0, q2⟩ := idx_onto_q ⟨(i 0).val, hi0⟩ ⟨(i 2).val / 256, by omega⟩
  have q0' : win0_13.index t (0 : Fin 4) = (i 0).val := q0
  have q2' : win0_13.index t (2 : Fin 4) = (i 2).val / 256 := q2
  obtain ⟨-, -, e2, e3⟩ := idx_out_q t
  refine ⟨t, flush0_13 t, ?_⟩
  rw [mem_blk_q]
  intro a
  match a with
  | ⟨0, _⟩ => show win0_13.index t (0 : Fin 4) * 1 ≤ (i 0).val ∧ (i 0).val < win0_13.index t (0 : Fin 4) * 1 + 1; omega
  | ⟨1, _⟩ => show win0_13.index t (1 : Fin 4) * 16 ≤ (i 1).val ∧ (i 1).val < win0_13.index t (1 : Fin 4) * 16 + 16; omega
  | ⟨2, _⟩ => show win0_13.index t (2 : Fin 4) * 256 ≤ (i 2).val ∧ (i 2).val < win0_13.index t (2 : Fin 4) * 256 + 256; omega
  | ⟨3, _⟩ => show win0_13.index t (3 : Fin 4) * 64 ≤ (i 3).val ∧ (i 3).val < win0_13.index t (3 : Fin 4) * 64 + 64; omega

/-- The query output array after the region. -/
theorem region0_q (c : Dev nD) : (dat0 (F := Ideal) V c).arrAt 13 cfg0.N
    = Spec.projTA (V c main_arg0) (V c main_v7) (V c main_v3) (V c main_v13) (V c main_v15) :=
  (dat0 V c).arrAt_eq_of_cover 13 _ (fun t _ => flushed_q V c t) cover_q

/-! ## The key output -/

/-- The key output's block sits at (n, 0, l, 0) where the x block sits at (n, l, 0). -/
theorem idx_out_k : ∀ t : Fin cfg0.N,
    win0_0.index t (0 : Fin 3) = win0_14.index t (0 : Fin 4)
    ∧ win0_0.index t (1 : Fin 3) = win0_14.index t (2 : Fin 4)
    ∧ win0_14.index t (1 : Fin 4) = 0
    ∧ win0_14.index t (3 : Fin 4) = 0 :=
  (by decide +kernel : ∀ t : Fin grid0.N, _)

/-- Every pair of a batch entry and a row block is some point's. -/
theorem idx_onto_k : ∀ (q0 : Fin 4) (q2 : Fin 4), ∃ t : Fin cfg0.N,
    win0_14.index t (0 : Fin 4) = q0.val ∧ win0_14.index t (2 : Fin 4) = q2.val :=
  (by decide +kernel : ∀ (q0 : Fin 4) (q2 : Fin 4), ∃ t : Fin grid0.N, _)

/-- What a point writes back to the key array is its block of the whole-array projection. -/
theorem flushed_k (c : Dev nD) (t : Fin cfg0.N) :
    (dat0 V c).flushed 14 t = ((cfg0.win 14).blk t).view.read (Elt Ideal)
      (Spec.projTA (V c main_arg0) (V c main_v9) (V c main_v4) (V c main_v17) (V c main_v19)) := by
  show (cfg0.win 14).cut (grid0.coords t) ((dat0 V c).after 14 t) = _
  rw [after0_14]
  funext y
  refine (block0_k _ _ _ _ _ _ _ _ _ _ _ _ _ y).trans ?_
  rw [iblk0_2_eq V c t, iblk0_5_eq V c t, iblk0_9_eq V c t, iblk0_10_eq V c t]
  obtain ⟨e0, e1, e2, e3⟩ := idx_out_k t
  have hy0 : (y 0).val < 1 := (y 0).isLt
  refine projRow_eq_projTA _ _ _ _ _ _ (y 1) (y 3) (((cfg0.win 14).blk t).view.emb y) (fun k => ?_) ?_ ?_
  · refine iblk0_0_apply V c t (y 2) k _ _ ?_ ?_
    · show win0_14.index t (0 : Fin 4) * 1 + 1 * (y 0).val = win0_0.index t (0 : Fin 3); omega
    · show win0_14.index t (2 : Fin 4) * 256 + 1 * (y 2).val = win0_0.index t (1 : Fin 3) * 256 + (y 2).val; omega
  · apply Fin.ext; show win0_14.index t (1 : Fin 4) * 16 + 1 * (y 1).val = (y 1).val; omega
  · apply Fin.ext; show win0_14.index t (3 : Fin 4) * 64 + 1 * (y 3).val = (y 3).val; omega

/-- An index is in a point's block iff each coordinate is in the block's range on its axis. -/
theorem mem_blk_k (t : Fin cfg0.N) (i : S4x16x1024x64.Idx) :
    i ∈ ((cfg0.win 14).blk t).view.set ↔ ∀ a : Fin 4, win0_14.index t a * S1x16x256x64.size a ≤ (i a).val ∧ (i a).val < win0_14.index t a * S1x16x256x64.size a + S1x16x256x64.size a := by
  show i ∈ ((View.whole main_v24_1).slice (win0_14.rect t)).set ↔ _
  rw [View.set_slice_whole, Rect.mem_set_unit]
  exact Iff.rfl

/-- Index (n, h, r, d) is in the block of the point with batch entry n and row block r / 256. -/
theorem cover_k (i : S4x16x1024x64.Idx) : ∃ t : Fin cfg0.N, (cfg0.win 14).flush t = true ∧ i ∈ ((cfg0.win 14).blk t).view.set := by
  have hi0 : (i 0).val < 4 := (i 0).isLt
  have hi1 : (i 1).val < 16 := (i 1).isLt
  have hi2 : (i 2).val < 1024 := (i 2).isLt
  have hi3 : (i 3).val < 64 := (i 3).isLt
  obtain ⟨t, q0, q2⟩ := idx_onto_k ⟨(i 0).val, hi0⟩ ⟨(i 2).val / 256, by omega⟩
  have q0' : win0_14.index t (0 : Fin 4) = (i 0).val := q0
  have q2' : win0_14.index t (2 : Fin 4) = (i 2).val / 256 := q2
  obtain ⟨-, -, e2, e3⟩ := idx_out_k t
  refine ⟨t, flush0_14 t, ?_⟩
  rw [mem_blk_k]
  intro a
  match a with
  | ⟨0, _⟩ => show win0_14.index t (0 : Fin 4) * 1 ≤ (i 0).val ∧ (i 0).val < win0_14.index t (0 : Fin 4) * 1 + 1; omega
  | ⟨1, _⟩ => show win0_14.index t (1 : Fin 4) * 16 ≤ (i 1).val ∧ (i 1).val < win0_14.index t (1 : Fin 4) * 16 + 16; omega
  | ⟨2, _⟩ => show win0_14.index t (2 : Fin 4) * 256 ≤ (i 2).val ∧ (i 2).val < win0_14.index t (2 : Fin 4) * 256 + 256; omega
  | ⟨3, _⟩ => show win0_14.index t (3 : Fin 4) * 64 ≤ (i 3).val ∧ (i 3).val < win0_14.index t (3 : Fin 4) * 64 + 64; omega

/-- The key output array after the region. -/
theorem region0_k (c : Dev nD) : (dat0 (F := Ideal) V c).arrAt 14 cfg0.N
    = Spec.projTA (V c main_arg0) (V c main_v9) (V c main_v4) (V c main_v17) (V c main_v19) :=
  (dat0 V c).arrAt_eq_of_cover 14 _ (fun t _ => flushed_k V c t) cover_k

/-! ## The value output -/

/-- The value output's block sits at (n, 0, l, 0) where the x block sits at (n, l, 0). -/
theorem idx_out_v : ∀ t : Fin cfg0.N,
    win0_0.index t (0 : Fin 3) = win0_15.index t (0 : Fin 4)
    ∧ win0_0.index t (1 : Fin 3) = win0_15.index t (2 : Fin 4)
    ∧ win0_15.index t (1 : Fin 4) = 0
    ∧ win0_15.index t (3 : Fin 4) = 0 :=
  (by decide +kernel : ∀ t : Fin grid0.N, _)

/-- Every pair of a batch entry and a row block is some point's. -/
theorem idx_onto_v : ∀ (q0 : Fin 4) (q2 : Fin 4), ∃ t : Fin cfg0.N,
    win0_15.index t (0 : Fin 4) = q0.val ∧ win0_15.index t (2 : Fin 4) = q2.val :=
  (by decide +kernel : ∀ (q0 : Fin 4) (q2 : Fin 4), ∃ t : Fin grid0.N, _)

/-- What a point writes back to the value array is its block of the whole-array projection. -/
theorem flushed_v (c : Dev nD) (t : Fin cfg0.N) :
    (dat0 V c).flushed 15 t = ((cfg0.win 15).blk t).view.read (Elt Ideal)
      (Spec.projTA (V c main_arg0) (V c main_v11) (V c main_v5) (V c main_v21) (V c main_v23)) := by
  show (cfg0.win 15).cut (grid0.coords t) ((dat0 V c).after 15 t) = _
  rw [after0_15]
  funext y
  refine (block0_v _ _ _ _ _ _ _ _ _ _ _ _ _ y).trans ?_
  rw [iblk0_3_eq V c t, iblk0_6_eq V c t, iblk0_11_eq V c t, iblk0_12_eq V c t]
  obtain ⟨e0, e1, e2, e3⟩ := idx_out_v t
  have hy0 : (y 0).val < 1 := (y 0).isLt
  refine projRow_eq_projTA _ _ _ _ _ _ (y 1) (y 3) (((cfg0.win 15).blk t).view.emb y) (fun k => ?_) ?_ ?_
  · refine iblk0_0_apply V c t (y 2) k _ _ ?_ ?_
    · show win0_15.index t (0 : Fin 4) * 1 + 1 * (y 0).val = win0_0.index t (0 : Fin 3); omega
    · show win0_15.index t (2 : Fin 4) * 256 + 1 * (y 2).val = win0_0.index t (1 : Fin 3) * 256 + (y 2).val; omega
  · apply Fin.ext; show win0_15.index t (1 : Fin 4) * 16 + 1 * (y 1).val = (y 1).val; omega
  · apply Fin.ext; show win0_15.index t (3 : Fin 4) * 64 + 1 * (y 3).val = (y 3).val; omega

/-- An index is in a point's block iff each coordinate is in the block's range on its axis. -/
theorem mem_blk_v (t : Fin cfg0.N) (i : S4x16x1024x64.Idx) :
    i ∈ ((cfg0.win 15).blk t).view.set ↔ ∀ a : Fin 4, win0_15.index t a * S1x16x256x64.size a ≤ (i a).val ∧ (i a).val < win0_15.index t a * S1x16x256x64.size a + S1x16x256x64.size a := by
  show i ∈ ((View.whole main_v24_2).slice (win0_15.rect t)).set ↔ _
  rw [View.set_slice_whole, Rect.mem_set_unit]
  exact Iff.rfl

/-- Index (n, h, r, d) is in the block of the point with batch entry n and row block r / 256. -/
theorem cover_v (i : S4x16x1024x64.Idx) : ∃ t : Fin cfg0.N, (cfg0.win 15).flush t = true ∧ i ∈ ((cfg0.win 15).blk t).view.set := by
  have hi0 : (i 0).val < 4 := (i 0).isLt
  have hi1 : (i 1).val < 16 := (i 1).isLt
  have hi2 : (i 2).val < 1024 := (i 2).isLt
  have hi3 : (i 3).val < 64 := (i 3).isLt
  obtain ⟨t, q0, q2⟩ := idx_onto_v ⟨(i 0).val, hi0⟩ ⟨(i 2).val / 256, by omega⟩
  have q0' : win0_15.index t (0 : Fin 4) = (i 0).val := q0
  have q2' : win0_15.index t (2 : Fin 4) = (i 2).val / 256 := q2
  obtain ⟨-, -, e2, e3⟩ := idx_out_v t
  refine ⟨t, flush0_15 t, ?_⟩
  rw [mem_blk_v]
  intro a
  match a with
  | ⟨0, _⟩ => show win0_15.index t (0 : Fin 4) * 1 ≤ (i 0).val ∧ (i 0).val < win0_15.index t (0 : Fin 4) * 1 + 1; omega
  | ⟨1, _⟩ => show win0_15.index t (1 : Fin 4) * 16 ≤ (i 1).val ∧ (i 1).val < win0_15.index t (1 : Fin 4) * 16 + 16; omega
  | ⟨2, _⟩ => show win0_15.index t (2 : Fin 4) * 256 ≤ (i 2).val ∧ (i 2).val < win0_15.index t (2 : Fin 4) * 256 + 256; omega
  | ⟨3, _⟩ => show win0_15.index t (3 : Fin 4) * 64 ≤ (i 3).val ∧ (i 3).val < win0_15.index t (3 : Fin 4) * 64 + 64; omega

/-- The value output array after the region. -/
theorem region0_v (c : Dev nD) : (dat0 (F := Ideal) V c).arrAt 15 cfg0.N
    = Spec.projTA (V c main_arg0) (V c main_v11) (V c main_v5) (V c main_v21) (V c main_v23) :=
  (dat0 V c).arrAt_eq_of_cover 15 _ (fun t _ => flushed_v V c t) cover_v

end Cert.KernelIdeal.Val

end
-- ==== Proof.KBlock1.lean ====
/-
  What one grid point of the attention kernel leaves in its output block, at an index: the attention of the head the
  point holds — rows normalised, cosine logits times the head's scale, the softmax with the row maximum subtracted, the
  weighted average of the value rows.
-/
import proofs.«154373_j91061896609820_1_alg».proof.Proof.Gen.KernelIdeal.Frame
import proofs.«154373_j91061896609820_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)

/-! ## Layout: a head's block as a matrix, a column of row values, its spread along the rows -/

/-- A [1,1,1024,64] block viewed as a [1024,64] matrix reads (l, d) at (0, 0, l, d). -/
theorem blockMat_apply (T : Vec Ideal S1x1x1024x64 .f32) (l : Fin 1024) (d : Fin 64) :
    (shapeCast S1024x64 (shapeCast S1x1x1024x64 T shapeCasts_S1x1x1024x64_S1x1x1024x64) shapeCasts_S1x1x1024x64_S1024x64
        : FVec Ideal S1024x64 .f32) (ix2 l d) = T (ix4 0 0 l d) := by
  rw [shapeCast_self]
  refine shapeCast_apply _ _ (ix2 l d) (ix4 0 0 l d) ?_
  rw [Shape.rowMajor_val_four, Shape.rowMajor_val_two]
  show ((0 * 1 + 0) * 1024 + l.val) * 64 + d.val = l.val * 64 + d.val
  omega

/-- A vector of 1024 row values viewed as a column reads row l at (l, 0). -/
theorem column_apply (v : FVec Ideal S1024 .f32) (l : Fin 1024) (z : Fin 1) :
    (shapeCast S1024x1 v shapeCasts_S1024_S1024x1 : FVec Ideal S1024x1 .f32) (ix2 l z) = v (ix1 l) := by
  refine shapeCast_apply _ _ (ix2 l z) (ix1 l) ?_
  rw [Shape.rowMajor_val_one, Shape.rowMajor_val_two]
  show l.val = l.val * 1 + z.val
  omega

/-- A column spread along rows of 64 lanes reads row l everywhere in row l. -/
theorem spread64_apply (c : FVec Ideal S1024x1 .f32) (l : Fin 1024) (d : Fin 64) :
    (broadcastTo S1024x64 c broadcasts_S1024x1_S1024x64 : FVec Ideal S1024x64 .f32) (ix2 l d) = c (ix2 l 0) := by
  refine broadcastTo_apply _ _ (ix2 l d) (ix2 l 0) fun a => ?_
  match a with
  | ⟨0, _⟩ => rfl
  | ⟨1, _⟩ => rfl

/-- A column spread along rows of 1024 entries reads row l everywhere in row l. -/
theorem spread1024_apply (c : FVec Ideal S1024x1 .f32) (l : Fin 1024) (j : Fin 1024) :
    (broadcastTo S1024x1024 c broadcasts_S1024x1_S1024x1024 : FVec Ideal S1024x1024 .f32) (ix2 l j) = c (ix2 l 0) := by
  refine broadcastTo_apply _ _ (ix2 l j) (ix2 l 0) fun a => ?_
  match a with
  | ⟨0, _⟩ => rfl
  | ⟨1, _⟩ => rfl

/-! ## A head's rows, normalised -/

/-- The sum over the 64 lanes of row l of a [1024,64] matrix. -/
theorem rowSum64_apply (m : FVec Ideal S1024x64 .f32) (l : Fin 1024) :
    (multiReduction .add [1] S1024 m 0x00000000#32 reduces_S1024x64_S1024 (.inl rfl) rfl : FVec Ideal S1024 .f32) (ix1 l)
      = ∑ e : Fin 64, m (ix2 l e) := by
  refine (Ideal.multiReduction_add_single m 0x00000000#32 reduces_S1024x64_S1024 (.inl rfl) rfl (ix1 l)).trans ?_
  show ∑ e : Fin 64, m (reduces_S1024x64_S1024.lift (ix1 l) e) = _
  refine Finset.sum_congr rfl fun e _ => congrArg m ?_
  funext a
  match a with
  | ⟨0, _⟩ => exact Fin.ext rfl
  | ⟨1, _⟩ => exact Fin.ext rfl

/-- Each row of a [1024,64] matrix divided by the larger of its norm and the floor. -/
theorem nrm_apply (v : FVec Ideal S1024x64 .f32) (l : Fin 1024) (d : Fin 64) :
    (divf v (broadcastTo S1024x64 (maximumf (sqrt (shapeCast S1024x1
        (multiReduction .add [1] S1024 (mulf v v) 0x00000000#32 reduces_S1024x64_S1024 (.inl rfl) rfl) shapeCasts_S1024_S1024x1))
        (broadcast S1024x1 (Scalar.ofBits (F := Ideal) .f32 0x2B8CBCCC#32))) broadcasts_S1024x1_S1024x64)
        : FVec Ideal S1024x64 .f32) (ix2 l d)
      = Spec.nrmH (fun l d => v (ix2 l d)) l d := by
  rw [divf_apply, spread64_apply, maximumf_apply]
  show Ideal.div (v (ix2 l d)) (max (Ideal.sqrt ((shapeCast S1024x1 _ shapeCasts_S1024_S1024x1 : FVec Ideal S1024x1 .f32) (ix2 l 0)))
      (Ideal.ofBits .f32 0x2B8CBCCC#32)) = _
  rw [column_apply, rowSum64_apply]
  rfl

/-! ## The product of the normalised rows -/

theorem lhsQK_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhsQK_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhsQK_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhsQK_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- A [1024,64] by [64,1024] product into zero, at (l, j): the sum over the 64 lanes. -/
theorem matQK_apply (a : FVec Ideal S1024x64 .bf16) (b : FVec Ideal S64x1024 .bf16) (l j : Fin 1024) :
    (matmul dot_S1024x64_S64x1024_S1024x1024_1_0_0_1_n_n none a b (constant (F := Ideal) S1024x1024 .f32 0x00000000#32)
        : FVec Ideal S1024x1024 .f32) (ix2 l j)
      = ∑ d : Fin 64, a (ix2 l d) * b (ix2 d j) := by
  simp only [matmul]
  rw [Ideal.matmul_constant_zero_apply, ← Equiv.sum_comp (ValueIdx.contrEquiv1 dot_S1024x64_S64x1024_S1024x1024_1_0_0_1_n_n 64 rfl rfl).symm]
  refine Finset.sum_congr rfl fun k _ => ?_
  have hk := ValueIdx.contrEquiv1_symm_val dot_S1024x64_S64x1024_S1024x1024_1_0_0_1_n_n 64 rfl rfl k
  have el : dot_S1024x64_S64x1024_S1024x1024_1_0_0_1_n_n.lhsIdx (ix2 l j) ((ValueIdx.contrEquiv1 dot_S1024x64_S64x1024_S1024x1024_1_0_0_1_n_n 64 rfl rfl).symm k) = ix2 l k := funext fun c => Fin.ext (by
    match c with
    | ⟨0, _⟩ => exact lhsQK_0 _ _
    | ⟨1, _⟩ => exact (lhsQK_1 _ _).trans hk)
  have er : dot_S1024x64_S64x1024_S1024x1024_1_0_0_1_n_n.rhsIdx (ix2 l j) ((ValueIdx.contrEquiv1 dot_S1024x64_S64x1024_S1024x1024_1_0_0_1_n_n 64 rfl rfl).symm k) = ix2 k j := funext fun c => Fin.ext (by
    match c with
    | ⟨0, _⟩ => exact (rhsQK_0 _ _).trans hk
    | ⟨1, _⟩ => exact rhsQK_1 _ _)
  rw [el, er]

/-- A [1024,64] matrix transposed reads (d, j) at (j, d). -/
theorem transp_apply (a : FVec Ideal S1024x64 .bf16) (d : Fin 64) (j : Fin 1024) :
    (transpose S64x1024 [1, 0] a transposes_S1024x64_p1_0_S64x1024 : FVec Ideal S64x1024 .bf16) (ix2 d j) = a (ix2 j d) := by
  refine transpose_apply _ _ _ (ix2 d j) (ix2 j d) fun c => ?_
  match c with
  | ⟨0, _⟩ => rfl
  | ⟨1, _⟩ => rfl

/-! ## The scaled logits -/

/-- The head's scale: the one entry of its [1,1,1] block. -/
theorem scale_apply (v9 : Vec Ideal S1x1x1 .f32) :
    extractAt ![0, 0, 0] (shapeCast S1x1x1 v9 shapeCasts_S1x1x1_S1x1x1) inpos_S1x1x1_p0_0_0 = v9 (ix3 0 0 0) := by
  rw [shapeCast_self]
  unfold extractAt
  refine congrArg v9 (funext fun a => ?_)
  match a with
  | ⟨0, _⟩ => rfl
  | ⟨1, _⟩ => rfl
  | ⟨2, _⟩ => rfl

/-- The rows of a head's block, normalised. -/
theorem nrmBlk_apply (T : Vec Ideal S1x1x1024x64 .f32) (l : Fin 1024) (d : Fin 64) :
    (divf (shapeCast S1024x64 (shapeCast S1x1x1024x64 T shapeCasts_S1x1x1024x64_S1x1x1024x64) shapeCasts_S1x1x1024x64_S1024x64)
      (broadcastTo S1024x64 (maximumf (sqrt (shapeCast S1024x1
        (multiReduction .add [1] S1024
          (mulf (shapeCast S1024x64 (shapeCast S1x1x1024x64 T shapeCasts_S1x1x1024x64_S1x1x1024x64) shapeCasts_S1x1x1024x64_S1024x64)
                (shapeCast S1024x64 (shapeCast S1x1x1024x64 T shapeCasts_S1x1x1024x64_S1x1x1024x64) shapeCasts_S1x1x1024x64_S1024x64))
          0x00000000#32 reduces_S1024x64_S1024 (.inl rfl) rfl) shapeCasts_S1024_S1024x1))
        (broadcast S1024x1 (Scalar.ofBits (F := Ideal) .f32 0x2B8CBCCC#32))) broadcasts_S1024x1_S1024x64)
        : FVec Ideal S1024x64 .f32) (ix2 l d)
      = Spec.nrmH (fun l d => T (ix4 0 0 l d)) l d :=
  (nrm_apply _ l d).trans (congrArg (fun f => Spec.nrmH f l d) (funext fun l => funext fun d => blockMat_apply T l d))

/-- The scaled logits at (l, j): the inner product of the normalised q-row l and k-row j, times the scale. -/
theorem pay3_apply (v0 v3 : Vec Ideal S1x1x1024x64 .f32) (v9 : Vec Ideal S1x1x1 .f32) (l j : Fin 1024) :
    k1_pay3 (F := Ideal) v0 v3 v9 (ix2 l j)
      = Spec.logitH (fun l d => v0 (ix4 0 0 l d)) (fun l d => v3 (ix4 0 0 l d)) (v9 (ix3 0 0 0)) l j := by
  unfold k1_pay3
  refine (mulf_apply _ _ _).trans ?_
  refine congrArg₂ (· * ·) ?_ (scale_apply v9)
  refine (matQK_apply _ _ l j).trans ?_
  refine Finset.sum_congr rfl fun d _ => ?_
  refine congrArg₂ (· * ·) ?_ ?_
  · exact nrmBlk_apply v0 l d
  · exact (transp_apply _ d j).trans (nrmBlk_apply v3 j d)

/-! ## A row's maximum and the sum along a row of 1024 entries -/

/-- The maximum over row l of a [1024,1024] matrix, taken from −∞. -/
theorem rowMax1024_apply (m : FVec Ideal S1024x1024 .f32) (l : Fin 1024) :
    (multiReduction .maximumf [1] S1024 m 0xFF800000#32 reduces_S1024x1024_S1024 (.inl rfl) rfl : FVec Ideal S1024 .f32) (ix1 l)
      = (Finset.univ : Finset (Fin 1024)).fold max Spec.ninf (fun j => m (ix2 l j)) := by
  refine (Ideal.multiReduction_maximumf_single m 0xFF800000#32 reduces_S1024x1024_S1024 (.inl rfl) rfl (ix1 l)).trans ?_
  show (Finset.univ : Finset (Fin 1024)).fold max Spec.ninf (fun j => m (reduces_S1024x1024_S1024.lift (ix1 l) j)) = _
  refine congrArg (fun f => (Finset.univ : Finset (Fin 1024)).fold max Spec.ninf f) (funext fun j => congrArg m ?_)
  funext a
  match a with
  | ⟨0, _⟩ => exact Fin.ext rfl
  | ⟨1, _⟩ => exact Fin.ext rfl

/-- The sum over the 1024 entries of row l of a [1024,1024] matrix. -/
theorem rowSum1024_apply (m : FVec Ideal S1024x1024 .f32) (l : Fin 1024) :
    (multiReduction .add [1] S1024 m 0x00000000#32 reduces_S1024x1024_S1024 (.inl rfl) rfl : FVec Ideal S1024 .f32) (ix1 l)
      = ∑ j : Fin 1024, m (ix2 l j) := by
  refine (Ideal.multiReduction_add_single m 0x00000000#32 reduces_S1024x1024_S1024 (.inl rfl) rfl (ix1 l)).trans ?_
  show ∑ j : Fin 1024, m (reduces_S1024x1024_S1024.lift (ix1 l) j) = _
  refine Finset.sum_congr rfl fun j _ => congrArg m ?_
  funext a
  match a with
  | ⟨0, _⟩ => exact Fin.ext rfl
  | ⟨1, _⟩ => exact Fin.ext rfl

/-- The maximum of row l of the scaled logits, taken from −∞. -/
theorem pay4_apply (v0 v3 : Vec Ideal S1x1x1024x64 .f32) (v9 : Vec Ideal S1x1x1 .f32) (l : Fin 1024) :
    k1_pay4 (F := Ideal) v0 v3 v9 (ix1 l)
      = (Finset.univ : Finset (Fin 1024)).fold max Spec.ninf
          (Spec.logitH (fun l d => v0 (ix4 0 0 l d)) (fun l d => v3 (ix4 0 0 l d)) (v9 (ix3 0 0 0)) l) := by
  unfold k1_pay4
  refine (rowMax1024_apply _ l).trans ?_
  exact congrArg (fun f => (Finset.univ : Finset (Fin 1024)).fold max Spec.ninf f) (funext fun j => pay3_apply v0 v3 v9 l j)

/-- The splat of −∞ reads −∞. -/
theorem pay5_apply (l : Fin 1024) : (k1_pay5 (F := Ideal)) (ix1 l) = Spec.ninf := rfl

/-! ## The weights times the value rows -/

theorem lhsPV_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhsPV_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhsPV_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhsPV_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- A [1024,1024] by [1024,64] product into zero, at (l, d): the sum over the 1024 positions. -/
theorem matPV_apply (a : FVec Ideal S1024x1024 .bf16) (b : FVec Ideal S1024x64 .bf16) (l : Fin 1024) (d : Fin 64) :
    (matmul dot_S1024x1024_S1024x64_S1024x64_1_0_0_1_n_n none a b (constant (F := Ideal) S1024x64 .f32 0x00000000#32)
        : FVec Ideal S1024x64 .f32) (ix2 l d)
      = ∑ j : Fin 1024, a (ix2 l j) * b (ix2 j d) := by
  simp only [matmul]
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 l d) ((ValueIdx.contrEquiv1 dot_S1024x1024_S1024x64_S1024x64_1_0_0_1_n_n 1024 rfl rfl).symm k) = ix2 l k := funext fun c => Fin.ext (by
    match c with
    | ⟨0, _⟩ => exact lhsPV_0 _ _
    | ⟨1, _⟩ => exact (lhsPV_1 _ _).trans hk)
  have er : dot_S1024x1024_S1024x64_S1024x64_1_0_0_1_n_n.rhsIdx (ix2 l d) ((ValueIdx.contrEquiv1 dot_S1024x1024_S1024x64_S1024x64_1_0_0_1_n_n 1024 rfl rfl).symm k) = ix2 k d := funext fun c => Fin.ext (by
    match c with
    | ⟨0, _⟩ => exact (rhsPV_0 _ _).trans hk
    | ⟨1, _⟩ => exact rhsPV_1 _ _)
  rw [el, er]

/-- A [1024,64] matrix stored as a [1,1,1024,64] block reads (0, 0, l, d) at (l, d). -/
theorem matBlock_apply (m : FVec Ideal S1024x64 .f32) (a b : Fin 1) (l : Fin 1024) (d : Fin 64) :
    (shapeCast S1x1x1024x64 m shapeCasts_S1024x64_S1x1x1024x64 : FVec Ideal S1x1x1024x64 .f32) (ix4 a b l d) = m (ix2 l d) := by
  refine shapeCast_apply _ _ (ix4 a b l d) (ix2 l d) ?_
  rw [Shape.rowMajor_val_four, Shape.rowMajor_val_two]
  show l.val * 64 + d.val = ((a.val * 1 + b.val) * 1024 + l.val) * 64 + d.val
  have ha := a.isLt
  have hb := b.isLt
  omega

/-- The row's softmax weight: the exponential of the entry less the row's shift, over the row's sum of such
    exponentials. -/
theorem soft_apply (Z : FVec Ideal S1024x1024 .f32) (mx : FVec Ideal S1024 .f32) (l j : Fin 1024) :
    (divf (exp (subf Z (broadcastTo S1024x1024 (shapeCast S1024x1 mx shapeCasts_S1024_S1024x1) broadcasts_S1024x1_S1024x1024)))
        (broadcastTo S1024x1024 (shapeCast S1024x1
          (multiReduction .add [1] S1024
            (exp (subf Z (broadcastTo S1024x1024 (shapeCast S1024x1 mx shapeCasts_S1024_S1024x1) broadcasts_S1024x1_S1024x1024)))
            0x00000000#32 reduces_S1024x1024_S1024 (.inl rfl) rfl) shapeCasts_S1024_S1024x1) broadcasts_S1024x1_S1024x1024)
        : FVec Ideal S1024x1024 .f32) (ix2 l j)
      = Ideal.div (Ideal.exp (Z (ix2 l j) - mx (ix1 l))) (∑ j' : Fin 1024, Ideal.exp (Z (ix2 l j') - mx (ix1 l))) := by
  have hsh : ∀ j' : Fin 1024, (exp (subf Z (broadcastTo S1024x1024 (shapeCast S1024x1 mx shapeCasts_S1024_S1024x1) broadcasts_S1024x1_S1024x1024))
      : FVec Ideal S1024x1024 .f32) (ix2 l j') = Ideal.exp (Z (ix2 l j') - mx (ix1 l)) := fun j' => by
    show Ideal.exp (Z (ix2 l j') - (broadcastTo S1024x1024 (shapeCast S1024x1 mx shapeCasts_S1024_S1024x1) broadcasts_S1024x1_S1024x1024
      : FVec Ideal S1024x1024 .f32) (ix2 l j')) = _
    rw [spread1024_apply, column_apply]
  rw [divf_apply, spread1024_apply, column_apply, rowSum1024_apply, hsh j]
  exact congrArg (Ideal.div _) (Finset.sum_congr rfl fun j' _ => hsh j')

/-! ## The block -/

/-- The value block as a matrix. -/
theorem pay2_apply (T : Vec Ideal S1x1x1024x64 .f32) (l : Fin 1024) (d : Fin 64) :
    k1_pay2 (F := Ideal) T (ix2 l d) = T (ix4 0 0 l d) := by
  unfold k1_pay2
  exact blockMat_apply T l d

/-- The stored block at (·, ·, l, d), over the logits, the row maxima and the value matrix it is computed from: the
    softmax weights of row l against column d of the values. -/
theorem pay1_apply (v8 : FVec Ideal S1024x64 .f32) (v33 : FVec Ideal S1024x1024 .f32) (v34 v35 : FVec Ideal S1024 .f32)
    (a b : Fin 1) (l : Fin 1024) (d : Fin 64) :
    k1_pay1 (F := Ideal) v8 v33 v34 v35 (ix4 a b l d)
      = ∑ j : Fin 1024, Ideal.div (Ideal.exp (v33 (ix2 l j) - max (v35 (ix1 l)) (v34 (ix1 l))))
          (∑ j' : Fin 1024, Ideal.exp (v33 (ix2 l j') - max (v35 (ix1 l)) (v34 (ix1 l)))) * v8 (ix2 j d) := by
  unfold k1_pay1
  refine (matBlock_apply _ a b l d).trans ?_
  refine (matPV_apply _ _ l d).trans ?_
  refine Finset.sum_congr rfl fun j _ => ?_
  refine congrArg₂ (· * ·) ?_ rfl
  exact soft_apply v33 (maximumf v35 v34) l j

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

theorem block1 (x0 x1 x2 : Vec Ideal S1x1x1024x64 .f32) (x3 : Vec Ideal S1x1x1 .f32) (y : S1x1x1024x64.Idx) :
    out1_4 (F := Ideal) x0 x1 x2 x3 y
      = Spec.attnH (fun l d => x0 (ix4 0 0 l d)) (fun l d => x1 (ix4 0 0 l d)) (fun l d => x2 (ix4 0 0 l d))
          (x3 (ix3 0 0 0)) (y 2) (y 3) := by
  obtain ⟨a, b, l, d, rfl⟩ : ∃ (a b : Fin 1) (l : Fin 1024) (d : Fin 64), y = ix4 a b l d := ⟨y 0, y 1, y 2, y 3, eq_ix4 y⟩
  unfold out1_4
  rw [View.canon_unit_zero zeros4]
  simp only [View.ld_unit_zero (S := S1x1x1024x64) zeros4, View.ld_unit_zero (S := S1x1x1) zeros3]
  refine (pay1_apply _ _ _ _ a b l d).trans ?_
  show _ = Spec.attnH (fun l d => x0 (ix4 0 0 l d)) (fun l d => x1 (ix4 0 0 l d)) (fun l d => x2 (ix4 0 0 l d)) (x3 (ix3 0 0 0)) l d
  have hm : max ((k1_pay5 (F := Ideal)) (ix1 l)) (k1_pay4 (F := Ideal) x0 x1 x3 (ix1 l))
      = Spec.rowmaxC (Spec.logitH (fun l d => x0 (ix4 0 0 l d)) (fun l d => x1 (ix4 0 0 l d)) (x3 (ix3 0 0 0)) l) := by
    rw [pay5_apply, pay4_apply]
    rfl
  rw [hm]
  simp only [pay3_apply, pay2_apply]
  rfl

end Cert.KernelIdeal.Val

end
-- ==== Proof.KRegion1.lean ====
/-
  The attention region, read as values: a grid point (n, h) takes head h of batch entry n — its query, key and value
  blocks and the head's scale — and writes the head's attention output; over the grid the output array is the
  attention of the three staged arrays.
-/
import proofs.«154373_j91061896609820_1_alg».proof.Proof.Gen.KernelIdeal.Frame
import proofs.«154373_j91061896609820_1_alg».proof.Proof.Spec
import proofs.«154373_j91061896609820_1_alg».proof.Proof.KBlock1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)
variable (V : (c : Dev nD) → (b : Ref sig .tc) → Buf (Elt Ideal) ((c : Thread nD τ).loc b))

/-- The block indices of the five windows over the grid: the three inputs and the output sit at (n, h, 0, 0), the scale at (h, 0, 0). -/
theorem idx1 : ∀ t : Fin cfg1.N,
    (win1_0.index t (0 : Fin 4) = win1_4.index t (0 : Fin 4) ∧ win1_0.index t (1 : Fin 4) = win1_4.index t (1 : Fin 4)
      ∧ win1_0.index t (2 : Fin 4) = 0 ∧ win1_0.index t (3 : Fin 4) = 0)
    ∧ (win1_1.index t (0 : Fin 4) = win1_4.index t (0 : Fin 4) ∧ win1_1.index t (1 : Fin 4) = win1_4.index t (1 : Fin 4)
      ∧ win1_1.index t (2 : Fin 4) = 0 ∧ win1_1.index t (3 : Fin 4) = 0)
    ∧ (win1_2.index t (0 : Fin 4) = win1_4.index t (0 : Fin 4) ∧ win1_2.index t (1 : Fin 4) = win1_4.index t (1 : Fin 4)
      ∧ win1_2.index t (2 : Fin 4) = 0 ∧ win1_2.index t (3 : Fin 4) = 0)
    ∧ (win1_3.index t (0 : Fin 3) = win1_4.index t (1 : Fin 4) ∧ win1_3.index t (1 : Fin 3) = 0 ∧ win1_3.index t (2 : Fin 3) = 0)
    ∧ (win1_4.index t (0 : Fin 4) ≤ 3 ∧ win1_4.index t (1 : Fin 4) ≤ 15 ∧ win1_4.index t (2 : Fin 4) = 0 ∧ win1_4.index t (3 : Fin 4) = 0) :=
  (by decide +kernel : ∀ t : Fin grid1.N, _)

/-- Every (n, h) is some point's output block. -/
theorem onto1 : ∀ (q0 : Fin 4) (q1 : Fin 16), ∃ t : Fin cfg1.N, win1_4.index t = ![q0.val, q1.val, 0, 0] :=
  (by decide +kernel : ∀ (q0 : Fin 4) (q1 : Fin 16), ∃ t : Fin grid1.N, win1_4.index t = ![q0.val, q1.val, 0, 0])

/-- The query block at a point is head h of batch entry n of the query array. -/
theorem iblk1_0_apply (c : Dev nD) (t : Fin cfg1.N) (l : Fin 1024) (d : Fin 64) (k : Spec.SH.Idx)
    (h0 : (k 0).val = win1_4.index t (0 : Fin 4)) (h1 : (k 1).val = win1_4.index t (1 : Fin 4))
    (h2 : (k 2).val = l.val) (h3 : (k 3).val = d.val) :
    (iblk1 V c 0 t : Vec Ideal S1x1x1024x64 .f32) (ix4 0 0 l d) = (V c main_v24_0 : Spec.SH.Idx → EReal) k := by
  obtain ⟨⟨e0, e1, e2, e3⟩, -⟩ := idx1 t
  unfold iblk1
  rw [View.read_apply]
  show V c main_v24_0 _ = V c main_v24_0 _
  congr 1
  funext a
  apply Fin.ext
  match a with
  | ⟨0, _⟩ => show win1_0.index t (0 : Fin 4) * 1 + 1 * 0 = (k 0).val; omega
  | ⟨1, _⟩ => show win1_0.index t (1 : Fin 4) * 1 + 1 * 0 = (k 1).val; omega
  | ⟨2, _⟩ => show win1_0.index t (2 : Fin 4) * 1024 + 1 * l.val = (k 2).val; omega
  | ⟨3, _⟩ => show win1_0.index t (3 : Fin 4) * 64 + 1 * d.val = (k 3).val; omega

/-- The key block at a point is head h of batch entry n of the key array. -/
theorem iblk1_1_apply (c : Dev nD) (t : Fin cfg1.N) (l : Fin 1024) (d : Fin 64) (k : Spec.SH.Idx)
    (h0 : (k 0).val = win1_4.index t (0 : Fin 4)) (h1 : (k 1).val = win1_4.index t (1 : Fin 4))
    (h2 : (k 2).val = l.val) (h3 : (k 3).val = d.val) :
    (iblk1 V c 1 t : Vec Ideal S1x1x1024x64 .f32) (ix4 0 0 l d) = (V c main_v24_1 : Spec.SH.Idx → EReal) k := by
  obtain ⟨-, ⟨e0, e1, e2, e3⟩, -⟩ := idx1 t
  unfold iblk1
  rw [View.read_apply]
  show V c main_v24_1 _ = V c main_v24_1 _
  congr 1
  funext a
  apply Fin.ext
  match a with
  | ⟨0, _⟩ => show win1_1.index t (0 : Fin 4) * 1 + 1 * 0 = (k 0).val; omega
  | ⟨1, _⟩ => show win1_1.index t (1 : Fin 4) * 1 + 1 * 0 = (k 1).val; omega
  | ⟨2, _⟩ => show win1_1.index t (2 : Fin 4) * 1024 + 1 * l.val = (k 2).val; omega
  | ⟨3, _⟩ => show win1_1.index t (3 : Fin 4) * 64 + 1 * d.val = (k 3).val; omega

/-- The value block at a point is head h of batch entry n of the value array. -/
theorem iblk1_2_apply (c : Dev nD) (t : Fin cfg1.N) (l : Fin 1024) (d : Fin 64) (k : Spec.SH.Idx)
    (h0 : (k 0).val = win1_4.index t (0 : Fin 4)) (h1 : (k 1).val = win1_4.index t (1 : Fin 4))
    (h2 : (k 2).val = l.val) (h3 : (k 3).val = d.val) :
    (iblk1 V c 2 t : Vec Ideal S1x1x1024x64 .f32) (ix4 0 0 l d) = (V c main_v24_2 : Spec.SH.Idx → EReal) k := by
  obtain ⟨-, -, ⟨e0, e1, e2, e3⟩, -⟩ := idx1 t
  unfold iblk1
  rw [View.read_apply]
  show V c main_v24_2 _ = V c main_v24_2 _
  congr 1
  funext a
  apply Fin.ext
  match a with
  | ⟨0, _⟩ => show win1_2.index t (0 : Fin 4) * 1 + 1 * 0 = (k 0).val; omega
  | ⟨1, _⟩ => show win1_2.index t (1 : Fin 4) * 1 + 1 * 0 = (k 1).val; omega
  | ⟨2, _⟩ => show win1_2.index t (2 : Fin 4) * 1024 + 1 * l.val = (k 2).val; omega
  | ⟨3, _⟩ => show win1_2.index t (3 : Fin 4) * 64 + 1 * d.val = (k 3).val; omega

/-- The scale block at a point is head h's entry of the scale array. -/
theorem iblk1_3_apply (c : Dev nD) (t : Fin cfg1.N) (k : Spec.SS.Idx)
    (h0 : (k 0).val = win1_4.index t (1 : Fin 4)) :
    (iblk1 V c 3 t : Vec Ideal S1x1x1 .f32) (ix3 0 0 0) = (V c main_v27 : Spec.SS.Idx → EReal) k := by
  obtain ⟨-, -, -, ⟨e0, e1, e2⟩, -⟩ := idx1 t
  unfold iblk1
  rw [View.read_apply]
  show V c main_v27 _ = V c main_v27 _
  congr 1
  funext a
  apply Fin.ext
  have k1 : (k 1).val < 1 := (k 1).isLt
  have k2 : (k 2).val < 1 := (k 2).isLt
  match a with
  | ⟨0, _⟩ => show win1_3.index t (0 : Fin 3) * 1 + 1 * 0 = (k 0).val; omega
  | ⟨1, _⟩ => show win1_3.index t (1 : Fin 3) * 1 + 1 * 0 = (k 1).val; omega
  | ⟨2, _⟩ => show win1_3.index t (2 : Fin 3) * 1 + 1 * 0 = (k 2).val; omega

/-- One head's attention depends on its arguments only through their values. -/
theorem attnH_congr {Q Q' K K' W W' : Fin 1024 → Fin 64 → EReal} {s s' : EReal} {l l' : Fin 1024} {d d' : Fin 64}
    (hQ : ∀ l d, Q l d = Q' l d) (hK : ∀ l d, K l d = K' l d) (hW : ∀ l d, W l d = W' l d)
    (hs : s = s') (hl : l = l') (hd : d = d') :
    Spec.attnH Q K W s l d = Spec.attnH Q' K' W' s' l' d' := by
  obtain rfl : Q = Q' := funext fun l => funext fun d => hQ l d
  obtain rfl : K = K' := funext fun l => funext fun d => hK l d
  obtain rfl : W = W' := funext fun l => funext fun d => hW l d
  subst hs hl hd
  rfl

/-- What a point writes back is its block of the attention of the three staged arrays. -/
theorem flushed1 (c : Dev nD) (t : Fin cfg1.N) :
    (dat1 (F := Ideal) V c).flushed 4 t
      = ((cfg1.win 4).blk t).view.read (Elt Ideal) (Spec.attnA (V c main_v24_0) (V c main_v24_1) (V c main_v24_2) (V c main_v27)) := by
  show (cfg1.win 4).cut (grid1.coords t) ((dat1 (F := Ideal) V c).after 4 t) = _
  rw [after1_4]
  funext y
  rw [View.read_apply]
  refine (block1 _ _ _ _ y).trans ?_
  show _ = Spec.attnA (V c main_v24_0) (V c main_v24_1) (V c main_v24_2) (V c main_v27) (((cfg1.win 4).blk t).view.emb y)
  unfold Spec.attnA
  obtain ⟨-, -, -, -, ⟨b0, b1, e2, e3⟩⟩ := idx1 t
  have y0 : (y 0).val < 1 := (y 0).isLt
  have y1 : (y 1).val < 1 := (y 1).isLt
  have c0 : ((((cfg1.win 4).blk t).view.emb y) 0).val = win1_4.index t (0 : Fin 4) := by
    show win1_4.index t (0 : Fin 4) * 1 + 1 * (y 0).val = _; omega
  have c1 : ((((cfg1.win 4).blk t).view.emb y) 1).val = win1_4.index t (1 : Fin 4) := by
    show win1_4.index t (1 : Fin 4) * 1 + 1 * (y 1).val = _; omega
  have c2 : ((((cfg1.win 4).blk t).view.emb y) 2).val = (y 2).val := by
    show win1_4.index t (2 : Fin 4) * 1024 + 1 * (y 2).val = _; omega
  have c3 : ((((cfg1.win 4).blk t).view.emb y) 3).val = (y 3).val := by
    show win1_4.index t (3 : Fin 4) * 64 + 1 * (y 3).val = _; omega
  refine attnH_congr (fun l d => iblk1_0_apply V c t l d _ c0 c1 rfl rfl) (fun l d => iblk1_1_apply V c t l d _ c0 c1 rfl rfl)
    (fun l d => iblk1_2_apply V c t l d _ c0 c1 rfl rfl) (iblk1_3_apply V c t _ c1) (Fin.ext c2.symm) (Fin.ext c3.symm)

/-- An index is in a point's output block iff each coordinate is in the block's range on its axis. -/
theorem mem_blk1 (t : Fin cfg1.N) (i : Spec.SH.Idx) :
    i ∈ ((cfg1.win 4).blk t).view.set ↔ ∀ a : Fin 4, win1_4.index t a * S1x1x1024x64.size a ≤ (i a).val ∧ (i a).val < win1_4.index t a * S1x1x1024x64.size a + S1x1x1024x64.size a := by
  show i ∈ ((View.whole main_v28).slice (win1_4.rect t)).set ↔ _
  rw [View.set_slice_whole, Rect.mem_set_unit]
  exact Iff.rfl

/-- The attention output array after the region. -/
theorem region1 (c : Dev nD) : (dat1 (F := Ideal) V c).arrAt 4 cfg1.N
    = Spec.attnA (V c main_v24_0) (V c main_v24_1) (V c main_v24_2) (V c main_v27) :=
  (dat1 (F := Ideal) V c).arrAt_eq_of_cover 4 _ (fun t _ => flushed1 V c t) fun i => by
    obtain ⟨t, ht⟩ := onto1 (i 0) (i 1)
    have q0 : win1_4.index t (0 : Fin 4) = (i 0).val := congrFun ht 0
    have q1 : win1_4.index t (1 : Fin 4) = (i 1).val := congrFun ht 1
    have q2 : win1_4.index t (2 : Fin 4) = 0 := congrFun ht 2
    have q3 : win1_4.index t (3 : Fin 4) = 0 := congrFun ht 3
    have i2 : (i 2).val < 1024 := (i 2).isLt
    have i3 : (i 3).val < 64 := (i 3).isLt
    refine ⟨t, flush1_4 t, ?_⟩
    rw [mem_blk1]
    intro a
    match a with
    | ⟨0, _⟩ => show win1_4.index t (0 : Fin 4) * 1 ≤ (i 0).val ∧ (i 0).val < win1_4.index t (0 : Fin 4) * 1 + 1; omega
    | ⟨1, _⟩ => show win1_4.index t (1 : Fin 4) * 1 ≤ (i 1).val ∧ (i 1).val < win1_4.index t (1 : Fin 4) * 1 + 1; omega
    | ⟨2, _⟩ => show win1_4.index t (2 : Fin 4) * 1024 ≤ (i 2).val ∧ (i 2).val < win1_4.index t (2 : Fin 4) * 1024 + 1024; omega
    | ⟨3, _⟩ => show win1_4.index t (3 : Fin 4) * 64 ≤ (i 3).val ∧ (i 3).val < win1_4.index t (3 : Fin 4) * 64 + 64; omega

end Cert.KernelIdeal.Val

end
-- ==== Proof.KBlock2.lean ====
/-
  What one grid point of the output-projection kernel leaves in its output block, at an index: row r of the point's
  block times the transposed weight, plus the bias.
-/
import proofs.«154373_j91061896609820_1_alg».proof.Proof.Gen.KernelIdeal.Frame
import proofs.«154373_j91061896609820_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)

namespace Block2

/-- The zero offsets of a whole-buffer rectangle, at ranks three, two and one. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The product's operand indices, axis by axis -/

theorem lhs2_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs2_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs2_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs2_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into the zero accumulator, at row r and column o: the sum over k of a(r,k)·b(k,o). -/
theorem mm2_apply (a : FVec Ideal S512x1024 .bf16) (b : FVec Ideal S1024x1024 .bf16) (r : Fin 512) (o : Fin 1024) :
    matmul dot_S512x1024_S1024x1024_S512x1024_1_0_0_1_n_n none a b (constant (F := Ideal) S512x1024 .f32 0x00000000#32) (ix2 r o)
      = ∑ k : Fin 1024, a (ix2 r k) * b (ix2 k o) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r o) ((ValueIdx.contrEquiv1 dot_S512x1024_S1024x1024_S512x1024_1_0_0_1_n_n 1024 rfl rfl).symm k) = ix2 r k := funext fun a => Fin.ext (by
    match a with
    | ⟨0, _⟩ => exact lhs2_0 _ _
    | ⟨1, _⟩ => exact (lhs2_1 _ _).trans hk)
  have er : dot_S512x1024_S1024x1024_S512x1024_1_0_0_1_n_n.rhsIdx (ix2 r o) ((ValueIdx.contrEquiv1 dot_S512x1024_S1024x1024_S512x1024_1_0_0_1_n_n 1024 rfl rfl).symm k) = ix2 k o := funext fun a => Fin.ext (by
    match a with
    | ⟨0, _⟩ => exact (rhs2_0 _ _).trans hk
    | ⟨1, _⟩ => exact rhs2_1 _ _)
  rw [el, er]

/-! ## The unit axis added and dropped, the bias spread over the rows -/

/-- A [512,1024] value stored as a [1,512,1024] block reads (0, r, o) at (r, o). -/
theorem addUnit3_apply {α : Type} (v : S512x1024.Idx → α) (h : S512x1024.ShapeCasts S1x512x1024) (r : Fin 512) (o : Fin 1024) :
    shapeCast S1x512x1024 v h (ix3 0 r o) = v (ix2 r o) :=
  (shapeCast_addUnit_apply ![512, 1024] v h (ix3 0 r o)).trans
    (congrArg v (funext fun a => by match a with | ⟨0, _⟩ => rfl | ⟨1, _⟩ => rfl))

/-- A [1,512,1024] block viewed as [512,1024] reads (r, k) at (0, r, k). -/
theorem dropUnit3_apply {α : Type} (v : S1x512x1024.Idx → α) (h : S1x512x1024.ShapeCasts S512x1024) (r : Fin 512) (k : Fin 1024) :
    shapeCast S512x1024 v h (ix2 r k) = v (ix3 0 r k) :=
  (shapeCast_dropUnit_apply ![512, 1024] v h (ix2 r k)).trans
    (congrArg v (funext fun a => by match a with | ⟨0, _⟩ => rfl | ⟨1, _⟩ => rfl | ⟨2, _⟩ => rfl))

/-- The bias as a [1,1024] row reads (0, o) at o. -/
theorem addUnit2_apply {α : Type} (v : S1024.Idx → α) (h : S1024.ShapeCasts S1x1024) (o : Fin 1024) :
    shapeCast S1x1024 v h (ix2 0 o) = v (ix1 o) :=
  (shapeCast_addUnit_apply ![1024] v h (ix2 0 o)).trans
    (congrArg v (funext fun a => by match a with | ⟨0, _⟩ => rfl))

/-- The row spread over 512 rows reads (r, o) at (0, o). -/
theorem bcast2_apply {α : Type} (v : S1x1024.Idx → α) (h : S1x1024.Broadcasts S512x1024) (r : Fin 512) (o : Fin 1024) :
    broadcastTo S512x1024 v h (ix2 r o) = v (ix2 0 o) :=
  broadcastTo_apply v h (ix2 r o) (ix2 0 o) (fun a => match a with
    | ⟨0, _⟩ => by show 0 = if (1 : Nat) = 1 then 0 else r.val; rw [if_pos rfl]
    | ⟨1, _⟩ => by show o.val = if (1024 : Nat) = 1 then 0 else o.val; rw [if_neg (by decide)])

/-! ## The payload at an index -/

/-- The payload at (0, r, o): row r of the block times column o of the weight, plus the bias at o. -/
theorem pay2_apply (v0 : Vec Ideal S1x512x1024 .f32) (v4 : Vec Ideal S1024x1024 .bf16) (v6 : Vec Ideal S1024 .f32) (r : Fin 512) (o : Fin 1024) :
    k2_pay1 (F := Ideal) v0 v4 v6 (ix3 0 r o) = (∑ k : Fin 1024, v0 (ix3 0 r k) * v4 (ix2 k o)) + v6 (ix1 o) := by
  unfold k2_pay1
  refine (addUnit3_apply _ _ r o).trans ?_
  refine (addf_apply _ _ (ix2 r o)).trans ?_
  refine congrArg₂ (· + ·) ?_ ?_
  · refine (mm2_apply _ _ r o).trans ?_
    refine Finset.sum_congr rfl fun k _ => ?_
    rw [shapeCast_self v4, truncf_apply, dropUnit3_apply, shapeCast_self v0]
  · refine (bcast2_apply _ _ r o).trans ?_
    exact addUnit2_apply _ _ o

end Block2

theorem block2 (x0 : Vec Ideal S1x512x1024 .f32) (x1 : Vec Ideal S1024x1024 .bf16) (x2 : Vec Ideal S1024 .f32) (y : S1x512x1024.Idx) :
    out2_3 (F := Ideal) x0 x1 x2 y
      = Spec.linRow (fun k => x0 (ix3 0 (y 1) k)) (fun o k => x1 (ix2 k o)) (fun o => x2 (ix1 o)) (y 2) := by
  unfold out2_3
  rw [View.canon_unit_zero Block2.hz3]
  simp only [View.ld_unit_zero (S := S1x512x1024) Block2.hz3, View.ld_unit_zero (S := S1024x1024) Block2.hz2, View.ld_unit_zero (S := S1024) Block2.hz1]
  have hy : y = ix3 (n0 := 1) (n1 := 512) (n2 := 1024) 0 (y 1) (y 2) := by
    funext a; match a with
    | ⟨0, _⟩ => exact Fin.ext (by have h : (y 0).val < 1 := (y 0).isLt; show (y 0).val = 0; omega)
    | ⟨1, _⟩ => rfl
    | ⟨2, _⟩ => rfl
  exact (congrArg (k2_pay1 (F := Ideal) x0 x1 x2) hy).trans (Block2.pay2_apply x0 x1 x2 (y 1) (y 2))

end Cert.KernelIdeal.Val

end
-- ==== Proof.KRegion2.lean ====
/-
  The output-projection region, read as values: a grid point (n, t) computes rows 512·t … 512·t + 511 of batch entry n
  as the block times the transposed weight plus the bias.
-/
import proofs.«154373_j91061896609820_1_alg».proof.Proof.Gen.KernelIdeal.Frame
import proofs.«154373_j91061896609820_1_alg».proof.Proof.Spec
import proofs.«154373_j91061896609820_1_alg».proof.Proof.KBlock2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)
variable (V : (c : Dev nD) → (b : Ref sig .tc) → Buf (Elt Ideal) ((c : Thread nD τ).loc b))

namespace Region2

/-! ## The index maps over the grid -/

/-- The block indices at every grid point: the input rows' window moves with the output's, on the batch axis and on the
    row-block axis; the column axis is never cut; the weight's and the bias's windows stay at their one block. -/
theorem idx_facts2 : ∀ t : Fin cfg2.N, win2_0.index t (0 : Fin 3) = win2_3.index t (0 : Fin 3)
    ∧ win2_0.index t (1 : Fin 3) = win2_3.index t (1 : Fin 3)
    ∧ win2_0.index t (2 : Fin 3) = 0
    ∧ win2_3.index t (2 : Fin 3) = 0
    ∧ win2_1.index t (0 : Fin 2) = 0
    ∧ win2_1.index t (1 : Fin 2) = 0
    ∧ win2_2.index t (0 : Fin 1) = 0
    ∧ win2_3.index t (0 : Fin 3) ≤ 3
    ∧ win2_3.index t (1 : Fin 3) ≤ 1 :=
  (by decide +kernel : ∀ t : Fin grid2.N, _)

/-- Every (batch entry, row block) is some grid point's. -/
theorem idx_onto2 : ∀ (q0 : Fin 4) (q1 : Fin 2), ∃ t : Fin cfg2.N, win2_3.index t = ![q0.val, q1.val, 0] :=
  (by decide +kernel : ∀ (q0 : Fin 4) (q1 : Fin 2), ∃ t : Fin grid2.N, win2_3.index t = ![q0.val, q1.val, 0])

/-! ## The input blocks as parts of their arrays -/

/-- The rows' block at point t, at (0, r, k), is the array at (n, 512·l + r, k), (n, l) the output's block index. -/
theorem iblk2_0_apply (c : Dev nD) (t : Fin cfg2.N) (r : Fin 512) (k : Fin 1024) (i : S4x1024x1024.Idx)
    (h0 : (i 0).val = win2_3.index t (0 : Fin 3)) (h1 : (i 1).val = win2_3.index t (1 : Fin 3) * 512 + r.val) (h2 : (i 2).val = k.val) :
    (iblk2 (F := Ideal) V c 0 t : S1x512x1024.Idx → EReal) (ix3 0 r k) = (V c main_v30 : S4x1024x1024.Idx → EReal) i := by
  obtain ⟨e0, e1, e2, -⟩ := idx_facts2 t
  unfold iblk2
  rw [View.read_apply]
  show V c main_v30 _ = V c main_v30 _
  congr 1
  funext a
  apply Fin.ext
  match a with
  | ⟨0, _⟩ => show win2_0.index t (0 : Fin 3) * 1 + 1 * 0 = (i 0).val; omega
  | ⟨1, _⟩ => show win2_0.index t (1 : Fin 3) * 512 + 1 * r.val = (i 1).val; omega
  | ⟨2, _⟩ => show win2_0.index t (2 : Fin 3) * 1024 + 1 * k.val = (i 2).val; omega

/-- The weight's block at every point is the whole weight. -/
theorem iblk2_1_apply (c : Dev nD) (t : Fin cfg2.N) (k o : Fin 1024) :
    (iblk2 (F := Ideal) V c 1 t : S1024x1024.Idx → EReal) (ix2 k o) = (V c main_v32 : S1024x1024.Idx → EReal) (ix2 k o) := by
  obtain ⟨-, -, -, -, e4, e5, -⟩ := idx_facts2 t
  unfold iblk2
  rw [View.read_apply]
  show V c main_v32 _ = V c main_v32 _
  congr 1
  funext a
  apply Fin.ext
  match a with
  | ⟨0, _⟩ => show win2_1.index t (0 : Fin 2) * 1024 + 1 * k.val = k.val; omega
  | ⟨1, _⟩ => show win2_1.index t (1 : Fin 2) * 1024 + 1 * o.val = o.val; omega

/-- The bias's block at every point is the whole bias. -/
theorem iblk2_2_apply (c : Dev nD) (t : Fin cfg2.N) (o : Fin 1024) :
    (iblk2 (F := Ideal) V c 2 t : S1024.Idx → EReal) (ix1 o) = (V c main_arg11 : S1024.Idx → EReal) (ix1 o) := by
  obtain ⟨-, -, -, -, -, -, e6, -⟩ := idx_facts2 t
  unfold iblk2
  rw [View.read_apply]
  show V c main_arg11 _ = V c main_arg11 _
  congr 1
  funext a
  apply Fin.ext
  match a with
  | ⟨0, _⟩ => show win2_2.index t (0 : Fin 1) * 1024 + 1 * o.val = o.val; omega

/-! ## What a point writes back -/

/-- The dense map of a row depends on the row, the weight, the bias and the channel only through their values. -/
theorem linRow_congr (xr xr' : Fin 1024 → EReal) (W W' : Fin 1024 → Fin 1024 → EReal) (b b' : Fin 1024 → EReal) (o o' : Fin 1024)
    (ho : o = o') (hx : ∀ k, xr k = xr' k) (hW : ∀ o k, W o k = W' o k) (hb : ∀ o, b o = b' o) :
    Spec.linRow xr W b o = Spec.linRow xr' W' b' o' := by
  subst ho
  rw [show xr = xr' from funext hx, show W = W' from funext fun o => funext (hW o), show b = b' from funext hb]

/-- What point t writes back is its block of the dense map of the whole arrays. -/
theorem flushed2_eq (c : Dev nD) (t : Fin cfg2.N) :
    (dat2 (F := Ideal) V c).flushed 3 t
      = ((cfg2.win 3).blk t).view.read (Elt Ideal) (Spec.linTA (V c main_v30) (V c main_v32) (V c main_arg11)) := by
  show (cfg2.win 3).cut (grid2.coords t) ((dat2 (F := Ideal) V c).after 3 t) = _
  rw [after2_3]
  obtain ⟨-, -, -, e3, -⟩ := idx_facts2 t
  funext y
  show out2_3 (F := Ideal) (iblk2 V c 0 t) (iblk2 V c 1 t) (iblk2 V c 2 t) ((cfg2.win 3).xinj (grid2.coords t) y)
    = Spec.linTA (V c main_v30) (V c main_v32) (V c main_arg11) (((cfg2.win 3).blk t).view.emb y)
  rw [block2]
  refine linRow_congr _ _ _ _ _ _ _ _ (Fin.ext ?_) (fun k => ?_) (fun o k => ?_) (fun o => ?_)
  · show (y 2).val = win2_3.index t (2 : Fin 3) * 1024 + 1 * (y 2).val
    omega
  · refine iblk2_0_apply V c t _ k _ ?_ ?_ rfl
    · show win2_3.index t (0 : Fin 3) * 1 + 1 * (y 0).val = win2_3.index t (0 : Fin 3)
      have h : (y 0).val < 1 := (y 0).isLt
      omega
    · show win2_3.index t (1 : Fin 3) * 512 + 1 * (y 1).val = win2_3.index t (1 : Fin 3) * 512 + (y 1).val
      omega
  · exact iblk2_1_apply V c t k o
  · exact iblk2_2_apply V c t o

/-! ## The blocks cover the array -/

/-- An index of the array is in point t's block iff each coordinate is in the block's range on its axis. -/
theorem mem_blk2 (t : Fin cfg2.N) (i : S4x1024x1024.Idx) :
    i ∈ ((cfg2.win 3).blk t).view.set ↔ ∀ a : Fin 3, win2_3.index t a * S1x512x1024.size a ≤ (i a).val ∧ (i a).val < win2_3.index t a * S1x512x1024.size a + S1x512x1024.size a := by
  show i ∈ ((View.whole main_v33).slice (win2_3.rect t)).set ↔ _
  rw [View.set_slice_whole, Rect.mem_set_unit]
  exact Iff.rfl

/-- Every index (n, p, o) is in the block of the point at (n, p / 512). -/
theorem cover2 (i : S4x1024x1024.Idx) :
    ∃ t : Fin cfg2.N, (cfg2.win 3).flush t = true ∧ i ∈ ((cfg2.win 3).blk t).view.set := by
  have hi0 : (i 0).val < 4 := (i 0).isLt
  have hi1 : (i 1).val < 1024 := (i 1).isLt
  have hi2 : (i 2).val < 1024 := (i 2).isLt
  obtain ⟨t, ht⟩ := idx_onto2 ⟨(i 0).val, hi0⟩ ⟨(i 1).val / 512, by omega⟩
  have q0 : win2_3.index t (0 : Fin 3) = (i 0).val := congrFun ht 0
  have q1 : win2_3.index t (1 : Fin 3) = (i 1).val / 512 := congrFun ht 1
  have q2 : win2_3.index t (2 : Fin 3) = 0 := congrFun ht 2
  refine ⟨t, flush2_3 t, ?_⟩
  rw [mem_blk2]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 512 ≤ (i 1).val ∧ (i 1).val < win2_3.index t (1 : Fin 3) * 512 + 512; omega
  | ⟨2, _⟩ => show win2_3.index t (2 : Fin 3) * 1024 ≤ (i 2).val ∧ (i 2).val < win2_3.index t (2 : Fin 3) * 1024 + 1024; omega

end Region2

/-- The result array after the region. -/
theorem region2 (c : Dev nD) : (dat2 (F := Ideal) V c).arrAt 3 cfg2.N
    = Spec.linTA (V c main_v30) (V c main_v32) (V c main_arg11) :=
  (dat2 (F := Ideal) V c).arrAt_eq_of_cover 3 (Spec.linTA (V c main_v30) (V c main_v32) (V c main_arg11))
    (fun t _ => Region2.flushed2_eq V c t) Region2.cover2

end Cert.KernelIdeal.Val

end
-- ==== Proof.KHost0.lean ====
/-
  The host operations before the first region, read at an index: the fused weight and bias are cut into three slabs and
  every matrix operand is transposed (the change of float format is the identity at these values). No host operation
  writes an argument.
-/
import proofs.«154373_j91061896609820_1_alg».proof.Proof.Gen.KernelIdeal.Frame
import proofs.«154373_j91061896609820_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)
variable (m : (ℓ : Loc nD τ sig) → Buf (Elt Ideal) ℓ) (ρ : Dev nD → PrngReg)

/-! ## Before the first region -/

/-! ### The layout operations read at an index -/

/-- A slab of 1024 rows of the fused weight, starting at row `off`, read at `(o, k)` is the weight at `(off + o, k)`. -/
theorem slab2_apply (off : Nat) (x : FVec Ideal S3072x1024 .f32) (h : S3072x1024.Slices ![off, 0] S1024x1024) (o k : Fin 1024)
    (r : Fin 3072) (hr : r.val = off + o.val) :
    extractStridedSlice S1024x1024 ![off, 0] x h (ix2 o k) = x (ix2 r k) :=
  extractStridedSlice_apply _ x h _ _ fun a => match a with
    | ⟨0, _⟩ => by show r.val = off + o.val; exact hr
    | ⟨1, _⟩ => by show k.val = 0 + k.val; omega

/-- A slab of 1024 entries of the fused bias, starting at entry `off`, read at `o` is the bias at `off + o`. -/
theorem slab1_apply (off : Nat) (x : FVec Ideal S3072 .f32) (h : S3072.Slices ![off] S1024) (o : Fin 1024)
    (r : Fin 3072) (hr : r.val = off + o.val) :
    extractStridedSlice S1024 ![off] x h (ix1 o) = x (ix1 r) :=
  extractStridedSlice_apply _ x h _ _ fun a => match a with
    | ⟨0, _⟩ => by show r.val = off + o.val; exact hr

/-- The transposed slab of the fused weight read at `(k, o)` is the weight at `(off + o, k)`. -/
theorem slabT_apply (off : Nat) (x : FVec Ideal S3072x1024 .f32) (h : S3072x1024.Slices ![off, 0] S1024x1024) (k o : Fin 1024)
    (r : Fin 3072) (hr : r.val = off + o.val) :
    truncf (F := Ideal) .bf16 (transpose S1024x1024 [1, 0] (extractStridedSlice S1024x1024 ![off, 0] x h)
      transposes_S1024x1024_S1024x1024_1_0) bitsLt_bf16_f32 (ix2 k o) = x (ix2 r k) := by
  rw [truncf_apply]
  refine (transpose_ix2_apply _ _ k o).trans ?_
  exact slab2_apply off x h o k r hr

/-- A transposed `[8, 1024]` adapter factor read at `(k, r)` is the factor at `(r, k)`. -/
theorem adA_apply (x : FVec Ideal S8x1024 .f32) (k : Fin 1024) (r : Fin 8) :
    truncf (F := Ideal) .bf16 (transpose S1024x8 [1, 0] x transposes_S8x1024_S1024x8_1_0) bitsLt_bf16_f32 (ix2 k r)
      = x (ix2 r k) := by
  rw [truncf_apply]
  exact transpose_ix2_apply _ _ k r

/-- A transposed `[1024, 8]` adapter factor read at `(r, o)` is the factor at `(o, r)`. -/
theorem adB_apply (x : FVec Ideal S1024x8 .f32) (r : Fin 8) (o : Fin 1024) :
    truncf (F := Ideal) .bf16 (transpose S8x1024 [1, 0] x transposes_S1024x8_S8x1024_1_0) bitsLt_bf16_f32 (ix2 r o)
      = x (ix2 o r) := by
  rw [truncf_apply]
  exact transpose_ix2_apply _ _ r o

/-! ### The thirteen arrays the first region reads -/

theorem V1_arg0 (c : Dev nD) : V1 m ρ c main_arg0 = m ((c : Thread nD τ).loc main_arg0) := by
  show StableHlo.after hostOps0 (W0 m ρ c) (Proc.devRef .tc main_arg0) = _
  refine (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  rfl
theorem V1_v7 (c : Dev nD) (k o : Fin 1024) : V1 m ρ c main_v7 (ix2 k o) = m ((c : Thread nD τ).loc main_arg1) (ix2 (Spec.row0 o) k) := by
  have e : V1 m ρ c main_v7 = truncf (F := Ideal) .bf16 (transpose S1024x1024 [1, 0] (extractStridedSlice S1024x1024 ![0, 0] (m ((c : Thread nD τ).loc main_arg1)) slices_S3072x1024_S1024x1024_0_0) transposes_S1024x1024_S1024x1024_1_0) bitsLt_bf16_f32 := by
    show StableHlo.after hostOps0 (W0 m ρ c) (Proc.devRef .tc main_v7) = _
    after_results
  rw [e]
  exact slabT_apply 0 _ _ k o _ (by show o.val = 0 + o.val; omega)
theorem V1_v9 (c : Dev nD) (k o : Fin 1024) : V1 m ρ c main_v9 (ix2 k o) = m ((c : Thread nD τ).loc main_arg1) (ix2 (Spec.row1 o) k) := by
  have e : V1 m ρ c main_v9 = truncf (F := Ideal) .bf16 (transpose S1024x1024 [1, 0] (extractStridedSlice S1024x1024 ![1024, 0] (m ((c : Thread nD τ).loc main_arg1)) slices_S3072x1024_S1024x1024_1024_0) transposes_S1024x1024_S1024x1024_1_0) bitsLt_bf16_f32 := by
    show StableHlo.after hostOps0 (W0 m ρ c) (Proc.devRef .tc main_v9) = _
    after_results
  rw [e]
  exact slabT_apply 1024 _ _ k o _ (by show 1024 + o.val = 1024 + o.val; rfl)
theorem V1_v11 (c : Dev nD) (k o : Fin 1024) : V1 m ρ c main_v11 (ix2 k o) = m ((c : Thread nD τ).loc main_arg1) (ix2 (Spec.row2 o) k) := by
  have e : V1 m ρ c main_v11 = truncf (F := Ideal) .bf16 (transpose S1024x1024 [1, 0] (extractStridedSlice S1024x1024 ![2048, 0] (m ((c : Thread nD τ).loc main_arg1)) slices_S3072x1024_S1024x1024_2048_0) transposes_S1024x1024_S1024x1024_1_0) bitsLt_bf16_f32 := by
    show StableHlo.after hostOps0 (W0 m ρ c) (Proc.devRef .tc main_v11) = _
    after_results
  rw [e]
  exact slabT_apply 2048 _ _ k o _ (by show 2048 + o.val = 2048 + o.val; rfl)
theorem V1_v3 (c : Dev nD) (o : Fin 1024) : V1 m ρ c main_v3 (ix1 o) = m ((c : Thread nD τ).loc main_arg2) (ix1 (Spec.row0 o)) := by
  have e : V1 m ρ c main_v3 = extractStridedSlice S1024 ![0] (m ((c : Thread nD τ).loc main_arg2)) slices_S3072_S1024_0 := by
    show StableHlo.after hostOps0 (W0 m ρ c) (Proc.devRef .tc main_v3) = _
    after_results
  rw [e]
  exact slab1_apply 0 _ _ o _ (by show o.val = 0 + o.val; omega)
theorem V1_v4 (c : Dev nD) (o : Fin 1024) : V1 m ρ c main_v4 (ix1 o) = m ((c : Thread nD τ).loc main_arg2) (ix1 (Spec.row1 o)) := by
  have e : V1 m ρ c main_v4 = extractStridedSlice S1024 ![1024] (m ((c : Thread nD τ).loc main_arg2)) slices_S3072_S1024_1024 := by
    show StableHlo.after hostOps0 (W0 m ρ c) (Proc.devRef .tc main_v4) = _
    after_results
  rw [e]
  exact slab1_apply 1024 _ _ o _ (by show 1024 + o.val = 1024 + o.val; rfl)
theorem V1_v5 (c : Dev nD) (o : Fin 1024) : V1 m ρ c main_v5 (ix1 o) = m ((c : Thread nD τ).loc main_arg2) (ix1 (Spec.row2 o)) := by
  have e : V1 m ρ c main_v5 = extractStridedSlice S1024 ![2048] (m ((c : Thread nD τ).loc main_arg2)) slices_S3072_S1024_2048 := by
    show StableHlo.after hostOps0 (W0 m ρ c) (Proc.devRef .tc main_v5) = _
    after_results
  rw [e]
  exact slab1_apply 2048 _ _ o _ (by show 2048 + o.val = 2048 + o.val; rfl)
theorem V1_v13 (c : Dev nD) (k : Fin 1024) (r : Fin 8) : V1 m ρ c main_v13 (ix2 k r) = m ((c : Thread nD τ).loc main_arg3) (ix2 r k) := by
  have e : V1 m ρ c main_v13 = truncf (F := Ideal) .bf16 (transpose S1024x8 [1, 0] (m ((c : Thread nD τ).loc main_arg3)) transposes_S8x1024_S1024x8_1_0) bitsLt_bf16_f32 := by
    show StableHlo.after hostOps0 (W0 m ρ c) (Proc.devRef .tc main_v13) = _
    after_results
  rw [e]
  exact adA_apply _ k r
theorem V1_v15 (c : Dev nD) (r : Fin 8) (o : Fin 1024) : V1 m ρ c main_v15 (ix2 r o) = m ((c : Thread nD τ).loc main_arg4) (ix2 o r) := by
  have e : V1 m ρ c main_v15 = truncf (F := Ideal) .bf16 (transpose S8x1024 [1, 0] (m ((c : Thread nD τ).loc main_arg4)) transposes_S1024x8_S8x1024_1_0) bitsLt_bf16_f32 := by
    show StableHlo.after hostOps0 (W0 m ρ c) (Proc.devRef .tc main_v15) = _
    after_results
  rw [e]
  exact adB_apply _ r o
theorem V1_v17 (c : Dev nD) (k : Fin 1024) (r : Fin 8) : V1 m ρ c main_v17 (ix2 k r) = m ((c : Thread nD τ).loc main_arg5) (ix2 r k) := by
  have e : V1 m ρ c main_v17 = truncf (F := Ideal) .bf16 (transpose S1024x8 [1, 0] (m ((c : Thread nD τ).loc main_arg5)) transposes_S8x1024_S1024x8_1_0) bitsLt_bf16_f32 := by
    show StableHlo.after hostOps0 (W0 m ρ c) (Proc.devRef .tc main_v17) = _
    after_results
  rw [e]
  exact adA_apply _ k r
theorem V1_v19 (c : Dev nD) (r : Fin 8) (o : Fin 1024) : V1 m ρ c main_v19 (ix2 r o) = m ((c : Thread nD τ).loc main_arg6) (ix2 o r) := by
  have e : V1 m ρ c main_v19 = truncf (F := Ideal) .bf16 (transpose S8x1024 [1, 0] (m ((c : Thread nD τ).loc main_arg6)) transposes_S1024x8_S8x1024_1_0) bitsLt_bf16_f32 := by
    show StableHlo.after hostOps0 (W0 m ρ c) (Proc.devRef .tc main_v19) = _
    after_results
  rw [e]
  exact adB_apply _ r o
theorem V1_v21 (c : Dev nD) (k : Fin 1024) (r : Fin 8) : V1 m ρ c main_v21 (ix2 k r) = m ((c : Thread nD τ).loc main_arg7) (ix2 r k) := by
  have e : V1 m ρ c main_v21 = truncf (F := Ideal) .bf16 (transpose S1024x8 [1, 0] (m ((c : Thread nD τ).loc main_arg7)) transposes_S8x1024_S1024x8_1_0) bitsLt_bf16_f32 := by
    show StableHlo.after hostOps0 (W0 m ρ c) (Proc.devRef .tc main_v21) = _
    after_results
  rw [e]
  exact adA_apply _ k r
theorem V1_v23 (c : Dev nD) (r : Fin 8) (o : Fin 1024) : V1 m ρ c main_v23 (ix2 r o) = m ((c : Thread nD τ).loc main_arg8) (ix2 o r) := by
  have e : V1 m ρ c main_v23 = truncf (F := Ideal) .bf16 (transpose S8x1024 [1, 0] (m ((c : Thread nD τ).loc main_arg8)) transposes_S1024x8_S8x1024_1_0) bitsLt_bf16_f32 := by
    show StableHlo.after hostOps0 (W0 m ρ c) (Proc.devRef .tc main_v23) = _
    after_results
  rw [e]
  exact adB_apply _ r o

end Cert.KernelIdeal.Val

end
-- ==== Proof.KHost12.lean ====
/-
  The host operations between the regions, read at an index. Between the first two regions the per-head scale
  exp(min(s, cap)) is computed from the scale argument, and the first region's three output arrays are left as they are;
  before the last region the attention output goes from head layout back to [batch, position, channel] and the output
  weight is transposed. No host operation writes an argument, and a region writes only its own output arrays.
-/
import proofs.«154373_j91061896609820_1_alg».proof.Proof.Gen.KernelIdeal.Frame
import proofs.«154373_j91061896609820_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)
variable (m : (ℓ : Loc nD τ sig) → Buf (Elt Ideal) ℓ) (ρ : Dev nD → PrngReg)

/-- A buffer that no operation of a host stretch writes is left as it was. -/
local macro "keeps " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.reshape_writes, Finset.mem_singleton]
      repeat' apply And.intro
      all_goals exact StableHlo.devRef_ne_of_ne (by decide))))

/-! ## Between the first and the second region -/

theorem V3_v24_0 (c : Dev nD) : V3 m ρ c main_v24_0 = V2 m ρ c main_v24_0 := by
  show StableHlo.after hostOps1 (W2 m ρ c) (Proc.devRef .tc main_v24_0) = W2 m ρ c (Proc.devRef .tc main_v24_0)
  keeps hostOps1
theorem V3_v24_1 (c : Dev nD) : V3 m ρ c main_v24_1 = V2 m ρ c main_v24_1 := by
  show StableHlo.after hostOps1 (W2 m ρ c) (Proc.devRef .tc main_v24_1) = W2 m ρ c (Proc.devRef .tc main_v24_1)
  keeps hostOps1
theorem V3_v24_2 (c : Dev nD) : V3 m ρ c main_v24_2 = V2 m ρ c main_v24_2 := by
  show StableHlo.after hostOps1 (W2 m ρ c) (Proc.devRef .tc main_v24_2) = W2 m ρ c (Proc.devRef .tc main_v24_2)
  keeps hostOps1

/-- The scale argument is as launched at the first region's exit: no operation before it and no array of the first
    region is that buffer. -/
theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by keeps hostOps0
    _ = m ((c : Thread nD τ).loc main_arg9) := rfl

theorem V3_v27_ops (c : Dev nD) : (V3 m ρ c main_v27 : S16x1x1.Idx → EReal) =
    Host.exp (F := Ideal) (minimumf (F := Ideal) (W2 m ρ c (Proc.devRef .tc main_arg9))
      (broadcastInDim S16x1x1 ![] bcast_S_S16x1x1 (constant (F := Ideal) S_ .f32 0x40935D8E#32))) := by
  show StableHlo.after hostOps1 (W2 m ρ c) (Proc.devRef .tc main_v27) = _
  after_results

theorem V3_v27 (c : Dev nD) : V3 m ρ c main_v27 = Spec.scaleA (m ((c : Thread nD τ).loc main_arg9)) := by
  refine (V3_v27_ops m ρ c).trans ?_
  rw [W2_arg9]
  funext j
  rfl

/-! ## Between the second and the third region -/

/-- Channel `k` of the [batch, position, channel] array is lane `k % 64` of head `k / 64`: the two row-major positions agree. -/
theorem reshape_heads (x : S4x1024x16x64.Idx → EReal) (n : Fin 4) (l k : Fin 1024) :
    shapeCast S4x1024x1024 x shapeCasts_S4x1024x16x64_S4x1024x1024 (ix3 n l k) = x (ix4 n l (Spec.hd k) (Spec.ln k)) :=
  shapeCast_apply x _ _ _ (by
    rw [Shape.rowMajor_val_four, Shape.rowMajor_val_three]
    show ((n.val * 1024 + l.val) * 16 + k.val / 64) * 64 + k.val % 64 = (n.val * 1024 + l.val) * 1024 + k.val
    omega)

/-- The head axis and the position axis exchanged. -/
theorem transpose_heads (x : S4x16x1024x64.Idx → EReal) (n : Fin 4) (l : Fin 1024) (h : Fin 16) (d : Fin 64) :
    transpose S4x1024x16x64 [0, 2, 1, 3] x transposes_S4x16x1024x64_S4x1024x16x64_0_2_1_3 (ix4 n l h d) = x (ix4 n h l d) :=
  transpose_apply _ x _ _ _ fun b => match b with | ⟨0, _⟩ => rfl | ⟨1, _⟩ => rfl | ⟨2, _⟩ => rfl | ⟨3, _⟩ => rfl

/-- A square matrix transposed. -/
theorem transpose_square (x : S1024x1024.Idx → EReal) (k o : Fin 1024) :
    transpose S1024x1024 [1, 0] x transposes_S1024x1024_S1024x1024_1_0 (ix2 k o) = x (ix2 o k) :=
  transpose_apply _ x _ _ _ fun b => match b with | ⟨0, _⟩ => rfl | ⟨1, _⟩ => rfl

theorem V5_v30_ops (c : Dev nD) : (V5 m ρ c main_v30 : S4x1024x1024.Idx → EReal) =
    shapeCast S4x1024x1024 (transpose S4x1024x16x64 [0, 2, 1, 3] (W4 m ρ c (Proc.devRef .tc main_v28))
      transposes_S4x16x1024x64_S4x1024x16x64_0_2_1_3) shapeCasts_S4x1024x16x64_S4x1024x1024 := by
  show StableHlo.after hostOps2 (W4 m ρ c) (Proc.devRef .tc main_v30) = _
  after_results
  rfl

theorem V5_v30 (c : Dev nD) (n : Fin 4) (l k : Fin 1024) :
    V5 m ρ c main_v30 (ix3 n l k) = V4 m ρ c main_v28 (ix4 n (Spec.hd k) l (Spec.ln k)) := by
  refine (congrFun (V5_v30_ops m ρ c) (ix3 n l k)).trans ?_
  refine (reshape_heads _ n l k).trans ?_
  exact transpose_heads _ n l (Spec.hd k) (Spec.ln k)

/-- The output weight is as launched at the second region's exit. -/
theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by keeps hostOps1
    _ = W1 m ρ c (Proc.devRef .tc main_arg10) := W2_of_ne m ρ c main_arg10 (by decide)
    _ = W0 m ρ c (Proc.devRef .tc main_arg10) := by keeps hostOps0
    _ = m ((c : Thread nD τ).loc main_arg10) := rfl

theorem V5_v32_ops (c : Dev nD) : (V5 m ρ c main_v32 : S1024x1024.Idx → EReal) =
    truncf (F := Ideal) .bf16 (transpose S1024x1024 [1, 0] (W4 m ρ c (Proc.devRef .tc main_arg10))
      transposes_S1024x1024_S1024x1024_1_0) bitsLt_bf16_f32 := by
  show StableHlo.after hostOps2 (W4 m ρ c) (Proc.devRef .tc main_v32) = _
  after_results

theorem V5_v32 (c : Dev nD) (k o : Fin 1024) : V5 m ρ c main_v32 (ix2 k o) = m ((c : Thread nD τ).loc main_arg10) (ix2 o k) := by
  refine (congrFun (V5_v32_ops m ρ c) (ix2 k o)).trans ?_
  rw [W4_arg10]
  exact transpose_square _ k o

theorem V5_arg11 (c : Dev nD) : V5 m ρ c main_arg11 = m ((c : Thread nD τ).loc main_arg11) :=
  calc W5 m ρ c (Proc.devRef .tc main_arg11)
    _ = W4 m ρ c (Proc.devRef .tc main_arg11) := by keeps hostOps2
    _ = W3 m ρ c (Proc.devRef .tc main_arg11) := W4_of_ne m ρ c main_arg11 (by decide)
    _ = W2 m ρ c (Proc.devRef .tc main_arg11) := by keeps hostOps1
    _ = W1 m ρ c (Proc.devRef .tc main_arg11) := W2_of_ne m ρ c main_arg11 (by decide)
    _ = W0 m ρ c (Proc.devRef .tc main_arg11) := by keeps hostOps0
    _ = m ((c : Thread nD τ).loc main_arg11) := rfl

end Cert.KernelIdeal.Val

end
-- ==== Proof.KTotal.lean ====
/-
  The kernel program's result as a function of the arguments: the three regions' values at the contents each is entered
  with, joined through the host operations between them. After the first region the three head-layout arrays are the
  projections of the arguments; after the second the attention of those with the scale computed from the scale argument;
  after the third the output map of that: the layer of the specification.
-/
import proofs.«154373_j91061896609820_1_alg».proof.Proof.KRegion0
import proofs.«154373_j91061896609820_1_alg».proof.Proof.KRegion1
import proofs.«154373_j91061896609820_1_alg».proof.Proof.KRegion2
import proofs.«154373_j91061896609820_1_alg».proof.Proof.KHost0
import proofs.«154373_j91061896609820_1_alg».proof.Proof.KHost12

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)
variable (m : (ℓ : Loc nD τ sig) → Buf (Elt Ideal) ℓ) (ρ : Dev nD → PrngReg)

/-- The query array after the first region is the first slab's projection of the arguments. -/
theorem V2_q (c : Dev nD) : V2 m ρ c main_v24_0
    = Spec.projA Spec.row0 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 13).trans ((region0_q (V1 m ρ) c).trans ?_)
  funext i
  unfold Spec.projTA Spec.projA
  simp only [V1_arg0 m ρ c, V1_v7 m ρ c, V1_v3 m ρ c, V1_v13 m ρ c, V1_v15 m ρ c]

/-- The key array: the second slab's. -/
theorem V2_k (c : Dev nD) : V2 m ρ c main_v24_1
    = Spec.projA Spec.row1 (m ((c : Thread nD τ).loc main_arg0)) (m ((c : Thread nD τ).loc main_arg1)) (m ((c : Thread nD τ).loc main_arg2)) (m ((c : Thread nD τ).loc main_arg5)) (m ((c : Thread nD τ).loc main_arg6)) := by
  refine (W2_arr m ρ c 14).trans ((region0_k (V1 m ρ) c).trans ?_)
  funext i
  unfold Spec.projTA Spec.projA
  simp only [V1_arg0 m ρ c, V1_v9 m ρ c, V1_v4 m ρ c, V1_v17 m ρ c, V1_v19 m ρ c]

/-- The value array: the third slab's. -/
theorem V2_v (c : Dev nD) : V2 m ρ c main_v24_2
    = Spec.projA Spec.row2 (m ((c : Thread nD τ).loc main_arg0)) (m ((c : Thread nD τ).loc main_arg1)) (m ((c : Thread nD τ).loc main_arg2)) (m ((c : Thread nD τ).loc main_arg7)) (m ((c : Thread nD τ).loc main_arg8)) := by
  refine (W2_arr m ρ c 15).trans ((region0_v (V1 m ρ) c).trans ?_)
  funext i
  unfold Spec.projTA Spec.projA
  simp only [V1_arg0 m ρ c, V1_v11 m ρ c, V1_v5 m ρ c, V1_v21 m ρ c, V1_v23 m ρ c]

/-- The attention output after the second region. -/
theorem V4_o (c : Dev nD) : V4 m ρ c main_v28
    = Spec.attnA (Spec.projA Spec.row0 (m ((c : Thread nD τ).loc main_arg0)) (m ((c : Thread nD τ).loc main_arg1)) (m ((c : Thread nD τ).loc main_arg2)) (m ((c : Thread nD τ).loc main_arg3)) (m ((c : Thread nD τ).loc main_arg4)))
        (Spec.projA Spec.row1 (m ((c : Thread nD τ).loc main_arg0)) (m ((c : Thread nD τ).loc main_arg1)) (m ((c : Thread nD τ).loc main_arg2)) (m ((c : Thread nD τ).loc main_arg5)) (m ((c : Thread nD τ).loc main_arg6)))
        (Spec.projA Spec.row2 (m ((c : Thread nD τ).loc main_arg0)) (m ((c : Thread nD τ).loc main_arg1)) (m ((c : Thread nD τ).loc main_arg2)) (m ((c : Thread nD τ).loc main_arg7)) (m ((c : Thread nD τ).loc main_arg8))) (Spec.scaleA (m ((c : Thread nD τ).loc main_arg9))) := by
  refine (W4_arr m ρ c 4).trans ((region1 (V3 m ρ) c).trans ?_)
  rw [V3_v24_0, V3_v24_1, V3_v24_2, V3_v27, V2_q, V2_k, V2_v]

/-- The result array after the third region is the layer of the arguments. -/
theorem V6_out (c : Dev nD) : V6 m ρ c main_v33
    = Spec.layerA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 3).trans ((region2 (V5 m ρ) c).trans ?_)
  unfold Spec.layerA
  rw [← V4_o m ρ c]
  funext i
  unfold Spec.linTA Spec.outA
  simp only [V5_v32 m ρ c, V5_arg11 m ρ c]
  exact congrArg (fun f => Spec.linRow f _ _ (i 2)) (funext fun k => V5_v30 m ρ c (i 0) (i 1) k)

end Cert.KernelIdeal.Val

end
-- ==== Proof.RProj.lean ====
/-
  The reference's three projections, read as values: the fused product with the bias added, a slab cut out of it, the
  rank-8 correction times two added, and the result re-laid from [batch, position, channel] to head layout — index by
  index the projection of the specification, at the slab's rows of the fused weight and bias.
-/
import proofs.«154373_j91061896609820_1_alg».proof.Proof.Gen.ReferenceIdeal.Read
import proofs.«154373_j91061896609820_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefVal

open Idealize.ShloMosaic Idealize.ShloMosaic.TcCoe Idealize.SL.Sem Idealize.ShloMosaic.ValueIdx
open Cert.ReferenceIdeal Cert.ReferenceIdeal.Read

/-! ## The fused dense map with its bias, at one index -/

/-- Row `c` of the fused product at batch entry `n`, position `l`: the inner product with row `c` of the weight, plus
    entry `c` of the bias (which the two broadcasts copy to every batch entry and position). -/
theorem dense_at (x0 : (⟨S4x1024x1024, .f32⟩ : BufTy).Contents (Elt Ideal)) (x1 : (⟨S3072x1024, .f32⟩ : BufTy).Contents (Elt Ideal)) (x2 : (⟨S3072, .f32⟩ : BufTy).Contents (Elt Ideal))
    (n : Fin 4) (l : Fin 1024) (c : Fin 3072) :
    val_main_v3 (F := Ideal) x0 x1 x2 (ix3 n l c)
      = (∑ k : Fin 1024, x0 (ix3 n l k) * x1 (ix2 c k)) + x2 (ix1 c) := by
  have el : ∀ k : Fin 1024, lidx_main_v0 (ix3 n l c) k = ix3 n l k := fun k => funext fun a => Fin.ext (by
    match a with
    | ⟨0, _⟩ => rfl
    | ⟨1, _⟩ => rfl
    | ⟨2, _⟩ => rfl)
  have er : ∀ k : Fin 1024, ridx_main_v0 (ix3 n l c) k = ix2 c k := fun k => funext fun a => Fin.ext (by
    match a with
    | ⟨0, _⟩ => rfl
    | ⟨1, _⟩ => rfl)
  have eb : idx_main_v1 (idx_main_v2 (ix3 n l c)) = ix1 c := funext fun a => Fin.ext (by
    match a with
    | ⟨0, _⟩ => rfl)
  rw [val_main_v3_apply, val_main_v0_apply, val_main_v2_apply, val_main_v1_apply, eb, Ideal.addf_def]
  simp only [el, er]

/-! ## The rank-8 correction times two, at one index -/

/-- Channel `o` of the correction at batch entry `n`, position `l`: the row is first taken through the eight rows of the
    first adapter, the eight results through row `o` of the second, and the sum is doubled. -/
theorem lora_at (x0 : (⟨S4x1024x1024, .f32⟩ : BufTy).Contents (Elt Ideal)) (x3 : (⟨S8x1024, .f32⟩ : BufTy).Contents (Elt Ideal)) (x4 : (⟨S1024x8, .f32⟩ : BufTy).Contents (Elt Ideal))
    (n : Fin 4) (l : Fin 1024) (o : Fin 1024) :
    val_main_v10 (F := Ideal) x0 x3 x4 (ix3 n l o)
      = (∑ r : Fin 8, (∑ k : Fin 1024, x0 (ix3 n l k) * x3 (ix2 r k)) * x4 (ix2 o r)) * Spec.two := by
  have el8 : ∀ r : Fin 8, lidx_main_v8 (ix3 n l o) r = ix3 n l r := fun r => funext fun a => Fin.ext (by
    match a with
    | ⟨0, _⟩ => rfl
    | ⟨1, _⟩ => rfl
    | ⟨2, _⟩ => rfl)
  have er8 : ∀ r : Fin 8, ridx_main_v8 (ix3 n l o) r = ix2 o r := fun r => funext fun a => Fin.ext (by
    match a with
    | ⟨0, _⟩ => rfl
    | ⟨1, _⟩ => rfl)
  have el7 : ∀ (r : Fin 8) (k : Fin 1024), lidx_main_v7 (ix3 n l r) k = ix3 n l k := fun r k => funext fun a => Fin.ext (by
    match a with
    | ⟨0, _⟩ => rfl
    | ⟨1, _⟩ => rfl
    | ⟨2, _⟩ => rfl)
  have er7 : ∀ (r : Fin 8) (k : Fin 1024), ridx_main_v7 (ix3 n l r) k = ix2 r k := fun r k => funext fun a => Fin.ext (by
    match a with
    | ⟨0, _⟩ => rfl
    | ⟨1, _⟩ => rfl)
  rw [val_main_v10_apply, val_main_v8_apply, val_main_v9_apply, val_main_cst_apply, Ideal.mulf_def, Ideal.ofBits_def]
  simp only [el8, er8, val_main_v7_apply, el7, er7]
  rfl

/-- The second and the third correction are the first one's expression at their own adapters. -/
theorem lora_at_k (x0 : (⟨S4x1024x1024, .f32⟩ : BufTy).Contents (Elt Ideal)) (x5 : (⟨S8x1024, .f32⟩ : BufTy).Contents (Elt Ideal)) (x6 : (⟨S1024x8, .f32⟩ : BufTy).Contents (Elt Ideal))
    (n : Fin 4) (l : Fin 1024) (o : Fin 1024) :
    val_main_v15 (F := Ideal) x0 x5 x6 (ix3 n l o)
      = (∑ r : Fin 8, (∑ k : Fin 1024, x0 (ix3 n l k) * x5 (ix2 r k)) * x6 (ix2 o r)) * Spec.two :=
  lora_at x0 x5 x6 n l o

theorem lora_at_v (x0 : (⟨S4x1024x1024, .f32⟩ : BufTy).Contents (Elt Ideal)) (x7 : (⟨S8x1024, .f32⟩ : BufTy).Contents (Elt Ideal)) (x8 : (⟨S1024x8, .f32⟩ : BufTy).Contents (Elt Ideal))
    (n : Fin 4) (l : Fin 1024) (o : Fin 1024) :
    val_main_v20 (F := Ideal) x0 x7 x8 (ix3 n l o)
      = (∑ r : Fin 8, (∑ k : Fin 1024, x0 (ix3 n l k) * x7 (ix2 r k)) * x8 (ix2 o r)) * Spec.two :=
  lora_at x0 x7 x8 n l o

/-! ## The index maps: head layout back to [batch, position, channel], and the three slabs -/

/-- Head `h`, lane `d` of position `l` is channel `64·h + d` of that position: the transpose swaps the two middle axes
    and the reshape reads the row-major position. -/
theorem head_idx (n : Fin 4) (h : Fin 16) (l : Fin 1024) (d : Fin 64) :
    idx_main_v22 (idx_main_v23 (ix4 n h l d)) = ix3 n l (Spec.oc h d) := by
  have hn := n.isLt; have hh := h.isLt; have hl := l.isLt; have hd := d.isLt
  exact funext fun a => Fin.ext (by
    match a with
    | ⟨0, _⟩ => show (((n.val * 1024 + l.val) * 16 + h.val) * 64 + d.val) / 1048576 = n.val; omega
    | ⟨1, _⟩ => show (((n.val * 1024 + l.val) * 16 + h.val) * 64 + d.val) / 1024 % 1024 = l.val; omega
    | ⟨2, _⟩ => show (((n.val * 1024 + l.val) * 16 + h.val) * 64 + d.val) % 1024 = h.val * 64 + d.val; omega)

/-- The second and third projection are re-laid by the same two index maps. -/
theorem head_idx_k (n : Fin 4) (h : Fin 16) (l : Fin 1024) (d : Fin 64) :
    idx_main_v24 (idx_main_v25 (ix4 n h l d)) = ix3 n l (Spec.oc h d) := head_idx n h l d

theorem head_idx_v (n : Fin 4) (h : Fin 16) (l : Fin 1024) (d : Fin 64) :
    idx_main_v26 (idx_main_v27 (ix4 n h l d)) = ix3 n l (Spec.oc h d) := head_idx n h l d

theorem slab0_idx (n : Fin 4) (l : Fin 1024) (o : Fin 1024) : idx_main_v4 (ix3 n l o) = ix3 n l (Spec.row0 o) :=
  funext fun a => Fin.ext (by
    match a with
    | ⟨0, _⟩ => rfl
    | ⟨1, _⟩ => rfl
    | ⟨2, _⟩ => rfl)

theorem slab1_idx (n : Fin 4) (l : Fin 1024) (o : Fin 1024) : idx_main_v5 (ix3 n l o) = ix3 n l (Spec.row1 o) :=
  funext fun a => Fin.ext (by
    match a with
    | ⟨0, _⟩ => rfl
    | ⟨1, _⟩ => rfl
    | ⟨2, _⟩ => rfl)

theorem slab2_idx (n : Fin 4) (l : Fin 1024) (o : Fin 1024) : idx_main_v6 (ix3 n l o) = ix3 n l (Spec.row2 o) :=
  funext fun a => Fin.ext (by
    match a with
    | ⟨0, _⟩ => rfl
    | ⟨1, _⟩ => rfl
    | ⟨2, _⟩ => rfl)

/-! ## The three projections -/

theorem ref_q (x0 : (⟨S4x1024x1024, .f32⟩ : BufTy).Contents (Elt Ideal)) (x1 : (⟨S3072x1024, .f32⟩ : BufTy).Contents (Elt Ideal)) (x2 : (⟨S3072, .f32⟩ : BufTy).Contents (Elt Ideal)) (x3 : (⟨S8x1024, .f32⟩ : BufTy).Contents (Elt Ideal)) (x4 : (⟨S1024x8, .f32⟩ : BufTy).Contents (Elt Ideal)) :
    val_main_v23 (F := Ideal) x0 x1 x2 x3 x4 = Spec.projA Spec.row0 x0 x1 x2 x3 x4 := by
  funext i
  obtain ⟨n, h, l, d, rfl⟩ : ∃ (n : Fin 4) (h : Fin 16) (l : Fin 1024) (d : Fin 64), i = ix4 n h l d :=
    ⟨i 0, i 1, i 2, i 3, eq_ix4 i⟩
  rw [val_main_v23_apply, val_main_v22_apply, head_idx, val_main_v11_apply, val_main_v4_apply, slab0_idx, dense_at,
    lora_at, Ideal.addf_def]
  rfl

theorem ref_k (x0 : (⟨S4x1024x1024, .f32⟩ : BufTy).Contents (Elt Ideal)) (x1 : (⟨S3072x1024, .f32⟩ : BufTy).Contents (Elt Ideal)) (x2 : (⟨S3072, .f32⟩ : BufTy).Contents (Elt Ideal)) (x5 : (⟨S8x1024, .f32⟩ : BufTy).Contents (Elt Ideal)) (x6 : (⟨S1024x8, .f32⟩ : BufTy).Contents (Elt Ideal)) :
    val_main_v25 (F := Ideal) x0 x1 x2 x5 x6 = Spec.projA Spec.row1 x0 x1 x2 x5 x6 := by
  funext i
  obtain ⟨n, h, l, d, rfl⟩ : ∃ (n : Fin 4) (h : Fin 16) (l : Fin 1024) (d : Fin 64), i = ix4 n h l d :=
    ⟨i 0, i 1, i 2, i 3, eq_ix4 i⟩
  rw [val_main_v25_apply, val_main_v24_apply, head_idx_k,
    val_main_v16_apply, val_main_v5_apply, slab1_idx, dense_at, lora_at_k, Ideal.addf_def]
  rfl

theorem ref_v (x0 : (⟨S4x1024x1024, .f32⟩ : BufTy).Contents (Elt Ideal)) (x1 : (⟨S3072x1024, .f32⟩ : BufTy).Contents (Elt Ideal)) (x2 : (⟨S3072, .f32⟩ : BufTy).Contents (Elt Ideal)) (x7 : (⟨S8x1024, .f32⟩ : BufTy).Contents (Elt Ideal)) (x8 : (⟨S1024x8, .f32⟩ : BufTy).Contents (Elt Ideal)) :
    val_main_v27 (F := Ideal) x0 x1 x2 x7 x8 = Spec.projA Spec.row2 x0 x1 x2 x7 x8 := by
  funext i
  obtain ⟨n, h, l, d, rfl⟩ : ∃ (n : Fin 4) (h : Fin 16) (l : Fin 1024) (d : Fin 64), i = ix4 n h l d :=
    ⟨i 0, i 1, i 2, i 3, eq_ix4 i⟩
  rw [val_main_v27_apply, val_main_v26_apply, head_idx_v,
    val_main_v21_apply, val_main_v6_apply, slab2_idx, dense_at, lora_at_v, Ideal.addf_def]
  rfl

end Cert.ReferenceIdeal.RefVal

end
-- ==== Proof.RAttn.lean ====
/-
  The reference's attention, read as a value of its three head-layout projections and the scale argument: rows
  normalised, cosine logits times the per-head scale, the softmax with the row maximum subtracted, the weighted
  average of the value rows.
-/
import proofs.«154373_j91061896609820_1_alg».proof.Proof.Gen.ReferenceIdeal.Read
import proofs.«154373_j91061896609820_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefVal

open Idealize.ShloMosaic Idealize.ShloMosaic.TcCoe Idealize.SL.Sem Idealize.ShloMosaic.ValueIdx
open Cert.ReferenceIdeal Cert.ReferenceIdeal.Read

section Stages

variable (x0 : (⟨S4x1024x1024, .f32⟩ : BufTy).Contents (Elt Ideal)) (x1 : (⟨S3072x1024, .f32⟩ : BufTy).Contents (Elt Ideal))
  (x2 : (⟨S3072, .f32⟩ : BufTy).Contents (Elt Ideal)) (x3 : (⟨S8x1024, .f32⟩ : BufTy).Contents (Elt Ideal))
  (x4 : (⟨S1024x8, .f32⟩ : BufTy).Contents (Elt Ideal)) (x5 : (⟨S8x1024, .f32⟩ : BufTy).Contents (Elt Ideal))
  (x6 : (⟨S1024x8, .f32⟩ : BufTy).Contents (Elt Ideal)) (x7 : (⟨S8x1024, .f32⟩ : BufTy).Contents (Elt Ideal))
  (x8 : (⟨S1024x8, .f32⟩ : BufTy).Contents (Elt Ideal)) (x9 : (⟨S16x1x1, .f32⟩ : BufTy).Contents (Elt Ideal))

/-! ## The norm of a row and a normalised entry -/

/-- The floored norm of row (n, h, l) of the first projection: max(√(Σ_e t²), ε). -/
theorem attn_v34_at (n : Fin 4) (h : Fin 16) (l : Fin 1024) (d : Fin 64) :
    val_main_v34 (F := Ideal) x0 x1 x2 x3 x4 (ix4 n h l d)
      = max (Ideal.sqrt (∑ e : Fin 64, val_main_v23 (F := Ideal) x0 x1 x2 x3 x4 (ix4 n h l e)
              * val_main_v23 (F := Ideal) x0 x1 x2 x3 x4 (ix4 n h l e))) Spec.eps := by
  rw [val_main_v34_apply, val_main_v33_apply, val_main_v31_apply, val_main_v30_apply, val_main_v29_apply, val_main_v32_apply,
    val_main_cst_3_apply, val_main_cst_2_apply]
  have e : ∀ k : Fin 64, idx_main_v29 (idx_main_v30 (idx_main_v34 (ix4 n h l d))) k = ix4 n h l k := fun k =>
    funext fun a => Fin.ext (by match a with | ⟨0, _⟩ => rfl | ⟨1, _⟩ => rfl | ⟨2, _⟩ => rfl | ⟨3, _⟩ => rfl)
  simp only [e, val_main_v28_apply, Ideal.maximumf_def, Ideal.hostUnary_sqrt_def, Ideal.mulf_def, Ideal.ofBits_def,
    Ideal.ofBits_zero_f32, zero_add]
  rfl

/-- An entry of the first projection divided by its row's floored norm. -/
theorem attn_v35_at (n : Fin 4) (h : Fin 16) (l : Fin 1024) (d : Fin 64) :
    val_main_v35 (F := Ideal) x0 x1 x2 x3 x4 (ix4 n h l d)
      = Spec.nrmH (fun l d => val_main_v23 (F := Ideal) x0 x1 x2 x3 x4 (ix4 n h l d)) l d := by
  rw [val_main_v35_apply, attn_v34_at, Ideal.hostDivf_def]
  rfl

/-- The floored norm of row (n, h, l) of the second projection. -/
theorem attn_v42_at (n : Fin 4) (h : Fin 16) (l : Fin 1024) (d : Fin 64) :
    val_main_v42 (F := Ideal) x0 x1 x2 x5 x6 (ix4 n h l d)
      = max (Ideal.sqrt (∑ e : Fin 64, val_main_v25 (F := Ideal) x0 x1 x2 x5 x6 (ix4 n h l e)
              * val_main_v25 (F := Ideal) x0 x1 x2 x5 x6 (ix4 n h l e))) Spec.eps := by
  rw [val_main_v42_apply, val_main_v41_apply, val_main_v39_apply, val_main_v38_apply, val_main_v37_apply, val_main_v40_apply,
    val_main_cst_5_apply, val_main_cst_4_apply]
  have e : ∀ k : Fin 64, idx_main_v37 (idx_main_v38 (idx_main_v42 (ix4 n h l d))) k = ix4 n h l k := fun k =>
    funext fun a => Fin.ext (by match a with | ⟨0, _⟩ => rfl | ⟨1, _⟩ => rfl | ⟨2, _⟩ => rfl | ⟨3, _⟩ => rfl)
  simp only [e, val_main_v36_apply, Ideal.maximumf_def, Ideal.hostUnary_sqrt_def, Ideal.mulf_def, Ideal.ofBits_def,
    Ideal.ofBits_zero_f32, zero_add]
  rfl

/-- An entry of the second projection divided by its row's floored norm. -/
theorem attn_v43_at (n : Fin 4) (h : Fin 16) (l : Fin 1024) (d : Fin 64) :
    val_main_v43 (F := Ideal) x0 x1 x2 x5 x6 (ix4 n h l d)
      = Spec.nrmH (fun l d => val_main_v25 (F := Ideal) x0 x1 x2 x5 x6 (ix4 n h l d)) l d := by
  rw [val_main_v43_apply, attn_v42_at, Ideal.hostDivf_def]
  rfl

/-! ## The logits -/

/-- The inner product of a normalised row of the first projection and one of the second. -/
theorem attn_v44_at (n : Fin 4) (h : Fin 16) (l j : Fin 1024) :
    val_main_v44 (F := Ideal) x0 x1 x2 x3 x4 x5 x6 (ix4 n h l j)
      = ∑ d : Fin 64, Spec.nrmH (fun l d => val_main_v23 (F := Ideal) x0 x1 x2 x3 x4 (ix4 n h l d)) l d
          * Spec.nrmH (fun l d => val_main_v25 (F := Ideal) x0 x1 x2 x5 x6 (ix4 n h l d)) j d := by
  rw [val_main_v44_apply]
  refine Finset.sum_congr rfl fun d _ => ?_
  have el : lidx_main_v44 (ix4 n h l j) d = ix4 n h l d :=
    funext fun a => Fin.ext (by match a with | ⟨0, _⟩ => rfl | ⟨1, _⟩ => rfl | ⟨2, _⟩ => rfl | ⟨3, _⟩ => rfl)
  have er : ridx_main_v44 (ix4 n h l j) d = ix4 n h j d :=
    funext fun a => Fin.ext (by match a with | ⟨0, _⟩ => rfl | ⟨1, _⟩ => rfl | ⟨2, _⟩ => rfl | ⟨3, _⟩ => rfl)
  rw [el, er, attn_v35_at, attn_v43_at]

/-- The scale of head h: exp(min(s_h, cap)). -/
theorem attn_v49_at (n : Fin 4) (h : Fin 16) (l j : Fin 1024) :
    val_main_v49 (F := Ideal) x9 (ix4 n h l j) = Spec.scaleA x9 (ix3 h 0 0) := by
  rw [val_main_v49_apply, val_main_v48_apply, val_main_v47_apply, val_main_v46_apply, val_main_v45_apply, val_main_cst_6_apply]
  have e : idx_main_v48 (idx_main_v49 (ix4 n h l j)) = ix3 h 0 0 :=
    funext fun a => Fin.ext (by match a with | ⟨0, _⟩ => rfl | ⟨1, _⟩ => rfl | ⟨2, _⟩ => rfl)
  rw [e]
  rfl

/-- A scaled logit. -/
theorem attn_v50_at (n : Fin 4) (h : Fin 16) (l j : Fin 1024) :
    val_main_v50 (F := Ideal) x0 x1 x2 x3 x4 x5 x6 x9 (ix4 n h l j)
      = Spec.logitH (fun l d => val_main_v23 (F := Ideal) x0 x1 x2 x3 x4 (ix4 n h l d))
          (fun l d => val_main_v25 (F := Ideal) x0 x1 x2 x5 x6 (ix4 n h l d)) (Spec.scaleA x9 (ix3 h 0 0)) l j := by
  rw [val_main_v50_apply, attn_v44_at, attn_v49_at, Ideal.mulf_def]
  rfl

/-! ## The row maximum -/

/-- A logit row's index with the coordinate of the reduced axis put back. -/
theorem attn_lift_ix3 (hR : S4x16x1024x1024.Reduces [3] S4x16x1024) (n : Fin 4) (h : Fin 16) (l : Fin 1024)
    (k : Fin (S4x16x1024x1024.size 3)) : hR.lift (ix3 n h l) k = ix4 n h l (⟨k.val, k.isLt⟩ : Fin 1024) := by
  funext c; apply Fin.ext
  fin_cases c <;> rfl

/-- The fold of max from −∞ over a row of logits. -/
theorem attn_v51_at (n : Fin 4) (h : Fin 16) (l : Fin 1024) :
    val_main_v51 (F := Ideal) x0 x1 x2 x3 x4 x5 x6 x9 (ix3 n h l)
      = (Finset.univ : Finset (Fin 1024)).fold max Spec.ninf
          (fun j => val_main_v50 (F := Ideal) x0 x1 x2 x3 x4 x5 x6 x9 (ix4 n h l j)) := by
  unfold val_main_v51
  have hR : S4x16x1024x1024.Reduces [3] S4x16x1024 := by decide
  rw [Host.reduce_eq_fold_single FloatOps.maximumf _ _ Gen.reducesTo_S4x16x1024x1024_S4x16x1024_d3 hR Gen.h_S_]
  have hf : (val_main_v50 (F := Ideal) x0 x1 x2 x3 x4 x5 x6 x9 ∘ hR.lift (ix3 n h l))
      = fun j : Fin 1024 => val_main_v50 (F := Ideal) x0 x1 x2 x3 x4 x5 x6 x9 (ix4 n h l j) :=
    funext fun k => congrArg (val_main_v50 (F := Ideal) x0 x1 x2 x3 x4 x5 x6 x9) (attn_lift_ix3 hR n h l k)
  exact congrArg (fun f => Finset.fold max Spec.ninf f (Finset.univ : Finset (Fin 1024))) hf

/-- The row maximum, once more against −∞. -/
theorem attn_v53_at (n : Fin 4) (h : Fin 16) (l : Fin 1024) :
    val_main_v53 (F := Ideal) x0 x1 x2 x3 x4 x5 x6 x9 (ix3 n h l)
      = Spec.rowmaxC (fun j => val_main_v50 (F := Ideal) x0 x1 x2 x3 x4 x5 x6 x9 (ix4 n h l j)) := by
  rw [val_main_v53_apply, val_main_v52_apply, val_main_cst_8_apply, attn_v51_at, Ideal.maximumf_def]
  rfl

/-- The row maximum spread along its row. -/
theorem attn_v55_at (n : Fin 4) (h : Fin 16) (l j : Fin 1024) :
    val_main_v55 (F := Ideal) x0 x1 x2 x3 x4 x5 x6 x9 (ix4 n h l j)
      = Spec.rowmaxC (fun j => val_main_v50 (F := Ideal) x0 x1 x2 x3 x4 x5 x6 x9 (ix4 n h l j)) := by
  rw [val_main_v55_apply, val_main_v54_apply]
  have e : idx_main_v54 (idx_main_v55 (ix4 n h l j)) = ix3 n h l :=
    funext fun a => Fin.ext (by match a with | ⟨0, _⟩ => rfl | ⟨1, _⟩ => rfl | ⟨2, _⟩ => rfl)
  rw [e, attn_v53_at]

/-! ## The softmax -/

/-- The exponential of a logit less its row's maximum. -/
theorem attn_v57_at (n : Fin 4) (h : Fin 16) (l j : Fin 1024) :
    val_main_v57 (F := Ideal) x0 x1 x2 x3 x4 x5 x6 x9 (ix4 n h l j)
      = Ideal.exp (val_main_v50 (F := Ideal) x0 x1 x2 x3 x4 x5 x6 x9 (ix4 n h l j)
          - Spec.rowmaxC (fun j => val_main_v50 (F := Ideal) x0 x1 x2 x3 x4 x5 x6 x9 (ix4 n h l j))) := by
  rw [val_main_v57_apply, val_main_v56_apply, attn_v55_at, Ideal.hostUnary_exp_def, Ideal.subf_def]

/-- The sum of a row's exponentials, spread along the row. -/
theorem attn_v60_at (n : Fin 4) (h : Fin 16) (l j : Fin 1024) :
    val_main_v60 (F := Ideal) x0 x1 x2 x3 x4 x5 x6 x9 (ix4 n h l j)
      = ∑ j' : Fin 1024, Ideal.exp (val_main_v50 (F := Ideal) x0 x1 x2 x3 x4 x5 x6 x9 (ix4 n h l j')
          - Spec.rowmaxC (fun j => val_main_v50 (F := Ideal) x0 x1 x2 x3 x4 x5 x6 x9 (ix4 n h l j))) := by
  rw [val_main_v60_apply, val_main_v59_apply, val_main_v58_apply, val_main_cst_9_apply]
  have e : ∀ k : Fin 1024, idx_main_v58 (idx_main_v59 (idx_main_v60 (ix4 n h l j))) k = ix4 n h l k := fun k =>
    funext fun a => Fin.ext (by match a with | ⟨0, _⟩ => rfl | ⟨1, _⟩ => rfl | ⟨2, _⟩ => rfl | ⟨3, _⟩ => rfl)
  simp only [e, attn_v57_at, Ideal.ofBits_def, Ideal.ofBits_zero_f32, zero_add]

/-- A softmax weight. -/
theorem attn_v61_at (n : Fin 4) (h : Fin 16) (l j : Fin 1024) :
    val_main_v61 (F := Ideal) x0 x1 x2 x3 x4 x5 x6 x9 (ix4 n h l j)
      = Spec.softC (fun j => val_main_v50 (F := Ideal) x0 x1 x2 x3 x4 x5 x6 x9 (ix4 n h l j)) j := by
  rw [val_main_v61_apply, attn_v57_at, attn_v60_at, Ideal.hostDivf_def]
  rfl

/-! ## The weighted average of the value rows -/

/-- The attention output at (n, h, l, d). -/
theorem attn_v62_at (n : Fin 4) (h : Fin 16) (l : Fin 1024) (d : Fin 64) :
    val_main_v62 (F := Ideal) x0 x1 x2 x3 x4 x5 x6 x7 x8 x9 (ix4 n h l d)
      = Spec.attnH (fun l d => val_main_v23 (F := Ideal) x0 x1 x2 x3 x4 (ix4 n h l d))
          (fun l d => val_main_v25 (F := Ideal) x0 x1 x2 x5 x6 (ix4 n h l d))
          (fun l d => val_main_v27 (F := Ideal) x0 x1 x2 x7 x8 (ix4 n h l d)) (Spec.scaleA x9 (ix3 h 0 0)) l d := by
  rw [val_main_v62_apply]
  unfold Spec.attnH
  refine Finset.sum_congr rfl fun j _ => ?_
  have el : lidx_main_v62 (ix4 n h l d) j = ix4 n h l j :=
    funext fun a => Fin.ext (by match a with | ⟨0, _⟩ => rfl | ⟨1, _⟩ => rfl | ⟨2, _⟩ => rfl | ⟨3, _⟩ => rfl)
  have er : ridx_main_v62 (ix4 n h l d) j = ix4 n h j d :=
    funext fun a => Fin.ext (by match a with | ⟨0, _⟩ => rfl | ⟨1, _⟩ => rfl | ⟨2, _⟩ => rfl | ⟨3, _⟩ => rfl)
  have hz : (fun j => val_main_v50 (F := Ideal) x0 x1 x2 x3 x4 x5 x6 x9 (ix4 n h l j))
      = Spec.logitH (fun l d => val_main_v23 (F := Ideal) x0 x1 x2 x3 x4 (ix4 n h l d))
          (fun l d => val_main_v25 (F := Ideal) x0 x1 x2 x5 x6 (ix4 n h l d)) (Spec.scaleA x9 (ix3 h 0 0)) l :=
    funext fun j => attn_v50_at x0 x1 x2 x3 x4 x5 x6 x9 n h l j
  rw [el, er, attn_v61_at, hz]

end Stages

theorem ref_attn (x0 : (⟨S4x1024x1024, .f32⟩ : BufTy).Contents (Elt Ideal)) (x1 : (⟨S3072x1024, .f32⟩ : BufTy).Contents (Elt Ideal)) (x2 : (⟨S3072, .f32⟩ : BufTy).Contents (Elt Ideal)) (x3 : (⟨S8x1024, .f32⟩ : BufTy).Contents (Elt Ideal)) (x4 : (⟨S1024x8, .f32⟩ : BufTy).Contents (Elt Ideal)) (x5 : (⟨S8x1024, .f32⟩ : BufTy).Contents (Elt Ideal)) (x6 : (⟨S1024x8, .f32⟩ : BufTy).Contents (Elt Ideal)) (x7 : (⟨S8x1024, .f32⟩ : BufTy).Contents (Elt Ideal)) (x8 : (⟨S1024x8, .f32⟩ : BufTy).Contents (Elt Ideal)) (x9 : (⟨S16x1x1, .f32⟩ : BufTy).Contents (Elt Ideal)) :
    val_main_v62 (F := Ideal) x0 x1 x2 x3 x4 x5 x6 x7 x8 x9
      = Spec.attnA (val_main_v23 (F := Ideal) x0 x1 x2 x3 x4) (val_main_v25 (F := Ideal) x0 x1 x2 x5 x6)
          (val_main_v27 (F := Ideal) x0 x1 x2 x7 x8) (Spec.scaleA x9) := by
  funext i
  obtain ⟨n, h, l, d, rfl⟩ : ∃ (n : Fin 4) (h : Fin 16) (l : Fin 1024) (d : Fin 64), i = ix4 n h l d :=
    ⟨i 0, i 1, i 2, i 3, eq_ix4 i⟩
  exact attn_v62_at x0 x1 x2 x3 x4 x5 x6 x7 x8 x9 n h l d

end Cert.ReferenceIdeal.RefVal

end
-- ==== Proof.ROut.lean ====
/-
  The reference's output map, read as a value of its attention output: the heads laid side by side again, the dense map
  with the output weight, the bias added.
-/
import proofs.«154373_j91061896609820_1_alg».proof.Proof.Gen.ReferenceIdeal.Read
import proofs.«154373_j91061896609820_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefVal

open Idealize.ShloMosaic Idealize.ShloMosaic.TcCoe Idealize.SL.Sem Idealize.ShloMosaic.ValueIdx
open Cert.ReferenceIdeal Cert.ReferenceIdeal.Read

/-! ## The index maps -/

/-- Channel `k` of position `l` is lane `k mod 64` of head `k div 64` at that position: the reshape reads the row-major
    position and the transpose swaps the two middle axes back. -/
theorem merge_idx (n : Fin 4) (l : Fin 1024) (o : Fin 1024) (k : Fin 1024) :
    idx_main_v63 (idx_main_v64 (lidx_main_v65 (ix3 n l o) k)) = ix4 n (Spec.hd k) l (Spec.ln k) := by
  have hn := n.isLt; have hl := l.isLt; have hk := k.isLt
  exact funext fun a => Fin.ext (by
    match a with
    | ⟨0, _⟩ => show ((n.val * 1024 + l.val) * 1024 + k.val) / 1048576 = n.val; omega
    | ⟨1, _⟩ => show ((n.val * 1024 + l.val) * 1024 + k.val) / 64 % 16 = k.val / 64; omega
    | ⟨2, _⟩ => show ((n.val * 1024 + l.val) * 1024 + k.val) / 1024 % 1024 = l.val; omega
    | ⟨3, _⟩ => show ((n.val * 1024 + l.val) * 1024 + k.val) % 64 = k.val % 64; omega)

theorem wo_idx (n : Fin 4) (l : Fin 1024) (o : Fin 1024) (k : Fin 1024) :
    ridx_main_v65 (ix3 n l o) k = ix2 o k :=
  funext fun a => Fin.ext (by
    match a with
    | ⟨0, _⟩ => rfl
    | ⟨1, _⟩ => rfl)

theorem bo_idx (n : Fin 4) (l : Fin 1024) (o : Fin 1024) :
    idx_main_v66 (idx_main_v67 (ix3 n l o)) = ix1 o :=
  funext fun a => Fin.ext (by
    match a with
    | ⟨0, _⟩ => rfl)

/-! ## The output map -/

/-- The dense map with its bias on any head-layout array, at one index. -/
theorem out_at (Y : Spec.SH.Idx → EReal) (x10 : (⟨S1024x1024, .f32⟩ : BufTy).Contents (Elt Ideal))
    (x11 : (⟨S1024, .f32⟩ : BufTy).Contents (Elt Ideal)) (n : Fin 4) (l : Fin 1024) (o : Fin 1024) :
    (∑ k : Fin 1024, Y (idx_main_v63 (idx_main_v64 (lidx_main_v65 (ix3 n l o) k))) * x10 (ridx_main_v65 (ix3 n l o) k))
        + x11 (idx_main_v66 (idx_main_v67 (ix3 n l o)))
      = Spec.outA Y x10 x11 (ix3 n l o) := by
  simp only [merge_idx, wo_idx, bo_idx]
  rfl

theorem ref_out (x0 : (⟨S4x1024x1024, .f32⟩ : BufTy).Contents (Elt Ideal)) (x1 : (⟨S3072x1024, .f32⟩ : BufTy).Contents (Elt Ideal)) (x2 : (⟨S3072, .f32⟩ : BufTy).Contents (Elt Ideal)) (x3 : (⟨S8x1024, .f32⟩ : BufTy).Contents (Elt Ideal)) (x4 : (⟨S1024x8, .f32⟩ : BufTy).Contents (Elt Ideal)) (x5 : (⟨S8x1024, .f32⟩ : BufTy).Contents (Elt Ideal)) (x6 : (⟨S1024x8, .f32⟩ : BufTy).Contents (Elt Ideal)) (x7 : (⟨S8x1024, .f32⟩ : BufTy).Contents (Elt Ideal)) (x8 : (⟨S1024x8, .f32⟩ : BufTy).Contents (Elt Ideal)) (x9 : (⟨S16x1x1, .f32⟩ : BufTy).Contents (Elt Ideal)) (x10 : (⟨S1024x1024, .f32⟩ : BufTy).Contents (Elt Ideal)) (x11 : (⟨S1024, .f32⟩ : BufTy).Contents (Elt Ideal)) :
    val_main_v68 (F := Ideal) x0 x1 x2 x3 x4 x5 x6 x7 x8 x9 x10 x11
      = Spec.outA (val_main_v62 (F := Ideal) x0 x1 x2 x3 x4 x5 x6 x7 x8 x9) x10 x11 := by
  funext i
  obtain ⟨n, l, o, rfl⟩ : ∃ (n : Fin 4) (l : Fin 1024) (o : Fin 1024), i = ix3 n l o := ⟨i 0, i 1, i 2, eq_ix3 i⟩
  rw [val_main_v68_apply, val_main_v65_apply, val_main_v67_apply, val_main_v66_apply, Ideal.addf_def]
  simp only [val_main_v64_apply, val_main_v63_apply]
  generalize val_main_v62 (F := Ideal) x0 x1 x2 x3 x4 x5 x6 x7 x8 x9 = Y
  exact out_at Y x10 x11 n l o

end Cert.ReferenceIdeal.RefVal

end
-- ==== Proof.RTotal.lean ====
/-
  The reference's result is the layer of the specification, as a function of the twelve arguments.
-/
import proofs.«154373_j91061896609820_1_alg».proof.Proof.RProj
import proofs.«154373_j91061896609820_1_alg».proof.Proof.RAttn
import proofs.«154373_j91061896609820_1_alg».proof.Proof.ROut

set_option maxRecDepth 16384

noncomputable section

namespace Cert.ReferenceIdeal.RefVal

open Idealize.ShloMosaic Idealize.ShloMosaic.TcCoe Idealize.SL.Sem Idealize.ShloMosaic.ValueIdx
open Cert.ReferenceIdeal Cert.ReferenceIdeal.Read

theorem ref_layer (x0 : (⟨S4x1024x1024, .f32⟩ : BufTy).Contents (Elt Ideal)) (x1 : (⟨S3072x1024, .f32⟩ : BufTy).Contents (Elt Ideal)) (x2 : (⟨S3072, .f32⟩ : BufTy).Contents (Elt Ideal)) (x3 : (⟨S8x1024, .f32⟩ : BufTy).Contents (Elt Ideal)) (x4 : (⟨S1024x8, .f32⟩ : BufTy).Contents (Elt Ideal)) (x5 : (⟨S8x1024, .f32⟩ : BufTy).Contents (Elt Ideal)) (x6 : (⟨S1024x8, .f32⟩ : BufTy).Contents (Elt Ideal)) (x7 : (⟨S8x1024, .f32⟩ : BufTy).Contents (Elt Ideal)) (x8 : (⟨S1024x8, .f32⟩ : BufTy).Contents (Elt Ideal)) (x9 : (⟨S16x1x1, .f32⟩ : BufTy).Contents (Elt Ideal)) (x10 : (⟨S1024x1024, .f32⟩ : BufTy).Contents (Elt Ideal)) (x11 : (⟨S1024, .f32⟩ : BufTy).Contents (Elt Ideal)) :
    val_main_v68 (F := Ideal) x0 x1 x2 x3 x4 x5 x6 x7 x8 x9 x10 x11
      = Spec.layerA x0 x1 x2 x3 x4 x5 x6 x7 x8 x9 x10 x11 := by
  rw [ref_out, ref_attn, ref_q, ref_k, ref_v]
  rfl

end Cert.ReferenceIdeal.RefVal

end
-- ==== Proof.LibRowReduce.lean ====
/-
  Reductions along the last axis, read at an index.

  A kernel's `vector.multi_reduction` of an [a, b] vector along its second axis is, at row p, the sum (for add) or the
  fold of max from the accumulator's value (for maximumf) over q of the entry (p, q). The host's `stablehlo.reduce` of an
  [a, b, c, d] array along its last axis is, at (p, q, r), the initial value plus the sum over k of the entry (p, q, r, k),
  or the fold of max from the initial value over them. In each case the source index over a result index with the dropped
  coordinate inserted is the plain coordinate tuple.
-/
import Idealize.ShloMosaic.PureOps.Ideal.Laws
import Idealize.ShloMosaic.Lib.ValueIdx

noncomputable section

namespace Cert.LibRowReduce

open Idealize.ShloMosaic Idealize.ShloMosaic.ValueIdx

/-- In an [a, b] shape reduced along axis 1, the index over row `p` with `q` inserted is (p, q). -/
theorem lift_row {a b : Nat} (h : Shape.Reduces ⟨2, ![a, b]⟩ [1] ⟨1, ![a]⟩) (p : Fin a) (q : Fin b) :
    h.lift (ix1 p) q = ix2 p q := by
  funext c
  apply Fin.ext
  match c with
  | ⟨0, _⟩ => rfl
  | ⟨1, _⟩ => rfl

/-- A row's maximum: the fold of max from the accumulator's value over the row's entries. -/
theorem multiReduction_max_row {a b : Nat} (src : FVec Ideal ⟨2, ![a, b]⟩ .f32) (acc : BitVec 32)
    (h : Shape.Reduces ⟨2, ![a, b]⟩ [1] ⟨1, ![a]⟩) (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun q => src (ix2 p q)) := by
  rw [Ideal.multiReduction_maximumf_single]
  show (Finset.univ : Finset (Fin b)).fold max (Ideal.ofBits .f32 acc) (fun q => src (h.lift (ix1 p) q)) = _
  exact congrArg (fun f => (Finset.univ : Finset (Fin b)).fold max (Ideal.ofBits .f32 acc) f)
    (funext fun q => congrArg src (lift_row h p q))

/-- A row's sum. -/
theorem multiReduction_add_row {a b : Nat} (src : FVec Ideal ⟨2, ![a, b]⟩ .f32) (acc : BitVec 32)
    (h : Shape.Reduces ⟨2, ![a, b]⟩ [1] ⟨1, ![a]⟩) (hφ : FKind.Formats .f32) (hacc : acc = FKind.add.neutral .f32 hφ) (p : Fin a) :
    multiReduction .add [1] ⟨1, ![a]⟩ src acc h hφ hacc (ix1 p) = ∑ q : Fin b, src (ix2 p q) := by
  rw [Ideal.multiReduction_add_single]
  show ∑ q : Fin b, src (h.lift (ix1 p) q) = _
  exact Finset.sum_congr rfl fun q _ => congrArg src (lift_row h p q)

/-- In an [a, b, c, d] shape reduced along its last axis, the index over (p, q, r) with `k` inserted is (p, q, r, k). -/
theorem lift_last4 {a b c d : Nat} (h : Shape.Reduces ⟨4, ![a, b, c, d]⟩ [3] ⟨3, ![a, b, c]⟩) (p : Fin a) (q : Fin b) (r : Fin c)
    (k : Fin d) : h.lift (ix3 p q r) k = ix4 p q r k := by
  funext e
  apply Fin.ext
  match e with
  | ⟨0, _⟩ => rfl
  | ⟨1, _⟩ => rfl
  | ⟨2, _⟩ => rfl
  | ⟨3, _⟩ => rfl

/-- The host's sum along the last axis of an [a, b, c, d] array: the initial value plus the sum of the entries. -/
theorem hostReduceAdd_last4 {a b c d : Nat} (h' : Shape.ReducesTo ⟨4, ![a, b, c, d]⟩ [3] ⟨3, ![a, b, c]⟩)
    (h : Shape.Reduces ⟨4, ![a, b, c, d]⟩ [3] ⟨3, ![a, b, c]⟩) (x : (⟨4, ![a, b, c, d]⟩ : Shape).Idx → EReal) (init : EReal)
    (p : Fin a) (q : Fin b) (r : Fin c) :
    Ideal.hostReduceAdd h' x init (ix3 p q r) = init + ∑ k : Fin d, x (ix4 p q r k) := by
  rw [Ideal.hostReduceAdd_single h' h]
  show init + ∑ k : Fin d, x (h.lift (ix3 p q r) k) = _
  exact congrArg (init + ·) (Finset.sum_congr rfl fun k _ => congrArg x (lift_last4 h p q r k))

/-- The host's maximum along the last axis of an [a, b, c, d] array: the fold of max from the initial value. -/
theorem hostReduce_max_last4 {a b c d : Nat} {u : Shape} (h' : Shape.ReducesTo ⟨4, ![a, b, c, d]⟩ [3] ⟨3, ![a, b, c]⟩)
    (h : Shape.Reduces ⟨4, ![a, b, c, d]⟩ [3] ⟨3, ![a, b, c]⟩) (x : (⟨4, ![a, b, c, d]⟩ : Shape).Idx → Ideal .f32)
    (init : u.Idx → Ideal .f32) (hu : 0 < u.numel) (p : Fin a) (q : Fin b) (r : Fin c) :
    Host.reduce (FloatOps.maximumf (F := Ideal) (φ := .f32)) x init h' hu (ix3 p q r)
      = (Finset.univ : Finset (Fin d)).fold max (init (Shape.Idx.first hu)) (fun k => x (ix4 p q r k)) := by
  rw [Host.reduce_eq_fold_single (FloatOps.maximumf (F := Ideal) (φ := .f32)) x init h' h hu]
  show (Finset.univ : Finset (Fin d)).fold max (init (Shape.Idx.first hu)) (fun k => x (h.lift (ix3 p q r) k)) = _
  exact congrArg (fun f => (Finset.univ : Finset (Fin d)).fold max (init (Shape.Idx.first hu)) f)
    (funext fun k => congrArg x (lift_last4 h p q r k))

end Cert.LibRowReduce

end
-- ==== Proof.lean ====
/-
  The certificate of one attention layer written as three kernels against its plain reference.

  The layer: three projections of x, each a dense map with a bias plus a rank-8 correction times two, laid out by
  heads; inside a head, rows divided by their norm (floored), cosine logits times exp(min(s_h, log 100)), a softmax with
  the row maximum subtracted, the weighted average of the value rows; the heads side by side again and one more dense
  map with a bias (Proof/Spec.lean). The kernel program computes the projections tile by tile in its first region from
  transposed operands, the attention head by head in its second, and the output map tile by tile in its third; the
  reference computes the same sums and quotients on whole arrays. At exact arithmetic on the extended reals a change
  of float format is the identity and a tiling does not change a sum, so both results are the layer of the arguments,
  index by index: no law beyond reading each operation at an index is used, and the precondition is never opened.

  The kernel program's frames are the generated ones; its result is read off the same launch with the result array in
  the post (Proof/KRun.lean) and unfolded region by region (Proof/KBlock*.lean: one grid point's block; Proof/KRegion*.lean:
  the blocks cover the array; Proof/KHost*.lean: the host operations between; Proof/KTotal.lean: joined). The reference's
  run and its operations read at an index are generated; Proof/RProj.lean, RAttn.lean, ROut.lean read the three stages as
  the specification's functions and Proof/RTotal.lean joins them. Proof/LibRowReduce.lean states, for any extents, a reduction
  along the last axis read at an index (a row's sum and a row's maximum, in a kernel and on the host).
-/
import proofs.«154373_j91061896609820_1_alg».proof.Defs
import proofs.«154373_j91061896609820_1_alg».proof.Proof.Gen.Kernel
import proofs.«154373_j91061896609820_1_alg».proof.Proof.Gen.Kernel.Skeleton
import proofs.«154373_j91061896609820_1_alg».proof.Proof.Gen.Kernel.Launch
import proofs.«154373_j91061896609820_1_alg».proof.Proof.Gen.Kernel.Points
import proofs.«154373_j91061896609820_1_alg».proof.Proof.Gen.Kernel.Frame
import proofs.«154373_j91061896609820_1_alg».proof.Proof.Gen.KernelIdeal
import proofs.«154373_j91061896609820_1_alg».proof.Proof.Gen.KernelIdeal.Skeleton
import proofs.«154373_j91061896609820_1_alg».proof.Proof.Gen.KernelIdeal.Launch
import proofs.«154373_j91061896609820_1_alg».proof.Proof.Gen.KernelIdeal.Points
import proofs.«154373_j91061896609820_1_alg».proof.Proof.Gen.KernelIdeal.Frame
import proofs.«154373_j91061896609820_1_alg».proof.Proof.Gen.ReferenceIdeal
import proofs.«154373_j91061896609820_1_alg».proof.Proof.Gen.Pre_finite_inputs
import proofs.«154373_j91061896609820_1_alg».proof.Proof.Gen.ReferenceIdeal.Run
import proofs.«154373_j91061896609820_1_alg».proof.Proof.Gen.ReferenceIdeal.Read
import proofs.«154373_j91061896609820_1_alg».proof.Proof.KRun
import proofs.«154373_j91061896609820_1_alg».proof.Proof.KTotal
import proofs.«154373_j91061896609820_1_alg».proof.Proof.RTotal
import proofs.«154373_j91061896609820_1_alg».proof.Proof.LibRowReduce
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the layer of the arguments in their result
    arrays: the kernel program by its three regions read as values, the reference by its operations read at an index. -/
theorem algebraic : Cert.algebraic_KernelIdeal_ReferenceIdeal := by
  intro m ρ m' ρ' _ hagree
  refine ⟨fun c => Cert.Spec.layerA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Val.V6_out m ρ c), (h c).2⟩)
      (Cert.KernelIdeal.Val.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v68_eq, Cert.ReferenceIdeal.RefVal.ref_layer]
    obtain ⟨h0, h1, h2, h3, h4, h5, h6, h7, h8, h9, h10, h11⟩ := hagree c
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
